-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_3)) (v1 : (c : Dev Cert.KernelIdeal.nD) → Buf (Elt Ideal) ((c.tc : Thread Cert.KernelIdeal.nD Cert.KernelIdeal.τ).loc Cert.KernelIdeal.main_v0_4)) (v2 : (c : Dev Cert.KernelIdeal.nD) → Buf (Elt Ideal) ((c.tc : Thread Cert.KernelIdeal.nD Cert.KernelIdeal.τ).loc Cert.KernelIdeal.main_v0_5)) (v3 : (c : Dev Cert.KernelIdeal.nD) → Buf (Elt Ideal) ((c.tc : Thread Cert.KernelIdeal.nD Cert.KernelIdeal.τ).loc Cert.KernelIdeal.main_v0_6)) (v4 : (c : Dev Cert.KernelIdeal.nD) → Buf (Elt Ideal) ((c.tc : Thread Cert.KernelIdeal.nD Cert.KernelIdeal.τ).loc Cert.KernelIdeal.main_v0_0)) (v5 : (c : Dev Cert.KernelIdeal.nD) → Buf (Elt Ideal) ((c.tc : Thread Cert.KernelIdeal.nD Cert.KernelIdeal.τ).loc Cert.KernelIdeal.main_v0_1)) (v6 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_3) = v0 c
          ∧ r.2.mem ((c.tc : Thread Cert.KernelIdeal.nD Cert.KernelIdeal.τ).loc Cert.KernelIdeal.main_v0_4) = v1 c
          ∧ r.2.mem ((c.tc : Thread Cert.KernelIdeal.nD Cert.KernelIdeal.τ).loc Cert.KernelIdeal.main_v0_5) = v2 c
          ∧ r.2.mem ((c.tc : Thread Cert.KernelIdeal.nD Cert.KernelIdeal.τ).loc Cert.KernelIdeal.main_v0_6) = v3 c
          ∧ r.2.mem ((c.tc : Thread Cert.KernelIdeal.nD Cert.KernelIdeal.τ).loc Cert.KernelIdeal.main_v0_0) = v4 c
          ∧ r.2.mem ((c.tc : Thread Cert.KernelIdeal.nD Cert.KernelIdeal.τ).loc Cert.KernelIdeal.main_v0_1) = v5 c
          ∧ r.2.mem ((c.tc : Thread Cert.KernelIdeal.nD Cert.KernelIdeal.τ).loc Cert.KernelIdeal.main_v0_2) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_v22) = v2 c
          ∧ r.2.mem ((c.tc : Thread Cert.ReferenceIdeal.nD Cert.ReferenceIdeal.τ).loc Cert.ReferenceIdeal.main_v23) = v3 c
          ∧ r.2.mem ((c.tc : Thread Cert.ReferenceIdeal.nD Cert.ReferenceIdeal.τ).loc Cert.ReferenceIdeal.main_v13) = v4 c
          ∧ r.2.mem ((c.tc : Thread Cert.ReferenceIdeal.nD Cert.ReferenceIdeal.τ).loc Cert.ReferenceIdeal.main_v21) = v5 c
          ∧ r.2.mem ((c.tc : Thread Cert.ReferenceIdeal.nD Cert.ReferenceIdeal.τ).loc Cert.ReferenceIdeal.main_v27) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x24 : Shape := ⟨2, ![262144, 24]⟩
abbrev S24x24 : Shape := ⟨2, ![24, 24]⟩
abbrev S24x50 : Shape := ⟨2, ![24, 50]⟩
abbrev S24x10 : Shape := ⟨2, ![24, 10]⟩
abbrev S10x10 : Shape := ⟨2, ![10, 10]⟩
abbrev S_ : Shape := ⟨0, ![]⟩

class Facts : Prop where
  bcast_S_S262144x24 : S_.BroadcastsInDim S262144x24 (![] : Fin 0 → Fin S262144x24.rank)
  reducesTo_S262144x24_S_d0_1 : S262144x24.ReducesTo [0, 1] S_
  h_S_ : 0 < S_.numel
  bcast_S_S24x24 : S_.BroadcastsInDim S24x24 (![] : Fin 0 → Fin S24x24.rank)
  reducesTo_S24x24_S_d0_1 : S24x24.ReducesTo [0, 1] S_
  bcast_S_S24x50 : S_.BroadcastsInDim S24x50 (![] : Fin 0 → Fin S24x50.rank)
  reducesTo_S24x50_S_d0_1 : S24x50.ReducesTo [0, 1] S_
  bcast_S_S24x10 : S_.BroadcastsInDim S24x10 (![] : Fin 0 → Fin S24x10.rank)
  reducesTo_S24x10_S_d0_1 : S24x10.ReducesTo [0, 1] S_
  bcast_S_S10x10 : S_.BroadcastsInDim S10x10 (![] : Fin 0 → Fin S10x10.rank)
  reducesTo_S10x10_S_d0_1 : S10x10.ReducesTo [0, 1] S_

variable [Facts]

def fn_part2 {F : FTy → Type} [FloatOps F] (main_arg7 : FVec F S24x10 .f32) (main_arg8 : FVec F S10x10 .f32) (main_v33 : IVec S_ 1) : IVec S_ 1 :=
  let main_v34 : FVec F S24x10 .f32 := Host.absf main_arg7
  let main_cst_12 : FVec F S_ .f32 := constant S_ .f32 0x7F800000#32
  let main_v35 : FVec F S24x10 .f32 := broadcastInDim S24x10 ![] bcast_S_S24x10 main_cst_12
  let main_v36 : IVec S24x10 1 := cmpf .olt main_v34 main_v35
  let main_c_13 : IVec S_ 1 := constantI S_ 1 1#1
  let main_v37 : IVec S_ 1 := (fun x v => Host.reduce IntOp.andi x v reducesTo_S24x10_S_d0_1 h_S_) main_v36 main_c_13
  let main_v38 : IVec S_ 1 := andi main_v33 main_v37
  let main_v39 : FVec F S10x10 .f32 := Host.absf main_arg8
  let main_cst_14 : FVec F S_ .f32 := constant S_ .f32 0x7F800000#32
  let main_v40 : FVec F S10x10 .f32 := broadcastInDim S10x10 ![] bcast_S_S10x10 main_cst_14
  let main_v41 : IVec S10x10 1 := cmpf .olt main_v39 main_v40
  let main_c_15 : IVec S_ 1 := constantI S_ 1 1#1
  let main_v42 : IVec S_ 1 := (fun x v => Host.reduce IntOp.andi x v reducesTo_S10x10_S_d0_1 h_S_) main_v41 main_c_15
  let main_v43 : IVec S_ 1 := andi main_v38 main_v42
  main_v43

def fn_part1 {F : FTy → Type} [FloatOps F] (main_arg4 : FVec F S24x50 .f32) (main_arg5 : FVec F S24x24 .f32) (main_arg6 : FVec F S24x10 .f32) (main_arg7 : FVec F S24x10 .f32) (main_arg8 : FVec F S10x10 .f32) (main_v13 : IVec S_ 1) (main_v16 : IVec S24x50 1) : IVec S_ 1 :=
  let main_c_5 : IVec S_ 1 := constantI S_ 1 1#1
  let main_v17 : IVec S_ 1 := (fun x v => Host.reduce IntOp.andi x v reducesTo_S24x50_S_d0_1 h_S_) main_v16 main_c_5
  let main_v18 : IVec S_ 1 := andi main_v13 main_v17
  let main_v19 : FVec F S24x50 .f32 := Host.absf main_arg4
  let main_cst_6 : FVec F S_ .f32 := constant S_ .f32 0x7F800000#32
  let main_v20 : FVec F S24x50 .f32 := broadcastInDim S24x50 ![] bcast_S_S24x50 main_cst_6
  let main_v21 : IVec S24x50 1 := cmpf .olt main_v19 main_v20
  let main_c_7 : IVec S_ 1 := constantI S_ 1 1#1
  let main_v22 : IVec S_ 1 := (fun x v => Host.reduce IntOp.andi x v reducesTo_S24x50_S_d0_1 h_S_) main_v21 main_c_7
  let main_v23 : IVec S_ 1 := andi main_v18 main_v22
  let main_v24 : FVec F S24x24 .f32 := Host.absf main_arg5
  let main_cst_8 : FVec F S_ .f32 := constant S_ .f32 0x7F800000#32
  let main_v25 : FVec F S24x24 .f32 := broadcastInDim S24x24 ![] bcast_S_S24x24 main_cst_8
  let main_v26 : IVec S24x24 1 := cmpf .olt main_v24 main_v25
  let main_c_9 : IVec S_ 1 := constantI S_ 1 1#1
  let main_v27 : IVec S_ 1 := (fun x v => Host.reduce IntOp.andi x v reducesTo_S24x24_S_d0_1 h_S_) main_v26 main_c_9
  let main_v28 : IVec S_ 1 := andi main_v23 main_v27
  let main_v29 : FVec F S24x10 .f32 := Host.absf main_arg6
  let main_cst_10 : FVec F S_ .f32 := constant S_ .f32 0x7F800000#32
  let main_v30 : FVec F S24x10 .f32 := broadcastInDim S24x10 ![] bcast_S_S24x10 main_cst_10
  let main_v31 : IVec S24x10 1 := cmpf .olt main_v29 main_v30
  let main_c_11 : IVec S_ 1 := constantI S_ 1 1#1
  let main_v32 : IVec S_ 1 := (fun x v => Host.reduce IntOp.andi x v reducesTo_S24x10_S_d0_1 h_S_) main_v31 main_c_11
  let main_v33 : IVec S_ 1 := andi main_v28 main_v32
  fn_part2 (F := F) main_arg7 main_arg8 main_v33

def fn {F : FTy → Type} [FloatOps F] (main_arg0 : FVec F S262144x24 .f32) (main_arg1 : FVec F S262144x24 .f32) (main_arg2 : FVec F S24x24 .f32) (main_arg3 : FVec F S24x50 .f32) (main_arg4 : FVec F S24x50 .f32) (main_arg5 : FVec F S24x24 .f32) (main_arg6 : FVec F S24x10 .f32) (main_arg7 : FVec F S24x10 .f32) (main_arg8 : FVec F S10x10 .f32) : IVec S_ 1 :=
  let main_v0 : FVec F S262144x24 .f32 := Host.absf main_arg0
  let main_cst : FVec F S_ .f32 := constant S_ .f32 0x7F800000#32
  let main_v1 : FVec F S262144x24 .f32 := broadcastInDim S262144x24 ![] bcast_S_S262144x24 main_cst
  let main_v2 : IVec S262144x24 1 := cmpf .olt main_v0 main_v1
  let main_c : IVec S_ 1 := constantI S_ 1 1#1
  let main_v3 : IVec S_ 1 := (fun x v => Host.reduce IntOp.andi x v reducesTo_S262144x24_S_d0_1 h_S_) main_v2 main_c
  let main_v4 : FVec F S262144x24 .f32 := Host.absf main_arg1
  let main_cst_0 : FVec F S_ .f32 := constant S_ .f32 0x7F800000#32
  let main_v5 : FVec F S262144x24 .f32 := broadcastInDim S262144x24 ![] bcast_S_S262144x24 main_cst_0
  let main_v6 : IVec S262144x24 1 := cmpf .olt main_v4 main_v5
  let main_c_1 : IVec S_ 1 := constantI S_ 1 1#1
  let main_v7 : IVec S_ 1 := (fun x v => Host.reduce IntOp.andi x v reducesTo_S262144x24_S_d0_1 h_S_) main_v6 main_c_1
  let main_v8 : IVec S_ 1 := andi main_v3 main_v7
  let main_v9 : FVec F S24x24 .f32 := Host.absf main_arg2
  let main_cst_2 : FVec F S_ .f32 := constant S_ .f32 0x7F800000#32
  let main_v10 : FVec F S24x24 .f32 := broadcastInDim S24x24 ![] bcast_S_S24x24 main_cst_2
  let main_v11 : IVec S24x24 1 := cmpf .olt main_v9 main_v10
  let main_c_3 : IVec S_ 1 := constantI S_ 1 1#1
  let main_v12 : IVec S_ 1 := (fun x v => Host.reduce IntOp.andi x v reducesTo_S24x24_S_d0_1 h_S_) main_v11 main_c_3
  let main_v13 : IVec S_ 1 := andi main_v8 main_v12
  let main_v14 : FVec F S24x50 .f32 := Host.absf main_arg3
  let main_cst_4 : FVec F S_ .f32 := constant S_ .f32 0x7F800000#32
  let main_v15 : FVec F S24x50 .f32 := broadcastInDim S24x50 ![] bcast_S_S24x50 main_cst_4
  let main_v16 : IVec S24x50 1 := cmpf .olt main_v14 main_v15
  fn_part1 (F := F) main_arg4 main_arg5 main_arg6 main_arg7 main_arg8 main_v13 main_v16
-- ==== Kernel.lean ====
abbrev S262144x24 : Shape := ⟨2, ![262144, 24]⟩
abbrev S24x24 : Shape := ⟨2, ![24, 24]⟩
abbrev S24x50 : Shape := ⟨2, ![24, 50]⟩
abbrev S24x10 : Shape := ⟨2, ![24, 10]⟩
abbrev S10x10 : Shape := ⟨2, ![10, 10]⟩
abbrev S262144x50 : Shape := ⟨2, ![262144, 50]⟩
abbrev S262144x10 : Shape := ⟨2, ![262144, 10]⟩
abbrev S8192x24 : Shape := ⟨2, ![8192, 24]⟩
abbrev S8192x50 : Shape := ⟨2, ![8192, 50]⟩
abbrev S8192x10 : Shape := ⟨2, ![8192, 10]⟩

abbrev nBuf : Space → Nat
  | .hbm => 16
  | .vmem => 25
  | .smem => 0
  | _ => 0

abbrev bufTy : (tb : Table) → Fin (tcTables nBuf tb) → BufTy
  | .hbm, ⟨0, _⟩ => ⟨S262144x24, .f32⟩
  | .hbm, ⟨1, _⟩ => ⟨S262144x24, .f32⟩
  | .hbm, ⟨2, _⟩ => ⟨S24x24, .f32⟩
  | .hbm, ⟨3, _⟩ => ⟨S24x50, .f32⟩
  | .hbm, ⟨4, _⟩ => ⟨S24x50, .f32⟩
  | .hbm, ⟨5, _⟩ => ⟨S24x24, .f32⟩
  | .hbm, ⟨6, _⟩ => ⟨S24x10, .f32⟩
  | .hbm, ⟨7, _⟩ => ⟨S24x10, .f32⟩
  | .hbm, ⟨8, _⟩ => ⟨S10x10, .f32⟩
  | .hbm, ⟨9, _⟩ => ⟨S262144x50, .f32⟩
  | .hbm, ⟨10, _⟩ => ⟨S262144x10, .f32⟩
  | .hbm, ⟨11, _⟩ => ⟨S262144x10, .f32⟩
  | .hbm, ⟨12, _⟩ => ⟨S24x50, .f32⟩
  | .hbm, ⟨13, _⟩ => ⟨S24x50, .f32⟩
  | .hbm, ⟨14, _⟩ => ⟨S24x10, .f32⟩
  | .hbm, ⟨15, _⟩ => ⟨S24x10, .f32⟩
  | .local _ .vmem, ⟨0, _⟩ => ⟨S8192x24, .f32⟩
  | .local _ .vmem, ⟨1, _⟩ => ⟨S8192x24, .f32⟩
  | .local _ .vmem, ⟨2, _⟩ => ⟨S8192x24, .f32⟩
  | .local _ .vmem, ⟨3, _⟩ => ⟨S8192x24, .f32⟩
  | .local _ .vmem, ⟨4, _⟩ => ⟨S24x24, .f32⟩
  | .local _ .vmem, ⟨5, _⟩ => ⟨S24x50, .f32⟩
  | .local _ .vmem, ⟨6, _⟩ => ⟨S24x50, .f32⟩
  | .local _ .vmem, ⟨7, _⟩ => ⟨S24x24, .f32⟩
  | .local _ .vmem, ⟨8, _⟩ => ⟨S24x10, .f32⟩
  | .local _ .vmem, ⟨9, _⟩ => ⟨S24x10, .f32⟩
  | .local _ .vmem, ⟨10, _⟩ => ⟨S10x10, .f32⟩
  | .local _ .vmem, ⟨11, _⟩ => ⟨S8192x50, .f32⟩
  | .local _ .vmem, ⟨12, _⟩ => ⟨S8192x50, .f32⟩
  | .local _ .vmem, ⟨13, _⟩ => ⟨S8192x10, .f32⟩
  | .local _ .vmem, ⟨14, _⟩ => ⟨S8192x10, .f32⟩
  | .local _ .vmem, ⟨15, _⟩ => ⟨S8192x10, .f32⟩
  | .local _ .vmem, ⟨16, _⟩ => ⟨S8192x10, .f32⟩
  | .local _ .vmem, ⟨17, _⟩ => ⟨S24x50, .f32⟩
  | .local _ .vmem, ⟨18, _⟩ => ⟨S24x50, .f32⟩
  | .local _ .vmem, ⟨19, _⟩ => ⟨S24x10, .f32⟩
  | .local _ .vmem, ⟨20, _⟩ => ⟨S24x10, .f32⟩
  | .local _ .vmem, ⟨21, _⟩ => ⟨S24x50, .f32⟩
  | .local _ .vmem, ⟨22, _⟩ => ⟨S24x50, .f32⟩
  | .local _ .vmem, ⟨23, _⟩ => ⟨S24x10, .f32⟩
  | .local _ .vmem, ⟨24, _⟩ => ⟨S24x10, .f32⟩
  | _, _ => ⟨S262144x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem13_0 : DmaSem sig := 18
abbrev cc0_sem14_0 : DmaSem sig := 19
abbrev cc0_sem15_0 : DmaSem sig := 20

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v81 : BitVec 1 := Scalar.cmpi .eq arg0 c31_i32
  let v82 : BitVec 32 := Scalar.extui v81
  let c0_i32_55 : BitVec 32 := 0#32
  let v83 : BitVec 1 := Scalar.cmpi .ne v82 c0_i32_55
  v83

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x24 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x24 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S24x24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S24x50 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S24x50 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S24x24 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S24x10 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S24x10 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S10x10 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8192x50 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8192x10 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8192x10 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S24x50 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S24x50 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S24x10 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S24x10 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

class Facts₀ : Prop where
  inb_S24x50_S24x50_0_0 : ∀ a, (![0, 0] : Fin 2 → Nat) a + S24x50.size a ≤ S24x50.size a
  h_S24x50 : 0 < S24x50.numel
  shapeCasts_S24x50_S24x50 : S24x50.ShapeCasts S24x50
  inb_S24x10_S24x10_0_0 : ∀ a, (![0, 0] : Fin 2 → Nat) a + S24x10.size a ≤ S24x10.size a
  h_S24x10 : 0 < S24x10.numel
  shapeCasts_S24x10_S24x10 : S24x10.ShapeCasts S24x10
  inb_S8192x24_S8192x24_0_0 : ∀ a, (![0, 0] : Fin 2 → Nat) a + S8192x24.size a ≤ S8192x24.size a
  h_S8192x24 : 0 < S8192x24.numel
  bitsLt_bf16_f32 : FTy.bits .bf16 < FTy.bits .f32
  inb_S24x24_S24x24_0_0 : ∀ a, (![0, 0] : Fin 2 → Nat) a + S24x24.size a ≤ S24x24.size a
  h_S24x24 : 0 < S24x24.numel
  inb_S10x10_S10x10_0_0 : ∀ a, (![0, 0] : Fin 2 → Nat) a + S10x10.size a ≤ S10x10.size a
  h_S10x10 : 0 < S10x10.numel
  natLt_1_32 : 1 < 32
  inb_S8192x50_S8192x50_0_0 : ∀ a, (![0, 0] : Fin 2 → Nat) a + S8192x50.size a ≤ S8192x50.size a
  h_S8192x50 : 0 < S8192x50.numel
  inb_S8192x10_S8192x10_0_0 : ∀ a, (![0, 0] : Fin 2 → Nat) a + S8192x10.size a ≤ S8192x10.size a
  h_S8192x10 : 0 < S8192x10.numel
  dot_S8192x24_S24x24_S8192x24_1_0_0_1_n_n_wf : DotDims.WF S8192x24 S24x24 S8192x24 [1] [0] [0] [1] [] []
  dot_S8192x24_S24x50_S8192x50_1_0_0_1_n_n_wf : DotDims.WF S8192x24 S24x50 S8192x50 [1] [0] [0] [1] [] []
  dot_S8192x24_S8192x50_S24x50_0_0_1_1_n_n_wf : DotDims.WF S8192x24 S8192x50 S24x50 [0] [0] [1] [1] [] []
  dot_S8192x24_S24x10_S8192x10_1_0_0_1_n_n_wf : DotDims.WF S8192x24 S24x10 S8192x10 [1] [0] [0] [1] [] []
  dot_S8192x24_S8192x10_S24x10_0_0_1_1_n_n_wf : DotDims.WF S8192x24 S8192x10 S24x10 [0] [0] [1] [1] [] []
  dot_S8192x10_S10x10_S8192x10_1_0_0_1_n_n_wf : DotDims.WF S8192x10 S10x10 S8192x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x24.size a ≤ S262144x24.size a
  hwx0_0 : ∀ i : grid0.Coords, EltTy.bits .f32 = 32 ∨ (Rect.block (s := S262144x24) S8192x24.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x24.size a ≤ S262144x24.size a
  hwx0_1 : ∀ i : grid0.Coords, EltTy.bits .f32 = 32 ∨ (Rect.block (s := S262144x24) S8192x24.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S24x24.size a ≤ S24x24.size a
  hwx0_2 : ∀ i : grid0.Coords, EltTy.bits .f32 = 32 ∨ (Rect.block (s := S24x24) S24x24.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S24x50.size a ≤ S24x50.size a
  hwx0_3 : ∀ i : grid0.Coords, EltTy.bits .f32 = 32 ∨ (Rect.block (s := S24x50) S24x50.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S24x50.size a ≤ S24x50.size a
  hwx0_4 : ∀ i : grid0.Coords, EltTy.bits .f32 = 32 ∨ (Rect.block (s := S24x50) S24x50.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S24x24.size a ≤ S24x24.size a
  hwx0_5 : ∀ i : grid0.Coords, EltTy.bits .f32 = 32 ∨ (Rect.block (s := S24x24) S24x24.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S24x10.size a ≤ S24x10.size a
  hwx0_6 : ∀ i : grid0.Coords, EltTy.bits .f32 = 32 ∨ (Rect.block (s := S24x10) S24x10.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S24x10.size a ≤ S24x10.size a
  hwx0_7 : ∀ i : grid0.Coords, EltTy.bits .f32 = 32 ∨ (Rect.block (s := S24x10) S24x10.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S10x10.size a ≤ S10x10.size a
  hwx0_8 : ∀ i : grid0.Coords, EltTy.bits .f32 = 32 ∨ (Rect.block (s := S10x10) S10x10.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8192x50.size a ≤ S262144x50.size a
  hwx0_9 : ∀ i : grid0.Coords, EltTy.bits .f32 = 32 ∨ (Rect.block (s := S262144x50) S8192x50.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S8192x10.size a ≤ S262144x10.size a
  hwx0_10 : ∀ i : grid0.Coords, EltTy.bits .f32 = 32 ∨ (Rect.block (s := S262144x10) S8192x10.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S8192x10.size a ≤ S262144x10.size a
  hwx0_11 : ∀ i : grid0.Coords, EltTy.bits .f32 = 32 ∨ (Rect.block (s := S262144x10) S8192x10.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S24x50.size a ≤ S24x50.size a
  hwx0_12 : ∀ i : grid0.Coords, EltTy.bits .f32 = 32 ∨ (Rect.block (s := S24x50) S24x50.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S24x50.size a ≤ S24x50.size a
  hwx0_13 : ∀ i : grid0.Coords, EltTy.bits .f32 = 32 ∨ (Rect.block (s := S24x50) S24x50.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S24x10.size a ≤ S24x10.size a
  hwx0_14 : ∀ i : grid0.Coords, EltTy.bits .f32 = 32 ∨ (Rect.block (s := S24x10) S24x10.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S24x10.size a ≤ S24x10.size a
  hwx0_15 : ∀ i : grid0.Coords, EltTy.bits .f32 = 32 ∨ (Rect.block (s := S24x10) S24x10.size (cc0_transform_15 i) (hinb0_15 i)).WholeWords (EltTy.packing .f32)

variable [Facts₀]

def dot_S8192x24_S24x24_S8192x24_1_0_0_1_n_n : DotDims S8192x24 S24x24 S8192x24 where
  lhsContracting := [1]
  rhsContracting := [0]
  lhsNonContracting := [0]
  rhsNonContracting := [1]
  lhsBatch := []
  rhsBatch := []
  wf := dot_S8192x24_S24x24_S8192x24_1_0_0_1_n_n_wf
def dot_S8192x24_S24x50_S8192x50_1_0_0_1_n_n : DotDims S8192x24 S24x50 S8192x50 where
  lhsContracting := [1]
  rhsContracting := [0]
  lhsNonContracting := [0]
  rhsNonContracting := [1]
  lhsBatch := []
  rhsBatch := []
  wf := dot_S8192x24_S24x50_S8192x50_1_0_0_1_n_n_wf
def dot_S8192x24_S8192x50_S24x50_0_0_1_1_n_n : DotDims S8192x24 S8192x50 S24x50 where
  lhsContracting := [0]
  rhsContracting := [0]
  lhsNonContracting := [1]
  rhsNonContracting := [1]
  lhsBatch := []
  rhsBatch := []
  wf := dot_S8192x24_S8192x50_S24x50_0_0_1_1_n_n_wf
def dot_S8192x24_S24x10_S8192x10_1_0_0_1_n_n : DotDims S8192x24 S24x10 S8192x10 where
  lhsContracting := [1]
  rhsContracting := [0]
  lhsNonContracting := [0]
  rhsNonContracting := [1]
  lhsBatch := []
  rhsBatch := []
  wf := dot_S8192x24_S24x10_S8192x10_1_0_0_1_n_n_wf
def dot_S8192x24_S8192x10_S24x10_0_0_1_1_n_n : DotDims S8192x24 S8192x10 S24x10 where
  lhsContracting := [0]
  rhsContracting := [0]
  lhsNonContracting := [1]
  rhsNonContracting := [1]
  lhsBatch := []
  rhsBatch := []
  wf := dot_S8192x24_S8192x10_S24x10_0_0_1_1_n_n_wf
def dot_S8192x10_S10x10_S8192x10_1_0_0_1_n_n : DotDims S8192x10 S10x10 S8192x10 where
  lhsContracting := [1]
  rhsContracting := [0]
  lhsNonContracting := [0]
  rhsNonContracting := [1]
  lhsBatch := []
  rhsBatch := []
  wf := dot_S8192x10_S10x10_S8192x10_1_0_0_1_n_n_wf

abbrev win0_0 : Pipeline.Window sig grid0 :=
  Pipeline.Window.ofSpec (Memref.whole main_arg0) S8192x24.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x24.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S24x24.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S24x50.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S24x50.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S24x24.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S24x10.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S24x10.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S10x10.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0_0) S8192x50.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_1) S8192x10.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v0_2) S8192x10.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v0_3) S24x50.size cc0_transform_12 reads0_12 true true 1 stage0_12 sem0_12
    hrank0 hreads0_12 hinb0_12 nbuf0_12 (Memref.isWhole_whole _) hwx0_12 hstage0_12

abbrev win0_13 : Pipeline.Window sig grid0 :=
  Pipeline.Window.ofSpec (Memref.whole main_v0_4) S24x50.size cc0_transform_13 reads0_13 true true 1 stage0_13 sem0_13
    hrank0 hreads0_13 hinb0_13 nbuf0_13 (Memref.isWhole_whole _) hwx0_13 hstage0_13

abbrev win0_14 : Pipeline.Window sig grid0 :=
  Pipeline.Window.ofSpec (Memref.whole main_v0_5) S24x10.size cc0_transform_14 reads0_14 true true 1 stage0_14 sem0_14
    hrank0 hreads0_14 hinb0_14 nbuf0_14 (Memref.isWhole_whole _) hwx0_14 hstage0_14

abbrev win0_15 : Pipeline.Window sig grid0 :=
  Pipeline.Window.ofSpec (Memref.whole main_v0_6) S24x10.size cc0_transform_15 reads0_15 true true 1 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev idle0 : Fin 16 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun i => !(k0_cond2 i == 1#1) | 13 => fun i => !(k0_cond2 i == 1#1) | 14 => fun i => !(k0_cond2 i == 1#1) | 15 => fun i => !(k0_cond2 i == 1#1) | ⟨_ + 16, h⟩ => absurd h (Nat.not_lt.2 (Nat.le_add_left _ _))

class Facts : Prop extends Facts₀ where

variable [Facts]
-- ==== ReferenceIdeal.lean ====
abbrev S262144x24 : Shape := ⟨2, ![262144, 24]⟩
abbrev S24x24 : Shape := ⟨2, ![24, 24]⟩
abbrev S24x50 : Shape := ⟨2, ![24, 50]⟩
abbrev S24x10 : Shape := ⟨2, ![24, 10]⟩
abbrev S10x10 : Shape := ⟨2, ![10, 10]⟩
abbrev S_ : Shape := ⟨0, ![]⟩
abbrev S262144x50 : Shape := ⟨2, ![262144, 50]⟩
abbrev S262144x10 : Shape := ⟨2, ![262144, 10]⟩

abbrev nBuf : Space → Nat
  | .hbm => 42
  | .vmem => 0
  | .smem => 0
  | _ => 0

abbrev bufTy : (tb : Table) → Fin (tcTables nBuf tb) → BufTy
  | .hbm, ⟨0, _⟩ => ⟨S262144x24, .f32⟩
  | .hbm, ⟨1, _⟩ => ⟨S262144x24, .f32⟩
  | .hbm, ⟨2, _⟩ => ⟨S24x24, .f32⟩
  | .hbm, ⟨3, _⟩ => ⟨S24x50, .f32⟩
  | .hbm, ⟨4, _⟩ => ⟨S24x50, .f32⟩
  | .hbm, ⟨5, _⟩ => ⟨S24x24, .f32⟩
  | .hbm, ⟨6, _⟩ => ⟨S24x10, .f32⟩
  | .hbm, ⟨7, _⟩ => ⟨S24x10, .f32⟩
  | .hbm, ⟨8, _⟩ => ⟨S10x10, .f32⟩
  | .hbm, ⟨9, _⟩ => ⟨S262144x24, .f32⟩
  | .hbm, ⟨10, _⟩ => ⟨S_, .f32⟩
  | .hbm, ⟨11, _⟩ => ⟨S262144x24, .f32⟩
  | .hbm, ⟨12, _⟩ => ⟨S262144x24, .i1⟩
  | .hbm, ⟨13, _⟩ => ⟨S262144x24, .f32⟩
  | .hbm, ⟨14, _⟩ => ⟨S262144x24, .f32⟩
  | .hbm, ⟨15, _⟩ => ⟨S_, .f32⟩
  | .hbm, ⟨16, _⟩ => ⟨S262144x24, .f32⟩
  | .hbm, ⟨17, _⟩ => ⟨S262144x24, .i1⟩
  | .hbm, ⟨18, _⟩ => ⟨S262144x24, .f32⟩
  | .hbm, ⟨19, _⟩ => ⟨S262144x50, .f32⟩
  | .hbm, ⟨20, _⟩ => ⟨S262144x50, .f32⟩
  | .hbm, ⟨21, _⟩ => ⟨S262144x50, .f32⟩
  | .hbm, ⟨22, _⟩ => ⟨S_, .f32⟩
  | .hbm, ⟨23, _⟩ => ⟨S262144x50, .f32⟩
  | .hbm, ⟨24, _⟩ => ⟨S262144x50, .i1⟩
  | .hbm, ⟨25, _⟩ => ⟨S262144x50, .f32⟩
  | .hbm, ⟨26, _⟩ => ⟨S24x50, .f32⟩
  | .hbm, ⟨27, _⟩ => ⟨S24x50, .f32⟩
  | .hbm, ⟨28, _⟩ => ⟨S262144x10, .f32⟩
  | .hbm, ⟨29, _⟩ => ⟨S262144x10, .f32⟩
  | .hbm, ⟨30, _⟩ => ⟨S262144x10, .f32⟩
  | .hbm, ⟨31, _⟩ => ⟨S_, .f32⟩
  | .hbm, ⟨32, _⟩ => ⟨S262144x10, .f32⟩
  | .hbm, ⟨33, _⟩ => ⟨S262144x10, .i1⟩
  | .hbm, ⟨34, _⟩ => ⟨S262144x10, .f32⟩
  | .hbm, ⟨35, _⟩ => ⟨S24x10, .f32⟩
  | .hbm, ⟨36, _⟩ => ⟨S24x10, .f32⟩
  | .hbm, ⟨37, _⟩ => ⟨S262144x10, .f32⟩
  | .hbm, ⟨38, _⟩ => ⟨S_, .f32⟩
  | .hbm, ⟨39, _⟩ => ⟨S262144x10, .f32⟩
  | .hbm, ⟨40, _⟩ => ⟨S262144x10, .i1⟩
  | .hbm, ⟨41, _⟩ => ⟨S262144x10, .f32⟩
  | _, _ => ⟨S262144x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]

class Facts₀ : Prop where
  bcast_S_S262144x24 : S_.BroadcastsInDim S262144x24 (![] : Fin 0 → Fin S262144x24.rank)
  bcast_S_S262144x50 : S_.BroadcastsInDim S262144x50 (![] : Fin 0 → Fin S262144x50.rank)
  bcast_S_S262144x10 : S_.BroadcastsInDim S262144x10 (![] : Fin 0 → Fin S262144x10.rank)
  dot_S262144x24_S24x24_S262144x24_1_0_0_1_n_n_wf : DotDims.WF S262144x24 S24x24 S262144x24 [1] [0] [0] [1] [] []
  dot_S262144x24_S24x50_S262144x50_1_0_0_1_n_n_wf : DotDims.WF S262144x24 S24x50 S262144x50 [1] [0] [0] [1] [] []
  dot_S262144x24_S262144x50_S24x50_0_0_1_1_n_n_wf : DotDims.WF S262144x24 S262144x50 S24x50 [0] [0] [1] [1] [] []
  dot_S262144x24_S24x10_S262144x10_1_0_0_1_n_n_wf : DotDims.WF S262144x24 S24x10 S262144x10 [1] [0] [0] [1] [] []
  dot_S262144x24_S262144x10_S24x10_0_0_1_1_n_n_wf : DotDims.WF S262144x24 S262144x10 S24x10 [0] [0] [1] [1] [] []
  dot_S262144x10_S10x10_S262144x10_1_0_0_1_n_n_wf : DotDims.WF S262144x10 S10x10 S262144x10 [1] [0] [0] [1] [] []

variable [Facts₀]

def dot_S262144x24_S24x24_S262144x24_1_0_0_1_n_n : DotDims S262144x24 S24x24 S262144x24 where
  lhsContracting := [1]
  rhsContracting := [0]
  lhsNonContracting := [0]
  rhsNonContracting := [1]
  lhsBatch := []
  rhsBatch := []
  wf := dot_S262144x24_S24x24_S262144x24_1_0_0_1_n_n_wf
def dot_S262144x24_S24x50_S262144x50_1_0_0_1_n_n : DotDims S262144x24 S24x50 S262144x50 where
  lhsContracting := [1]
  rhsContracting := [0]
  lhsNonContracting := [0]
  rhsNonContracting := [1]
  lhsBatch := []
  rhsBatch := []
  wf := dot_S262144x24_S24x50_S262144x50_1_0_0_1_n_n_wf
def dot_S262144x24_S262144x50_S24x50_0_0_1_1_n_n : DotDims S262144x24 S262144x50 S24x50 where
  lhsContracting := [0]
  rhsContracting := [0]
  lhsNonContracting := [1]
  rhsNonContracting := [1]
  lhsBatch := []
  rhsBatch := []
  wf := dot_S262144x24_S262144x50_S24x50_0_0_1_1_n_n_wf
def dot_S262144x24_S24x10_S262144x10_1_0_0_1_n_n : DotDims S262144x24 S24x10 S262144x10 where
  lhsContracting := [1]
  rhsContracting := [0]
  lhsNonContracting := [0]
  rhsNonContracting := [1]
  lhsBatch := []
  rhsBatch := []
  wf := dot_S262144x24_S24x10_S262144x10_1_0_0_1_n_n_wf
def dot_S262144x24_S262144x10_S24x10_0_0_1_1_n_n : DotDims S262144x24 S262144x10 S24x10 where
  lhsContracting := [0]
  rhsContracting := [0]
  lhsNonContracting := [1]
  rhsNonContracting := [1]
  lhsBatch := []
  rhsBatch := []
  wf := dot_S262144x24_S262144x10_S24x10_0_0_1_1_n_n_wf
def dot_S262144x10_S10x10_S262144x10_1_0_0_1_n_n : DotDims S262144x10 S10x10 S262144x10 where
  lhsContracting := [1]
  rhsContracting := [0]
  lhsNonContracting := [0]
  rhsNonContracting := [1]
  lhsBatch := []
  rhsBatch := []
  wf := dot_S262144x10_S10x10_S262144x10_1_0_0_1_n_n_wf

class Facts : Prop extends Facts₀ where

variable [Facts]
-- ==== Proof.Body.lean ====
/-
  What one grid point computes from its blocks, named once.

  At a grid point the kernel holds a block of 8192 rows of each input and the seven weight matrices. From them it
  forms the mirror layers' spikes (rows of the first input through W0, rows of the second through W3), the spikes of
  the two merged layers (through W1, W2 and through W4, W5) and of the motor layer (through W6), which it writes out
  row by row; and it adds to each of four running totals the block's batch sum of products of a mirror layer's spikes
  with a merged layer's spikes. Each of these is a fixed composition of the body's printed payloads; the names below
  are those compositions, at any float family, so that what a case of the body leaves in a buffer can be stated
  without opening the arithmetic.
-/
import proofs.«150760_j46213848105974_1_alg».proof.Proof.Gen.KernelIdeal.Skeleton

noncomputable section

namespace Cert.KernelIdeal.Body

open Cert.KernelIdeal Cert.KernelIdeal.Gen Idealize.ShloMosaic

variable {F : FTy → Type} [FloatOps F]

/-- The spikes of the merged layer fed through W1 (`x3`) and W2 (`x4`), for one block. -/
def ifg (x0 x1 : Vec F S8192x24 .f32) (x2 : Vec F S24x24 .f32) (x3 x4 : Vec F S24x50 .f32) (x5 : Vec F S24x24 .f32) :
    FVec F S8192x50 .f32 :=
  k0_pay15 (k0_pay8 x3) (k0_pay9 x4) (k0_pay13 x0 x2) (k0_pay14 x1 x5) (constant S8192x50 .f32 0x00000000#32)

/-- The spikes of the merged layer fed through W4 (`x6`) and W5 (`x7`), for one block. -/
def sma (x0 x1 : Vec F S8192x24 .f32) (x2 x5 : Vec F S24x24 .f32) (x6 x7 : Vec F S24x10 .f32) : FVec F S8192x10 .f32 :=
  k0_pay19 (k0_pay10 x6) (k0_pay11 x7) (k0_pay13 x0 x2) (k0_pay14 x1 x5)

/-- The motor layer's spikes (through W6, `x8`), for one block. -/
def m1 (x0 x1 : Vec F S8192x24 .f32) (x2 x5 : Vec F S24x24 .f32) (x6 x7 : Vec F S24x10 .f32) (x8 : Vec F S10x10 .f32) :
    FVec F S8192x10 .f32 :=
  k0_pay3 (k0_pay12 x8) (k0_pay20 (k0_pay10 x6) (k0_pay11 x7) (k0_pay13 x0 x2) (k0_pay14 x1 x5))

/-- The running total of (first mirror layer)ᵀ·(first merged layer) after this block, over the total `a` before it. -/
def accIM (x0 x1 : Vec F S8192x24 .f32) (x2 : Vec F S24x24 .f32) (x3 x4 : Vec F S24x50 .f32) (x5 : Vec F S24x24 .f32)
    (a : Vec F S24x50 .f32) : FVec F S24x50 .f32 :=
  k0_pay17 (k0_pay8 x3) (k0_pay9 x4) (k0_pay13 x0 x2) (k0_pay14 x1 x5) (constant S8192x50 .f32 0x00000000#32) a

/-- The running total of (second mirror layer)ᵀ·(first merged layer). -/
def accIP (x0 x1 : Vec F S8192x24 .f32) (x2 : Vec F S24x24 .f32) (x3 x4 : Vec F S24x50 .f32) (x5 : Vec F S24x24 .f32)
    (a : Vec F S24x50 .f32) : FVec F S24x50 .f32 :=
  k0_pay18 (k0_pay8 x3) (k0_pay9 x4) (k0_pay13 x0 x2) (k0_pay14 x1 x5) (constant S8192x50 .f32 0x00000000#32) a

/-- The running total of (first mirror layer)ᵀ·(second merged layer). -/
def accSM (x0 x1 : Vec F S8192x24 .f32) (x2 x5 : Vec F S24x24 .f32) (x6 x7 : Vec F S24x10 .f32)
    (a : Vec F S24x10 .f32) : FVec F S24x10 .f32 :=
  k0_pay1 (k0_pay21 (k0_pay10 x6) (k0_pay11 x7) (k0_pay13 x0 x2) (k0_pay14 x1 x5) a)

/-- The running total of (second mirror layer)ᵀ·(second merged layer). -/
def accSP (x0 x1 : Vec F S8192x24 .f32) (x2 x5 : Vec F S24x24 .f32) (x6 x7 : Vec F S24x10 .f32)
    (a : Vec F S24x10 .f32) : FVec F S24x10 .f32 :=
  k0_pay2 (k0_pay14 x1 x5) (k0_pay20 (k0_pay10 x6) (k0_pay11 x7) (k0_pay13 x0 x2) (k0_pay14 x1 x5)) a

end Cert.KernelIdeal.Body

end
-- ==== Proof.PiecesA.lean ====
/-
  What the body leaves in its buffers at the grid's first point.

  At the first point the body resets the four running totals to zero before it adds the block's products, so each
  total ends as "zero, then this block's products added": two stores, the second reading the first back. The three
  row outputs are stored once, whole. Each buffer's final contents is therefore one of the block-level terms of
  Body.lean, over the blocks the point was handed.
-/
import proofs.«150760_j46213848105974_1_alg».proof.Proof.FrameKernelIdeal
import proofs.«150760_j46213848105974_1_alg».proof.Proof.Body
import Idealize.ShloMosaic.Lib.Pipeline.Value

set_option maxRecDepth 16384

noncomputable section

namespace Cert.KernelIdeal.PiecesA

open Cert.KernelIdeal Cert.KernelIdeal.Gen Cert.KernelIdeal.GenP Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- The merged layer through W1, W2: one whole store of the block's spikes. -/
theorem ifg (c : Dev nD) (i : grid0.Coords) (arg1 : Memref sig .tc .vmem S8192x24 .f32) (harg1 : arg1.IsWhole) (arg2 : Memref sig .tc .vmem S8192x24 .f32) (harg2 : arg2.IsWhole) (arg3 : Memref sig .tc .vmem S24x24 .f32) (harg3 : arg3.IsWhole) (arg4 : Memref sig .tc .vmem S24x50 .f32) (harg4 : arg4.IsWhole) (arg5 : Memref sig .tc .vmem S24x50 .f32) (harg5 : arg5.IsWhole) (arg6 : Memref sig .tc .vmem S24x24 .f32) (harg6 : arg6.IsWhole) (arg7 : Memref sig .tc .vmem S24x10 .f32) (harg7 : arg7.IsWhole) (arg8 : Memref sig .tc .vmem S24x10 .f32) (harg8 : arg8.IsWhole) (arg9 : Memref sig .tc .vmem S10x10 .f32) (harg9 : arg9.IsWhole) (arg10 : Memref sig .tc .vmem S8192x50 .f32) (harg10 : arg10.IsWhole) (arg11 : Memref sig .tc .vmem S8192x10 .f32) (harg11 : arg11.IsWhole) (arg12 : Memref sig .tc .vmem S8192x10 .f32) (harg12 : arg12.IsWhole) (arg13 : Memref sig .tc .vmem S24x50 .f32) (harg13 : arg13.IsWhole) (arg14 : Memref sig .tc .vmem S24x50 .f32) (harg14 : arg14.IsWhole) (arg15 : Memref sig .tc .vmem S24x10 .f32) (harg15 : arg15.IsWhole) (arg16 : Memref sig .tc .vmem S24x10 .f32) (harg16 : arg16.IsWhole) (arg17 : Memref sig .tc .vmem S24x50 .f32) (harg17 : arg17.IsWhole) (arg18 : Memref sig .tc .vmem S24x50 .f32) (harg18 : arg18.IsWhole) (arg19 : Memref sig .tc .vmem S24x10 .f32) (harg19 : arg19.IsWhole) (arg20 : Memref sig .tc .vmem S24x10 .f32) (harg20 : arg20.IsWhole) (hc0 : cond0_0 i) (hc1 : ¬cond0_1 i) (x0 : Vec F S8192x24 .f32) (x1 : Vec F S8192x24 .f32) (x2 : Vec F S24x24 .f32) (x3 : Vec F S24x50 .f32) (x4 : Vec F S24x50 .f32) (x5 : Vec F S24x24 .f32) (x6 : Vec F S24x10 .f32) (x7 : Vec F S24x10 .f32) (x8 : Vec F S10x10 .f32) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 = Body.ifg x0 x1 x2 x3 x4 x5 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg17.read_unread, harg18.read_unread, harg19.read_unread, harg20.read_unread, View.ld_unit_zero (S := S8192x24) hz, View.ld_unit_zero (S := S24x24) hz, View.ld_unit_zero (S := S24x50) hz, View.ld_unit_zero (S := S24x10) hz, View.ld_unit_zero (S := S10x10) hz]
  rfl

/-- The merged layer through W4, W5. -/
theorem sma (c : Dev nD) (i : grid0.Coords) (arg1 : Memref sig .tc .vmem S8192x24 .f32) (harg1 : arg1.IsWhole) (arg2 : Memref sig .tc .vmem S8192x24 .f32) (harg2 : arg2.IsWhole) (arg3 : Memref sig .tc .vmem S24x24 .f32) (harg3 : arg3.IsWhole) (arg4 : Memref sig .tc .vmem S24x50 .f32) (harg4 : arg4.IsWhole) (arg5 : Memref sig .tc .vmem S24x50 .f32) (harg5 : arg5.IsWhole) (arg6 : Memref sig .tc .vmem S24x24 .f32) (harg6 : arg6.IsWhole) (arg7 : Memref sig .tc .vmem S24x10 .f32) (harg7 : arg7.IsWhole) (arg8 : Memref sig .tc .vmem S24x10 .f32) (harg8 : arg8.IsWhole) (arg9 : Memref sig .tc .vmem S10x10 .f32) (harg9 : arg9.IsWhole) (arg10 : Memref sig .tc .vmem S8192x50 .f32) (harg10 : arg10.IsWhole) (arg11 : Memref sig .tc .vmem S8192x10 .f32) (harg11 : arg11.IsWhole) (arg12 : Memref sig .tc .vmem S8192x10 .f32) (harg12 : arg12.IsWhole) (arg13 : Memref sig .tc .vmem S24x50 .f32) (harg13 : arg13.IsWhole) (arg14 : Memref sig .tc .vmem S24x50 .f32) (harg14 : arg14.IsWhole) (arg15 : Memref sig .tc .vmem S24x10 .f32) (harg15 : arg15.IsWhole) (arg16 : Memref sig .tc .vmem S24x10 .f32) (harg16 : arg16.IsWhole) (arg17 : Memref sig .tc .vmem S24x50 .f32) (harg17 : arg17.IsWhole) (arg18 : Memref sig .tc .vmem S24x50 .f32) (harg18 : arg18.IsWhole) (arg19 : Memref sig .tc .vmem S24x10 .f32) (harg19 : arg19.IsWhole) (arg20 : Memref sig .tc .vmem S24x10 .f32) (harg20 : arg20.IsWhole) (hc0 : cond0_0 i) (hc1 : ¬cond0_1 i) (x0 : Vec F S8192x24 .f32) (x1 : Vec F S8192x24 .f32) (x2 : Vec F S24x24 .f32) (x3 : Vec F S24x50 .f32) (x4 : Vec F S24x50 .f32) (x5 : Vec F S24x24 .f32) (x6 : Vec F S24x10 .f32) (x7 : Vec F S24x10 .f32) (x8 : Vec F S10x10 .f32) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 = Body.sma x0 x1 x2 x5 x6 x7 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg17.read_unread, harg18.read_unread, harg19.read_unread, harg20.read_unread, View.ld_unit_zero (S := S8192x24) hz, View.ld_unit_zero (S := S24x24) hz, View.ld_unit_zero (S := S24x50) hz, View.ld_unit_zero (S := S24x10) hz, View.ld_unit_zero (S := S10x10) hz]
  rfl

/-- The motor layer. -/
theorem m1 (c : Dev nD) (i : grid0.Coords) (arg1 : Memref sig .tc .vmem S8192x24 .f32) (harg1 : arg1.IsWhole) (arg2 : Memref sig .tc .vmem S8192x24 .f32) (harg2 : arg2.IsWhole) (arg3 : Memref sig .tc .vmem S24x24 .f32) (harg3 : arg3.IsWhole) (arg4 : Memref sig .tc .vmem S24x50 .f32) (harg4 : arg4.IsWhole) (arg5 : Memref sig .tc .vmem S24x50 .f32) (harg5 : arg5.IsWhole) (arg6 : Memref sig .tc .vmem S24x24 .f32) (harg6 : arg6.IsWhole) (arg7 : Memref sig .tc .vmem S24x10 .f32) (harg7 : arg7.IsWhole) (arg8 : Memref sig .tc .vmem S24x10 .f32) (harg8 : arg8.IsWhole) (arg9 : Memref sig .tc .vmem S10x10 .f32) (harg9 : arg9.IsWhole) (arg10 : Memref sig .tc .vmem S8192x50 .f32) (harg10 : arg10.IsWhole) (arg11 : Memref sig .tc .vmem S8192x10 .f32) (harg11 : arg11.IsWhole) (arg12 : Memref sig .tc .vmem S8192x10 .f32) (harg12 : arg12.IsWhole) (arg13 : Memref sig .tc .vmem S24x50 .f32) (harg13 : arg13.IsWhole) (arg14 : Memref sig .tc .vmem S24x50 .f32) (harg14 : arg14.IsWhole) (arg15 : Memref sig .tc .vmem S24x10 .f32) (harg15 : arg15.IsWhole) (arg16 : Memref sig .tc .vmem S24x10 .f32) (harg16 : arg16.IsWhole) (arg17 : Memref sig .tc .vmem S24x50 .f32) (harg17 : arg17.IsWhole) (arg18 : Memref sig .tc .vmem S24x50 .f32) (harg18 : arg18.IsWhole) (arg19 : Memref sig .tc .vmem S24x10 .f32) (harg19 : arg19.IsWhole) (arg20 : Memref sig .tc .vmem S24x10 .f32) (harg20 : arg20.IsWhole) (hc0 : cond0_0 i) (hc1 : ¬cond0_1 i) (x0 : Vec F S8192x24 .f32) (x1 : Vec F S8192x24 .f32) (x2 : Vec F S24x24 .f32) (x3 : Vec F S24x50 .f32) (x4 : Vec F S24x50 .f32) (x5 : Vec F S24x24 .f32) (x6 : Vec F S24x10 .f32) (x7 : Vec F S24x10 .f32) (x8 : Vec F S10x10 .f32) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 = Body.m1 x0 x1 x2 x5 x6 x7 x8 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg17.read_unread, harg18.read_unread, harg19.read_unread, harg20.read_unread, View.ld_unit_zero (S := S8192x24) hz, View.ld_unit_zero (S := S24x24) hz, View.ld_unit_zero (S := S24x50) hz, View.ld_unit_zero (S := S24x10) hz, View.ld_unit_zero (S := S10x10) hz]
  rfl

/-- The first running total: the reset's zeros, then this block's products added to them. -/
theorem accIM (c : Dev nD) (i : grid0.Coords) (arg1 : Memref sig .tc .vmem S8192x24 .f32) (harg1 : arg1.IsWhole) (arg2 : Memref sig .tc .vmem S8192x24 .f32) (harg2 : arg2.IsWhole) (arg3 : Memref sig .tc .vmem S24x24 .f32) (harg3 : arg3.IsWhole) (arg4 : Memref sig .tc .vmem S24x50 .f32) (harg4 : arg4.IsWhole) (arg5 : Memref sig .tc .vmem S24x50 .f32) (harg5 : arg5.IsWhole) (arg6 : Memref sig .tc .vmem S24x24 .f32) (harg6 : arg6.IsWhole) (arg7 : Memref sig .tc .vmem S24x10 .f32) (harg7 : arg7.IsWhole) (arg8 : Memref sig .tc .vmem S24x10 .f32) (harg8 : arg8.IsWhole) (arg9 : Memref sig .tc .vmem S10x10 .f32) (harg9 : arg9.IsWhole) (arg10 : Memref sig .tc .vmem S8192x50 .f32) (harg10 : arg10.IsWhole) (arg11 : Memref sig .tc .vmem S8192x10 .f32) (harg11 : arg11.IsWhole) (arg12 : Memref sig .tc .vmem S8192x10 .f32) (harg12 : arg12.IsWhole) (arg13 : Memref sig .tc .vmem S24x50 .f32) (harg13 : arg13.IsWhole) (arg14 : Memref sig .tc .vmem S24x50 .f32) (harg14 : arg14.IsWhole) (arg15 : Memref sig .tc .vmem S24x10 .f32) (harg15 : arg15.IsWhole) (arg16 : Memref sig .tc .vmem S24x10 .f32) (harg16 : arg16.IsWhole) (arg17 : Memref sig .tc .vmem S24x50 .f32) (harg17 : arg17.IsWhole) (arg18 : Memref sig .tc .vmem S24x50 .f32) (harg18 : arg18.IsWhole) (arg19 : Memref sig .tc .vmem S24x10 .f32) (harg19 : arg19.IsWhole) (arg20 : Memref sig .tc .vmem S24x10 .f32) (harg20 : arg20.IsWhole) (hc0 : cond0_0 i) (hc1 : ¬cond0_1 i) (x0 : Vec F S8192x24 .f32) (x1 : Vec F S8192x24 .f32) (x2 : Vec F S24x24 .f32) (x3 : Vec F S24x50 .f32) (x4 : Vec F S24x50 .f32) (x5 : Vec F S24x24 .f32) (x6 : Vec F S24x10 .f32) (x7 : Vec F S24x10 .f32) (x8 : Vec F S10x10 .f32) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 = Body.accIM x0 x1 x2 x3 x4 x5 (k0_pay4 (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8)]
  unfold kernelRun0_A
  dsimp only
  sl_unfold_words
  rw [View.canon_cons_unit_zero (S := S24x50) hz, View.readCov_unit_zero (S := S24x50) _ hz]
  simp only [View.readAt_eq_ld, harg1.read_unread, harg2.read_unread, harg3.read_unread, harg4.read_unread, harg5.read_unread, harg6.read_unread, harg7.read_unread, harg8.read_unread, harg9.read_unread, harg17.read_unread, harg18.read_unread, harg19.read_unread, harg20.read_unread, View.ld_unit_zero (S := S8192x24) hz, View.ld_unit_zero (S := S24x24) hz, View.ld_unit_zero (S := S24x50) hz, View.ld_unit_zero (S := S24x10) hz, View.ld_unit_zero (S := S10x10) hz]
  rfl

/-- The second running total. -/
theorem accIP (c : Dev nD) (i : grid0.Coords) (arg1 : Memref sig .tc .vmem S8192x24 .f32) (harg1 : arg1.IsWhole) (arg2 : Memref sig .tc .vmem S8192x24 .f32) (harg2 : arg2.IsWhole) (arg3 : Memref sig .tc .vmem S24x24 .f32) (harg3 : arg3.IsWhole) (arg4 : Memref sig .tc .vmem S24x50 .f32) (harg4 : arg4.IsWhole) (arg5 : Memref sig .tc .vmem S24x50 .f32) (harg5 : arg5.IsWhole) (arg6 : Memref sig .tc .vmem S24x24 .f32) (harg6 : arg6.IsWhole) (arg7 : Memref sig .tc .vmem S24x10 .f32) (harg7 : arg7.IsWhole) (arg8 : Memref sig .tc .vmem S24x10 .f32) (harg8 : arg8.IsWhole) (arg9 : Memref sig .tc .vmem S10x10 .f32) (harg9 : arg9.IsWhole) (arg10 : Memref sig .tc .vmem S8192x50 .f32) (harg10 : arg10.IsWhole) (arg11 : Memref sig .tc .vmem S8192x10 .f32) (harg11 : arg11.IsWhole) (arg12 : Memref sig .tc .vmem S8192x10 .f32) (harg12 : arg12.IsWhole) (arg13 : Memref sig .tc .vmem S24x50 .f32) (harg13 : arg13.IsWhole) (arg14 : Memref sig .tc .vmem S24x50 .f32) (harg14 : arg14.IsWhole) (arg15 : Memref sig .tc .vmem S24x10 .f32) (harg15 : arg15.IsWhole) (arg16 : Memref sig .tc .vmem S24x10 .f32) (harg16 : arg16.IsWhole) (arg17 : Memref sig .tc .vmem S24x50 .f32) (harg17 : arg17.IsWhole) (arg18 : Memref sig .tc .vmem S24x50 .f32) (harg18 : arg18.IsWhole) (arg19 : Memref sig .tc .vmem S24x10 .f32) (harg19 : arg19.IsWhole) (arg20 : Memref sig .tc .vmem S24x10 .f32) (harg20 : arg20.IsWhole) (hc0 : cond0_0 i) (hc1 : ¬cond0_1 i) (x0 : Vec F S8192x24 .f32) (x1 : Vec F S8192x24 .f32) (x2 : Vec F S24x24 .f32) (x3 : Vec F S24x50 .f32) (x4 : Vec F S24x50 .f32) (x5 : Vec F S24x24 .f32) (x6 : Vec F S24x10 .f32) (x7 : Vec F S24x10 .f32) (x8 : Vec F S10x10 .f32) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 = Body.accIP x0 x1 x2 x3 x4 x5 (k0_pay5 (F := F)) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8)]
  unfold kernelRun0_A
  dsimp only
  sl_unfold_words
  rw [View.canon_cons_unit_zero (S := S24x50) hz, View.readCov_unit_zero (S := S24x50) _ hz]
  simp only [View.readAt_eq_ld, harg1.read_unread, harg2.read_unread, harg3.read_unread, harg4.read_unread, harg5.read_unread, harg6.read_unread, harg7.read_unread, harg8.read_unread, harg9.read_unread, harg17.read_unread, harg18.read_unread, harg19.read_unread, harg20.read_unread, View.ld_unit_zero (S := S8192x24) hz, View.ld_unit_zero (S := S24x24) hz, View.ld_unit_zero (S := S24x50) hz, View.ld_unit_zero (S := S24x10) hz, View.ld_unit_zero (S := S10x10) hz]
  rfl

/-- The third running total. -/
theorem accSM (c : Dev nD) (i : grid0.Coords) (arg1 : Memref sig .tc .vmem S8192x24 .f32) (harg1 : arg1.IsWhole) (arg2 : Memref sig .tc .vmem S8192x24 .f32) (harg2 : arg2.IsWhole) (arg3 : Memref sig .tc .vmem S24x24 .f32) (harg3 : arg3.IsWhole) (arg4 : Memref sig .tc .vmem S24x50 .f32) (harg4 : arg4.IsWhole) (arg5 : Memref sig .tc .vmem S24x50 .f32) (harg5 : arg5.IsWhole) (arg6 : Memref sig .tc .vmem S24x24 .f32) (harg6 : arg6.IsWhole) (arg7 : Memref sig .tc .vmem S24x10 .f32) (harg7 : arg7.IsWhole) (arg8 : Memref sig .tc .vmem S24x10 .f32) (harg8 : arg8.IsWhole) (arg9 : Memref sig .tc .vmem S10x10 .f32) (harg9 : arg9.IsWhole) (arg10 : Memref sig .tc .vmem S8192x50 .f32) (harg10 : arg10.IsWhole) (arg11 : Memref sig .tc .vmem S8192x10 .f32) (harg11 : arg11.IsWhole) (arg12 : Memref sig .tc .vmem S8192x10 .f32) (harg12 : arg12.IsWhole) (arg13 : Memref sig .tc .vmem S24x50 .f32) (harg13 : arg13.IsWhole) (arg14 : Memref sig .tc .vmem S24x50 .f32) (harg14 : arg14.IsWhole) (arg15 : Memref sig .tc .vmem S24x10 .f32) (harg15 : arg15.IsWhole) (arg16 : Memref sig .tc .vmem S24x10 .f32) (harg16 : arg16.IsWhole) (arg17 : Memref sig .tc .vmem S24x50 .f32) (harg17 : arg17.IsWhole) (arg18 : Memref sig .tc .vmem S24x50 .f32) (harg18 : arg18.IsWhole) (arg19 : Memref sig .tc .vmem S24x10 .f32) (harg19 : arg19.IsWhole) (arg20 : Memref sig .tc .vmem S24x10 .f32) (harg20 : arg20.IsWhole) (hc0 : cond0_0 i) (hc1 : ¬cond0_1 i) (x0 : Vec F S8192x24 .f32) (x1 : Vec F S8192x24 .f32) (x2 : Vec F S24x24 .f32) (x3 : Vec F S24x50 .f32) (x4 : Vec F S24x50 .f32) (x5 : Vec F S24x24 .f32) (x6 : Vec F S24x10 .f32) (x7 : Vec F S24x10 .f32) (x8 : Vec F S10x10 .f32) :
    sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 = Body.accSM x0 x1 x2 x5 x6 x7 (k0_pay6 (F := F)) := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8)]
  unfold kernelRun0_A
  dsimp only
  sl_unfold_words
  rw [View.canon_cons_unit_zero (S := S24x10) hz, View.readCov_unit_zero (S := S24x10) _ hz]
  simp only [View.readAt_eq_ld, harg1.read_unread, harg2.read_unread, harg3.read_unread, harg4.read_unread, harg5.read_unread, harg6.read_unread, harg7.read_unread, harg8.read_unread, harg9.read_unread, harg17.read_unread, harg18.read_unread, harg19.read_unread, harg20.read_unread, View.ld_unit_zero (S := S8192x24) hz, View.ld_unit_zero (S := S24x24) hz, View.ld_unit_zero (S := S24x50) hz, View.ld_unit_zero (S := S24x10) hz, View.ld_unit_zero (S := S10x10) hz]
  rfl

/-- The fourth running total. -/
theorem accSP (c : Dev nD) (i : grid0.Coords) (arg1 : Memref sig .tc .vmem S8192x24 .f32) (harg1 : arg1.IsWhole) (arg2 : Memref sig .tc .vmem S8192x24 .f32) (harg2 : arg2.IsWhole) (arg3 : Memref sig .tc .vmem S24x24 .f32) (harg3 : arg3.IsWhole) (arg4 : Memref sig .tc .vmem S24x50 .f32) (harg4 : arg4.IsWhole) (arg5 : Memref sig .tc .vmem S24x50 .f32) (harg5 : arg5.IsWhole) (arg6 : Memref sig .tc .vmem S24x24 .f32) (harg6 : arg6.IsWhole) (arg7 : Memref sig .tc .vmem S24x10 .f32) (harg7 : arg7.IsWhole) (arg8 : Memref sig .tc .vmem S24x10 .f32) (harg8 : arg8.IsWhole) (arg9 : Memref sig .tc .vmem S10x10 .f32) (harg9 : arg9.IsWhole) (arg10 : Memref sig .tc .vmem S8192x50 .f32) (harg10 : arg10.IsWhole) (arg11 : Memref sig .tc .vmem S8192x10 .f32) (harg11 : arg11.IsWhole) (arg12 : Memref sig .tc .vmem S8192x10 .f32) (harg12 : arg12.IsWhole) (arg13 : Memref sig .tc .vmem S24x50 .f32) (harg13 : arg13.IsWhole) (arg14 : Memref sig .tc .vmem S24x50 .f32) (harg14 : arg14.IsWhole) (arg15 : Memref sig .tc .vmem S24x10 .f32) (harg15 : arg15.IsWhole) (arg16 : Memref sig .tc .vmem S24x10 .f32) (harg16 : arg16.IsWhole) (arg17 : Memref sig .tc .vmem S24x50 .f32) (harg17 : arg17.IsWhole) (arg18 : Memref sig .tc .vmem S24x50 .f32) (harg18 : arg18.IsWhole) (arg19 : Memref sig .tc .vmem S24x10 .f32) (harg19 : arg19.IsWhole) (arg20 : Memref sig .tc .vmem S24x10 .f32) (harg20 : arg20.IsWhole) (hc0 : cond0_0 i) (hc1 : ¬cond0_1 i) (x0 : Vec F S8192x24 .f32) (x1 : Vec F S8192x24 .f32) (x2 : Vec F S24x24 .f32) (x3 : Vec F S24x50 .f32) (x4 : Vec F S24x50 .f32) (x5 : Vec F S24x24 .f32) (x6 : Vec F S24x10 .f32) (x7 : Vec F S24x10 .f32) (x8 : Vec F S10x10 .f32) :
    sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 = Body.accSP x0 x1 x2 x5 x6 x7 (k0_pay7 (F := F)) := by
  unfold sout0_A_3
  rw [View.read_writes_eq_canon _ _ _ (scover0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8)]
  unfold kernelRun0_A
  dsimp only
  sl_unfold_words
  rw [View.canon_cons_unit_zero (S := S24x10) hz, View.readCov_unit_zero (S := S24x10) _ hz]
  simp only [View.readAt_eq_ld, harg1.read_unread, harg2.read_unread, harg3.read_unread, harg4.read_unread, harg5.read_unread, harg6.read_unread, harg7.read_unread, harg8.read_unread, harg9.read_unread, harg17.read_unread, harg18.read_unread, harg19.read_unread, harg20.read_unread, View.ld_unit_zero (S := S8192x24) hz, View.ld_unit_zero (S := S24x24) hz, View.ld_unit_zero (S := S24x50) hz, View.ld_unit_zero (S := S24x10) hz, View.ld_unit_zero (S := S10x10) hz]
  rfl

end Cert.KernelIdeal.PiecesA

end
-- ==== Proof.PiecesB.lean ====
/-
  What the body leaves in its buffers at a point that is neither the grid's first nor its last.

  The three row outputs are stored once, whole; each of the four running totals is read, the block's products are
  added, and the sum is stored back: one store over what the point before left. Nothing is written to the four
  result buffers.
-/
import proofs.«150760_j46213848105974_1_alg».proof.Proof.FrameKernelIdeal
import proofs.«150760_j46213848105974_1_alg».proof.Proof.Body
import Idealize.ShloMosaic.Lib.Pipeline.Value

set_option maxRecDepth 16384

noncomputable section

namespace Cert.KernelIdeal.PiecesB

open Cert.KernelIdeal Cert.KernelIdeal.Gen Cert.KernelIdeal.GenP Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- The merged layer through W1, W2: one whole store of the block's spikes. -/
theorem ifg (c : Dev nD) (i : grid0.Coords) (arg1 : Memref sig .tc .vmem S8192x24 .f32) (harg1 : arg1.IsWhole) (arg2 : Memref sig .tc .vmem S8192x24 .f32) (harg2 : arg2.IsWhole) (arg3 : Memref sig .tc .vmem S24x24 .f32) (harg3 : arg3.IsWhole) (arg4 : Memref sig .tc .vmem S24x50 .f32) (harg4 : arg4.IsWhole) (arg5 : Memref sig .tc .vmem S24x50 .f32) (harg5 : arg5.IsWhole) (arg6 : Memref sig .tc .vmem S24x24 .f32) (harg6 : arg6.IsWhole) (arg7 : Memref sig .tc .vmem S24x10 .f32) (harg7 : arg7.IsWhole) (arg8 : Memref sig .tc .vmem S24x10 .f32) (harg8 : arg8.IsWhole) (arg9 : Memref sig .tc .vmem S10x10 .f32) (harg9 : arg9.IsWhole) (arg10 : Memref sig .tc .vmem S8192x50 .f32) (harg10 : arg10.IsWhole) (arg11 : Memref sig .tc .vmem S8192x10 .f32) (harg11 : arg11.IsWhole) (arg12 : Memref sig .tc .vmem S8192x10 .f32) (harg12 : arg12.IsWhole) (arg13 : Memref sig .tc .vmem S24x50 .f32) (harg13 : arg13.IsWhole) (arg14 : Memref sig .tc .vmem S24x50 .f32) (harg14 : arg14.IsWhole) (arg15 : Memref sig .tc .vmem S24x10 .f32) (harg15 : arg15.IsWhole) (arg16 : Memref sig .tc .vmem S24x10 .f32) (harg16 : arg16.IsWhole) (arg17 : Memref sig .tc .vmem S24x50 .f32) (harg17 : arg17.IsWhole) (arg18 : Memref sig .tc .vmem S24x50 .f32) (harg18 : arg18.IsWhole) (arg19 : Memref sig .tc .vmem S24x10 .f32) (harg19 : arg19.IsWhole) (arg20 : Memref sig .tc .vmem S24x10 .f32) (harg20 : arg20.IsWhole) (hc0 : ¬cond0_0 i) (hc1 : ¬cond0_1 i) (x0 : Vec F S8192x24 .f32) (x1 : Vec F S8192x24 .f32) (x2 : Vec F S24x24 .f32) (x3 : Vec F S24x50 .f32) (x4 : Vec F S24x50 .f32) (x5 : Vec F S24x24 .f32) (x6 : Vec F S24x10 .f32) (x7 : Vec F S24x10 .f32) (x8 : Vec F S10x10 .f32) (xs0 : Vec F S24x50 .f32) (xs1 : Vec F S24x50 .f32) (xs2 : Vec F S24x10 .f32) (xs3 : Vec F S24x10 .f32) :
    out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xs0 xs1 xs2 xs3 = Body.ifg x0 x1 x2 x3 x4 x5 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xs0 xs1 xs2 xs3)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg17.read_unread, harg18.read_unread, harg19.read_unread, harg20.read_unread, View.ld_unit_zero (S := S8192x24) hz, View.ld_unit_zero (S := S24x24) hz, View.ld_unit_zero (S := S24x50) hz, View.ld_unit_zero (S := S24x10) hz, View.ld_unit_zero (S := S10x10) hz]
  rfl

/-- The merged layer through W4, W5. -/
theorem sma (c : Dev nD) (i : grid0.Coords) (arg1 : Memref sig .tc .vmem S8192x24 .f32) (harg1 : arg1.IsWhole) (arg2 : Memref sig .tc .vmem S8192x24 .f32) (harg2 : arg2.IsWhole) (arg3 : Memref sig .tc .vmem S24x24 .f32) (harg3 : arg3.IsWhole) (arg4 : Memref sig .tc .vmem S24x50 .f32) (harg4 : arg4.IsWhole) (arg5 : Memref sig .tc .vmem S24x50 .f32) (harg5 : arg5.IsWhole) (arg6 : Memref sig .tc .vmem S24x24 .f32) (harg6 : arg6.IsWhole) (arg7 : Memref sig .tc .vmem S24x10 .f32) (harg7 : arg7.IsWhole) (arg8 : Memref sig .tc .vmem S24x10 .f32) (harg8 : arg8.IsWhole) (arg9 : Memref sig .tc .vmem S10x10 .f32) (harg9 : arg9.IsWhole) (arg10 : Memref sig .tc .vmem S8192x50 .f32) (harg10 : arg10.IsWhole) (arg11 : Memref sig .tc .vmem S8192x10 .f32) (harg11 : arg11.IsWhole) (arg12 : Memref sig .tc .vmem S8192x10 .f32) (harg12 : arg12.IsWhole) (arg13 : Memref sig .tc .vmem S24x50 .f32) (harg13 : arg13.IsWhole) (arg14 : Memref sig .tc .vmem S24x50 .f32) (harg14 : arg14.IsWhole) (arg15 : Memref sig .tc .vmem S24x10 .f32) (harg15 : arg15.IsWhole) (arg16 : Memref sig .tc .vmem S24x10 .f32) (harg16 : arg16.IsWhole) (arg17 : Memref sig .tc .vmem S24x50 .f32) (harg17 : arg17.IsWhole) (arg18 : Memref sig .tc .vmem S24x50 .f32) (harg18 : arg18.IsWhole) (arg19 : Memref sig .tc .vmem S24x10 .f32) (harg19 : arg19.IsWhole) (arg20 : Memref sig .tc .vmem S24x10 .f32) (harg20 : arg20.IsWhole) (hc0 : ¬cond0_0 i) (hc1 : ¬cond0_1 i) (x0 : Vec F S8192x24 .f32) (x1 : Vec F S8192x24 .f32) (x2 : Vec F S24x24 .f32) (x3 : Vec F S24x50 .f32) (x4 : Vec F S24x50 .f32) (x5 : Vec F S24x24 .f32) (x6 : Vec F S24x10 .f32) (x7 : Vec F S24x10 .f32) (x8 : Vec F S10x10 .f32) (xs0 : Vec F S24x50 .f32) (xs1 : Vec F S24x50 .f32) (xs2 : Vec F S24x10 .f32) (xs3 : Vec F S24x10 .f32) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xs0 xs1 xs2 xs3 = Body.sma x0 x1 x2 x5 x6 x7 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xs0 xs1 xs2 xs3)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg17.read_unread, harg18.read_unread, harg19.read_unread, harg20.read_unread, View.ld_unit_zero (S := S8192x24) hz, View.ld_unit_zero (S := S24x24) hz, View.ld_unit_zero (S := S24x50) hz, View.ld_unit_zero (S := S24x10) hz, View.ld_unit_zero (S := S10x10) hz]
  rfl

/-- The motor layer. -/
theorem m1 (c : Dev nD) (i : grid0.Coords) (arg1 : Memref sig .tc .vmem S8192x24 .f32) (harg1 : arg1.IsWhole) (arg2 : Memref sig .tc .vmem S8192x24 .f32) (harg2 : arg2.IsWhole) (arg3 : Memref sig .tc .vmem S24x24 .f32) (harg3 : arg3.IsWhole) (arg4 : Memref sig .tc .vmem S24x50 .f32) (harg4 : arg4.IsWhole) (arg5 : Memref sig .tc .vmem S24x50 .f32) (harg5 : arg5.IsWhole) (arg6 : Memref sig .tc .vmem S24x24 .f32) (harg6 : arg6.IsWhole) (arg7 : Memref sig .tc .vmem S24x10 .f32) (harg7 : arg7.IsWhole) (arg8 : Memref sig .tc .vmem S24x10 .f32) (harg8 : arg8.IsWhole) (arg9 : Memref sig .tc .vmem S10x10 .f32) (harg9 : arg9.IsWhole) (arg10 : Memref sig .tc .vmem S8192x50 .f32) (harg10 : arg10.IsWhole) (arg11 : Memref sig .tc .vmem S8192x10 .f32) (harg11 : arg11.IsWhole) (arg12 : Memref sig .tc .vmem S8192x10 .f32) (harg12 : arg12.IsWhole) (arg13 : Memref sig .tc .vmem S24x50 .f32) (harg13 : arg13.IsWhole) (arg14 : Memref sig .tc .vmem S24x50 .f32) (harg14 : arg14.IsWhole) (arg15 : Memref sig .tc .vmem S24x10 .f32) (harg15 : arg15.IsWhole) (arg16 : Memref sig .tc .vmem S24x10 .f32) (harg16 : arg16.IsWhole) (arg17 : Memref sig .tc .vmem S24x50 .f32) (harg17 : arg17.IsWhole) (arg18 : Memref sig .tc .vmem S24x50 .f32) (harg18 : arg18.IsWhole) (arg19 : Memref sig .tc .vmem S24x10 .f32) (harg19 : arg19.IsWhole) (arg20 : Memref sig .tc .vmem S24x10 .f32) (harg20 : arg20.IsWhole) (hc0 : ¬cond0_0 i) (hc1 : ¬cond0_1 i) (x0 : Vec F S8192x24 .f32) (x1 : Vec F S8192x24 .f32) (x2 : Vec F S24x24 .f32) (x3 : Vec F S24x50 .f32) (x4 : Vec F S24x50 .f32) (x5 : Vec F S24x24 .f32) (x6 : Vec F S24x10 .f32) (x7 : Vec F S24x10 .f32) (x8 : Vec F S10x10 .f32) (xs0 : Vec F S24x50 .f32) (xs1 : Vec F S24x50 .f32) (xs2 : Vec F S24x10 .f32) (xs3 : Vec F S24x10 .f32) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xs0 xs1 xs2 xs3 = Body.m1 x0 x1 x2 x5 x6 x7 x8 := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xs0 xs1 xs2 xs3)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg17.read_unread, harg18.read_unread, harg19.read_unread, harg20.read_unread, View.ld_unit_zero (S := S8192x24) hz, View.ld_unit_zero (S := S24x24) hz, View.ld_unit_zero (S := S24x50) hz, View.ld_unit_zero (S := S24x10) hz, View.ld_unit_zero (S := S10x10) hz]
  rfl

/-- The first running total: this block's products added to what the point before left (`xs0`). -/
theorem accIM (c : Dev nD) (i : grid0.Coords) (arg1 : Memref sig .tc .vmem S8192x24 .f32) (harg1 : arg1.IsWhole) (arg2 : Memref sig .tc .vmem S8192x24 .f32) (harg2 : arg2.IsWhole) (arg3 : Memref sig .tc .vmem S24x24 .f32) (harg3 : arg3.IsWhole) (arg4 : Memref sig .tc .vmem S24x50 .f32) (harg4 : arg4.IsWhole) (arg5 : Memref sig .tc .vmem S24x50 .f32) (harg5 : arg5.IsWhole) (arg6 : Memref sig .tc .vmem S24x24 .f32) (harg6 : arg6.IsWhole) (arg7 : Memref sig .tc .vmem S24x10 .f32) (harg7 : arg7.IsWhole) (arg8 : Memref sig .tc .vmem S24x10 .f32) (harg8 : arg8.IsWhole) (arg9 : Memref sig .tc .vmem S10x10 .f32) (harg9 : arg9.IsWhole) (arg10 : Memref sig .tc .vmem S8192x50 .f32) (harg10 : arg10.IsWhole) (arg11 : Memref sig .tc .vmem S8192x10 .f32) (harg11 : arg11.IsWhole) (arg12 : Memref sig .tc .vmem S8192x10 .f32) (harg12 : arg12.IsWhole) (arg13 : Memref sig .tc .vmem S24x50 .f32) (harg13 : arg13.IsWhole) (arg14 : Memref sig .tc .vmem S24x50 .f32) (harg14 : arg14.IsWhole) (arg15 : Memref sig .tc .vmem S24x10 .f32) (harg15 : arg15.IsWhole) (arg16 : Memref sig .tc .vmem S24x10 .f32) (harg16 : arg16.IsWhole) (arg17 : Memref sig .tc .vmem S24x50 .f32) (harg17 : arg17.IsWhole) (arg18 : Memref sig .tc .vmem S24x50 .f32) (harg18 : arg18.IsWhole) (arg19 : Memref sig .tc .vmem S24x10 .f32) (harg19 : arg19.IsWhole) (arg20 : Memref sig .tc .vmem S24x10 .f32) (harg20 : arg20.IsWhole) (hc0 : ¬cond0_0 i) (hc1 : ¬cond0_1 i) (x0 : Vec F S8192x24 .f32) (x1 : Vec F S8192x24 .f32) (x2 : Vec F S24x24 .f32) (x3 : Vec F S24x50 .f32) (x4 : Vec F S24x50 .f32) (x5 : Vec F S24x24 .f32) (x6 : Vec F S24x10 .f32) (x7 : Vec F S24x10 .f32) (x8 : Vec F S10x10 .f32) (xs0 : Vec F S24x50 .f32) (xs1 : Vec F S24x50 .f32) (xs2 : Vec F S24x10 .f32) (xs3 : Vec F S24x10 .f32) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xs0 xs1 xs2 xs3 = Body.accIM x0 x1 x2 x3 x4 x5 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xs0 xs1 xs2 xs3)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg17.read_unread, harg18.read_unread, harg19.read_unread, harg20.read_unread, View.ld_unit_zero (S := S8192x24) hz, View.ld_unit_zero (S := S24x24) hz, View.ld_unit_zero (S := S24x50) hz, View.ld_unit_zero (S := S24x10) hz, View.ld_unit_zero (S := S10x10) hz]
  rfl

/-- The second running total, over `xs1`. -/
theorem accIP (c : Dev nD) (i : grid0.Coords) (arg1 : Memref sig .tc .vmem S8192x24 .f32) (harg1 : arg1.IsWhole) (arg2 : Memref sig .tc .vmem S8192x24 .f32) (harg2 : arg2.IsWhole) (arg3 : Memref sig .tc .vmem S24x24 .f32) (harg3 : arg3.IsWhole) (arg4 : Memref sig .tc .vmem S24x50 .f32) (harg4 : arg4.IsWhole) (arg5 : Memref sig .tc .vmem S24x50 .f32) (harg5 : arg5.IsWhole) (arg6 : Memref sig .tc .vmem S24x24 .f32) (harg6 : arg6.IsWhole) (arg7 : Memref sig .tc .vmem S24x10 .f32) (harg7 : arg7.IsWhole) (arg8 : Memref sig .tc .vmem S24x10 .f32) (harg8 : arg8.IsWhole) (arg9 : Memref sig .tc .vmem S10x10 .f32) (harg9 : arg9.IsWhole) (arg10 : Memref sig .tc .vmem S8192x50 .f32) (harg10 : arg10.IsWhole) (arg11 : Memref sig .tc .vmem S8192x10 .f32) (harg11 : arg11.IsWhole) (arg12 : Memref sig .tc .vmem S8192x10 .f32) (harg12 : arg12.IsWhole) (arg13 : Memref sig .tc .vmem S24x50 .f32) (harg13 : arg13.IsWhole) (arg14 : Memref sig .tc .vmem S24x50 .f32) (harg14 : arg14.IsWhole) (arg15 : Memref sig .tc .vmem S24x10 .f32) (harg15 : arg15.IsWhole) (arg16 : Memref sig .tc .vmem S24x10 .f32) (harg16 : arg16.IsWhole) (arg17 : Memref sig .tc .vmem S24x50 .f32) (harg17 : arg17.IsWhole) (arg18 : Memref sig .tc .vmem S24x50 .f32) (harg18 : arg18.IsWhole) (arg19 : Memref sig .tc .vmem S24x10 .f32) (harg19 : arg19.IsWhole) (arg20 : Memref sig .tc .vmem S24x10 .f32) (harg20 : arg20.IsWhole) (hc0 : ¬cond0_0 i) (hc1 : ¬cond0_1 i) (x0 : Vec F S8192x24 .f32) (x1 : Vec F S8192x24 .f32) (x2 : Vec F S24x24 .f32) (x3 : Vec F S24x50 .f32) (x4 : Vec F S24x50 .f32) (x5 : Vec F S24x24 .f32) (x6 : Vec F S24x10 .f32) (x7 : Vec F S24x10 .f32) (x8 : Vec F S10x10 .f32) (xs0 : Vec F S24x50 .f32) (xs1 : Vec F S24x50 .f32) (xs2 : Vec F S24x10 .f32) (xs3 : Vec F S24x10 .f32) :
    sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xs0 xs1 xs2 xs3 = Body.accIP x0 x1 x2 x3 x4 x5 xs1 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xs0 xs1 xs2 xs3)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg17.read_unread, harg18.read_unread, harg19.read_unread, harg20.read_unread, View.ld_unit_zero (S := S8192x24) hz, View.ld_unit_zero (S := S24x24) hz, View.ld_unit_zero (S := S24x50) hz, View.ld_unit_zero (S := S24x10) hz, View.ld_unit_zero (S := S10x10) hz]
  rfl

/-- The third running total, over `xs2`. -/
theorem accSM (c : Dev nD) (i : grid0.Coords) (arg1 : Memref sig .tc .vmem S8192x24 .f32) (harg1 : arg1.IsWhole) (arg2 : Memref sig .tc .vmem S8192x24 .f32) (harg2 : arg2.IsWhole) (arg3 : Memref sig .tc .vmem S24x24 .f32) (harg3 : arg3.IsWhole) (arg4 : Memref sig .tc .vmem S24x50 .f32) (harg4 : arg4.IsWhole) (arg5 : Memref sig .tc .vmem S24x50 .f32) (harg5 : arg5.IsWhole) (arg6 : Memref sig .tc .vmem S24x24 .f32) (harg6 : arg6.IsWhole) (arg7 : Memref sig .tc .vmem S24x10 .f32) (harg7 : arg7.IsWhole) (arg8 : Memref sig .tc .vmem S24x10 .f32) (harg8 : arg8.IsWhole) (arg9 : Memref sig .tc .vmem S10x10 .f32) (harg9 : arg9.IsWhole) (arg10 : Memref sig .tc .vmem S8192x50 .f32) (harg10 : arg10.IsWhole) (arg11 : Memref sig .tc .vmem S8192x10 .f32) (harg11 : arg11.IsWhole) (arg12 : Memref sig .tc .vmem S8192x10 .f32) (harg12 : arg12.IsWhole) (arg13 : Memref sig .tc .vmem S24x50 .f32) (harg13 : arg13.IsWhole) (arg14 : Memref sig .tc .vmem S24x50 .f32) (harg14 : arg14.IsWhole) (arg15 : Memref sig .tc .vmem S24x10 .f32) (harg15 : arg15.IsWhole) (arg16 : Memref sig .tc .vmem S24x10 .f32) (harg16 : arg16.IsWhole) (arg17 : Memref sig .tc .vmem S24x50 .f32) (harg17 : arg17.IsWhole) (arg18 : Memref sig .tc .vmem S24x50 .f32) (harg18 : arg18.IsWhole) (arg19 : Memref sig .tc .vmem S24x10 .f32) (harg19 : arg19.IsWhole) (arg20 : Memref sig .tc .vmem S24x10 .f32) (harg20 : arg20.IsWhole) (hc0 : ¬cond0_0 i) (hc1 : ¬cond0_1 i) (x0 : Vec F S8192x24 .f32) (x1 : Vec F S8192x24 .f32) (x2 : Vec F S24x24 .f32) (x3 : Vec F S24x50 .f32) (x4 : Vec F S24x50 .f32) (x5 : Vec F S24x24 .f32) (x6 : Vec F S24x10 .f32) (x7 : Vec F S24x10 .f32) (x8 : Vec F S10x10 .f32) (xs0 : Vec F S24x50 .f32) (xs1 : Vec F S24x50 .f32) (xs2 : Vec F S24x10 .f32) (xs3 : Vec F S24x10 .f32) :
    sout0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xs0 xs1 xs2 xs3 = Body.accSM x0 x1 x2 x5 x6 x7 xs2 := by
  unfold sout0_B_2
  rw [View.read_writes_eq_canon _ _ _ (scover0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xs0 xs1 xs2 xs3)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg17.read_unread, harg18.read_unread, harg19.read_unread, harg20.read_unread, View.ld_unit_zero (S := S8192x24) hz, View.ld_unit_zero (S := S24x24) hz, View.ld_unit_zero (S := S24x50) hz, View.ld_unit_zero (S := S24x10) hz, View.ld_unit_zero (S := S10x10) hz]
  rfl

/-- The fourth running total, over `xs3`. -/
theorem accSP (c : Dev nD) (i : grid0.Coords) (arg1 : Memref sig .tc .vmem S8192x24 .f32) (harg1 : arg1.IsWhole) (arg2 : Memref sig .tc .vmem S8192x24 .f32) (harg2 : arg2.IsWhole) (arg3 : Memref sig .tc .vmem S24x24 .f32) (harg3 : arg3.IsWhole) (arg4 : Memref sig .tc .vmem S24x50 .f32) (harg4 : arg4.IsWhole) (arg5 : Memref sig .tc .vmem S24x50 .f32) (harg5 : arg5.IsWhole) (arg6 : Memref sig .tc .vmem S24x24 .f32) (harg6 : arg6.IsWhole) (arg7 : Memref sig .tc .vmem S24x10 .f32) (harg7 : arg7.IsWhole) (arg8 : Memref sig .tc .vmem S24x10 .f32) (harg8 : arg8.IsWhole) (arg9 : Memref sig .tc .vmem S10x10 .f32) (harg9 : arg9.IsWhole) (arg10 : Memref sig .tc .vmem S8192x50 .f32) (harg10 : arg10.IsWhole) (arg11 : Memref sig .tc .vmem S8192x10 .f32) (harg11 : arg11.IsWhole) (arg12 : Memref sig .tc .vmem S8192x10 .f32) (harg12 : arg12.IsWhole) (arg13 : Memref sig .tc .vmem S24x50 .f32) (harg13 : arg13.IsWhole) (arg14 : Memref sig .tc .vmem S24x50 .f32) (harg14 : arg14.IsWhole) (arg15 : Memref sig .tc .vmem S24x10 .f32) (harg15 : arg15.IsWhole) (arg16 : Memref sig .tc .vmem S24x10 .f32) (harg16 : arg16.IsWhole) (arg17 : Memref sig .tc .vmem S24x50 .f32) (harg17 : arg17.IsWhole) (arg18 : Memref sig .tc .vmem S24x50 .f32) (harg18 : arg18.IsWhole) (arg19 : Memref sig .tc .vmem S24x10 .f32) (harg19 : arg19.IsWhole) (arg20 : Memref sig .tc .vmem S24x10 .f32) (harg20 : arg20.IsWhole) (hc0 : ¬cond0_0 i) (hc1 : ¬cond0_1 i) (x0 : Vec F S8192x24 .f32) (x1 : Vec F S8192x24 .f32) (x2 : Vec F S24x24 .f32) (x3 : Vec F S24x50 .f32) (x4 : Vec F S24x50 .f32) (x5 : Vec F S24x24 .f32) (x6 : Vec F S24x10 .f32) (x7 : Vec F S24x10 .f32) (x8 : Vec F S10x10 .f32) (xs0 : Vec F S24x50 .f32) (xs1 : Vec F S24x50 .f32) (xs2 : Vec F S24x10 .f32) (xs3 : Vec F S24x10 .f32) :
    sout0_B_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xs0 xs1 xs2 xs3 = Body.accSP x0 x1 x2 x5 x6 x7 xs3 := by
  unfold sout0_B_3
  rw [View.read_writes_eq_canon _ _ _ (scover0_B_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xs0 xs1 xs2 xs3)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg17.read_unread, harg18.read_unread, harg19.read_unread, harg20.read_unread, View.ld_unit_zero (S := S8192x24) hz, View.ld_unit_zero (S := S24x24) hz, View.ld_unit_zero (S := S24x50) hz, View.ld_unit_zero (S := S24x10) hz, View.ld_unit_zero (S := S10x10) hz]
  rfl

end Cert.KernelIdeal.PiecesB

end
-- ==== Proof.PiecesC.lean ====
/-
  What the body leaves in its buffers at the grid's last point.

  As at a middle point the three row outputs are stored whole and each running total gets the block's products
  added to what the point before left; then each total is read back and stored, whole, into its result buffer: the
  result buffers end holding the finished totals.
-/
import proofs.«150760_j46213848105974_1_alg».proof.Proof.FrameKernelIdeal
import proofs.«150760_j46213848105974_1_alg».proof.Proof.Body
import Idealize.ShloMosaic.Lib.Pipeline.Value

set_option maxRecDepth 16384

noncomputable section

namespace Cert.KernelIdeal.PiecesC

open Cert.KernelIdeal Cert.KernelIdeal.Gen Cert.KernelIdeal.GenP Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- The merged layer through W1, W2: one whole store of the block's spikes. -/
theorem ifg (c : Dev nD) (i : grid0.Coords) (arg1 : Memref sig .tc .vmem S8192x24 .f32) (harg1 : arg1.IsWhole) (arg2 : Memref sig .tc .vmem S8192x24 .f32) (harg2 : arg2.IsWhole) (arg3 : Memref sig .tc .vmem S24x24 .f32) (harg3 : arg3.IsWhole) (arg4 : Memref sig .tc .vmem S24x50 .f32) (harg4 : arg4.IsWhole) (arg5 : Memref sig .tc .vmem S24x50 .f32) (harg5 : arg5.IsWhole) (arg6 : Memref sig .tc .vmem S24x24 .f32) (harg6 : arg6.IsWhole) (arg7 : Memref sig .tc .vmem S24x10 .f32) (harg7 : arg7.IsWhole) (arg8 : Memref sig .tc .vmem S24x10 .f32) (harg8 : arg8.IsWhole) (arg9 : Memref sig .tc .vmem S10x10 .f32) (harg9 : arg9.IsWhole) (arg10 : Memref sig .tc .vmem S8192x50 .f32) (harg10 : arg10.IsWhole) (arg11 : Memref sig .tc .vmem S8192x10 .f32) (harg11 : arg11.IsWhole) (arg12 : Memref sig .tc .vmem S8192x10 .f32) (harg12 : arg12.IsWhole) (arg13 : Memref sig .tc .vmem S24x50 .f32) (harg13 : arg13.IsWhole) (arg14 : Memref sig .tc .vmem S24x50 .f32) (harg14 : arg14.IsWhole) (arg15 : Memref sig .tc .vmem S24x10 .f32) (harg15 : arg15.IsWhole) (arg16 : Memref sig .tc .vmem S24x10 .f32) (harg16 : arg16.IsWhole) (arg17 : Memref sig .tc .vmem S24x50 .f32) (harg17 : arg17.IsWhole) (arg18 : Memref sig .tc .vmem S24x50 .f32) (harg18 : arg18.IsWhole) (arg19 : Memref sig .tc .vmem S24x10 .f32) (harg19 : arg19.IsWhole) (arg20 : Memref sig .tc .vmem S24x10 .f32) (harg20 : arg20.IsWhole) (hc0 : ¬cond0_0 i) (hc1 : cond0_1 i) (x0 : Vec F S8192x24 .f32) (x1 : Vec F S8192x24 .f32) (x2 : Vec F S24x24 .f32) (x3 : Vec F S24x50 .f32) (x4 : Vec F S24x50 .f32) (x5 : Vec F S24x24 .f32) (x6 : Vec F S24x10 .f32) (x7 : Vec F S24x10 .f32) (x8 : Vec F S10x10 .f32) (xs0 : Vec F S24x50 .f32) (xs1 : Vec F S24x50 .f32) (xs2 : Vec F S24x10 .f32) (xs3 : Vec F S24x10 .f32) :
    out0_C_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xs0 xs1 xs2 xs3 = Body.ifg x0 x1 x2 x3 x4 x5 := by
  unfold out0_C_9
  rw [View.read_writes_eq_canon _ _ _ (cover0_C_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xs0 xs1 xs2 xs3)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg17.read_unread, harg18.read_unread, harg19.read_unread, harg20.read_unread, View.ld_unit_zero (S := S8192x24) hz, View.ld_unit_zero (S := S24x24) hz, View.ld_unit_zero (S := S24x50) hz, View.ld_unit_zero (S := S24x10) hz, View.ld_unit_zero (S := S10x10) hz]
  rfl

/-- The merged layer through W4, W5. -/
theorem sma (c : Dev nD) (i : grid0.Coords) (arg1 : Memref sig .tc .vmem S8192x24 .f32) (harg1 : arg1.IsWhole) (arg2 : Memref sig .tc .vmem S8192x24 .f32) (harg2 : arg2.IsWhole) (arg3 : Memref sig .tc .vmem S24x24 .f32) (harg3 : arg3.IsWhole) (arg4 : Memref sig .tc .vmem S24x50 .f32) (harg4 : arg4.IsWhole) (arg5 : Memref sig .tc .vmem S24x50 .f32) (harg5 : arg5.IsWhole) (arg6 : Memref sig .tc .vmem S24x24 .f32) (harg6 : arg6.IsWhole) (arg7 : Memref sig .tc .vmem S24x10 .f32) (harg7 : arg7.IsWhole) (arg8 : Memref sig .tc .vmem S24x10 .f32) (harg8 : arg8.IsWhole) (arg9 : Memref sig .tc .vmem S10x10 .f32) (harg9 : arg9.IsWhole) (arg10 : Memref sig .tc .vmem S8192x50 .f32) (harg10 : arg10.IsWhole) (arg11 : Memref sig .tc .vmem S8192x10 .f32) (harg11 : arg11.IsWhole) (arg12 : Memref sig .tc .vmem S8192x10 .f32) (harg12 : arg12.IsWhole) (arg13 : Memref sig .tc .vmem S24x50 .f32) (harg13 : arg13.IsWhole) (arg14 : Memref sig .tc .vmem S24x50 .f32) (harg14 : arg14.IsWhole) (arg15 : Memref sig .tc .vmem S24x10 .f32) (harg15 : arg15.IsWhole) (arg16 : Memref sig .tc .vmem S24x10 .f32) (harg16 : arg16.IsWhole) (arg17 : Memref sig .tc .vmem S24x50 .f32) (harg17 : arg17.IsWhole) (arg18 : Memref sig .tc .vmem S24x50 .f32) (harg18 : arg18.IsWhole) (arg19 : Memref sig .tc .vmem S24x10 .f32) (harg19 : arg19.IsWhole) (arg20 : Memref sig .tc .vmem S24x10 .f32) (harg20 : arg20.IsWhole) (hc0 : ¬cond0_0 i) (hc1 : cond0_1 i) (x0 : Vec F S8192x24 .f32) (x1 : Vec F S8192x24 .f32) (x2 : Vec F S24x24 .f32) (x3 : Vec F S24x50 .f32) (x4 : Vec F S24x50 .f32) (x5 : Vec F S24x24 .f32) (x6 : Vec F S24x10 .f32) (x7 : Vec F S24x10 .f32) (x8 : Vec F S10x10 .f32) (xs0 : Vec F S24x50 .f32) (xs1 : Vec F S24x50 .f32) (xs2 : Vec F S24x10 .f32) (xs3 : Vec F S24x10 .f32) :
    out0_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xs0 xs1 xs2 xs3 = Body.sma x0 x1 x2 x5 x6 x7 := by
  unfold out0_C_10
  rw [View.read_writes_eq_canon _ _ _ (cover0_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xs0 xs1 xs2 xs3)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg17.read_unread, harg18.read_unread, harg19.read_unread, harg20.read_unread, View.ld_unit_zero (S := S8192x24) hz, View.ld_unit_zero (S := S24x24) hz, View.ld_unit_zero (S := S24x50) hz, View.ld_unit_zero (S := S24x10) hz, View.ld_unit_zero (S := S10x10) hz]
  rfl

/-- The motor layer. -/
theorem m1 (c : Dev nD) (i : grid0.Coords) (arg1 : Memref sig .tc .vmem S8192x24 .f32) (harg1 : arg1.IsWhole) (arg2 : Memref sig .tc .vmem S8192x24 .f32) (harg2 : arg2.IsWhole) (arg3 : Memref sig .tc .vmem S24x24 .f32) (harg3 : arg3.IsWhole) (arg4 : Memref sig .tc .vmem S24x50 .f32) (harg4 : arg4.IsWhole) (arg5 : Memref sig .tc .vmem S24x50 .f32) (harg5 : arg5.IsWhole) (arg6 : Memref sig .tc .vmem S24x24 .f32) (harg6 : arg6.IsWhole) (arg7 : Memref sig .tc .vmem S24x10 .f32) (harg7 : arg7.IsWhole) (arg8 : Memref sig .tc .vmem S24x10 .f32) (harg8 : arg8.IsWhole) (arg9 : Memref sig .tc .vmem S10x10 .f32) (harg9 : arg9.IsWhole) (arg10 : Memref sig .tc .vmem S8192x50 .f32) (harg10 : arg10.IsWhole) (arg11 : Memref sig .tc .vmem S8192x10 .f32) (harg11 : arg11.IsWhole) (arg12 : Memref sig .tc .vmem S8192x10 .f32) (harg12 : arg12.IsWhole) (arg13 : Memref sig .tc .vmem S24x50 .f32) (harg13 : arg13.IsWhole) (arg14 : Memref sig .tc .vmem S24x50 .f32) (harg14 : arg14.IsWhole) (arg15 : Memref sig .tc .vmem S24x10 .f32) (harg15 : arg15.IsWhole) (arg16 : Memref sig .tc .vmem S24x10 .f32) (harg16 : arg16.IsWhole) (arg17 : Memref sig .tc .vmem S24x50 .f32) (harg17 : arg17.IsWhole) (arg18 : Memref sig .tc .vmem S24x50 .f32) (harg18 : arg18.IsWhole) (arg19 : Memref sig .tc .vmem S24x10 .f32) (harg19 : arg19.IsWhole) (arg20 : Memref sig .tc .vmem S24x10 .f32) (harg20 : arg20.IsWhole) (hc0 : ¬cond0_0 i) (hc1 : cond0_1 i) (x0 : Vec F S8192x24 .f32) (x1 : Vec F S8192x24 .f32) (x2 : Vec F S24x24 .f32) (x3 : Vec F S24x50 .f32) (x4 : Vec F S24x50 .f32) (x5 : Vec F S24x24 .f32) (x6 : Vec F S24x10 .f32) (x7 : Vec F S24x10 .f32) (x8 : Vec F S10x10 .f32) (xs0 : Vec F S24x50 .f32) (xs1 : Vec F S24x50 .f32) (xs2 : Vec F S24x10 .f32) (xs3 : Vec F S24x10 .f32) :
    out0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xs0 xs1 xs2 xs3 = Body.m1 x0 x1 x2 x5 x6 x7 x8 := by
  unfold out0_C_11
  rw [View.read_writes_eq_canon _ _ _ (cover0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xs0 xs1 xs2 xs3)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg17.read_unread, harg18.read_unread, harg19.read_unread, harg20.read_unread, View.ld_unit_zero (S := S8192x24) hz, View.ld_unit_zero (S := S24x24) hz, View.ld_unit_zero (S := S24x50) hz, View.ld_unit_zero (S := S24x10) hz, View.ld_unit_zero (S := S10x10) hz]
  rfl

/-- The first running total: this block's products added to what the point before left (`xs0`). -/
theorem accIM (c : Dev nD) (i : grid0.Coords) (arg1 : Memref sig .tc .vmem S8192x24 .f32) (harg1 : arg1.IsWhole) (arg2 : Memref sig .tc .vmem S8192x24 .f32) (harg2 : arg2.IsWhole) (arg3 : Memref sig .tc .vmem S24x24 .f32) (harg3 : arg3.IsWhole) (arg4 : Memref sig .tc .vmem S24x50 .f32) (harg4 : arg4.IsWhole) (arg5 : Memref sig .tc .vmem S24x50 .f32) (harg5 : arg5.IsWhole) (arg6 : Memref sig .tc .vmem S24x24 .f32) (harg6 : arg6.IsWhole) (arg7 : Memref sig .tc .vmem S24x10 .f32) (harg7 : arg7.IsWhole) (arg8 : Memref sig .tc .vmem S24x10 .f32) (harg8 : arg8.IsWhole) (arg9 : Memref sig .tc .vmem S10x10 .f32) (harg9 : arg9.IsWhole) (arg10 : Memref sig .tc .vmem S8192x50 .f32) (harg10 : arg10.IsWhole) (arg11 : Memref sig .tc .vmem S8192x10 .f32) (harg11 : arg11.IsWhole) (arg12 : Memref sig .tc .vmem S8192x10 .f32) (harg12 : arg12.IsWhole) (arg13 : Memref sig .tc .vmem S24x50 .f32) (harg13 : arg13.IsWhole) (arg14 : Memref sig .tc .vmem S24x50 .f32) (harg14 : arg14.IsWhole) (arg15 : Memref sig .tc .vmem S24x10 .f32) (harg15 : arg15.IsWhole) (arg16 : Memref sig .tc .vmem S24x10 .f32) (harg16 : arg16.IsWhole) (arg17 : Memref sig .tc .vmem S24x50 .f32) (harg17 : arg17.IsWhole) (arg18 : Memref sig .tc .vmem S24x50 .f32) (harg18 : arg18.IsWhole) (arg19 : Memref sig .tc .vmem S24x10 .f32) (harg19 : arg19.IsWhole) (arg20 : Memref sig .tc .vmem S24x10 .f32) (harg20 : arg20.IsWhole) (hc0 : ¬cond0_0 i) (hc1 : cond0_1 i) (x0 : Vec F S8192x24 .f32) (x1 : Vec F S8192x24 .f32) (x2 : Vec F S24x24 .f32) (x3 : Vec F S24x50 .f32) (x4 : Vec F S24x50 .f32) (x5 : Vec F S24x24 .f32) (x6 : Vec F S24x10 .f32) (x7 : Vec F S24x10 .f32) (x8 : Vec F S10x10 .f32) (xs0 : Vec F S24x50 .f32) (xs1 : Vec F S24x50 .f32) (xs2 : Vec F S24x10 .f32) (xs3 : Vec F S24x10 .f32) :
    sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xs0 xs1 xs2 xs3 = Body.accIM x0 x1 x2 x3 x4 x5 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xs0 xs1 xs2 xs3)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg17.read_unread, harg18.read_unread, harg19.read_unread, harg20.read_unread, View.ld_unit_zero (S := S8192x24) hz, View.ld_unit_zero (S := S24x24) hz, View.ld_unit_zero (S := S24x50) hz, View.ld_unit_zero (S := S24x10) hz, View.ld_unit_zero (S := S10x10) hz]
  rfl

/-- The second running total, over `xs1`. -/
theorem accIP (c : Dev nD) (i : grid0.Coords) (arg1 : Memref sig .tc .vmem S8192x24 .f32) (harg1 : arg1.IsWhole) (arg2 : Memref sig .tc .vmem S8192x24 .f32) (harg2 : arg2.IsWhole) (arg3 : Memref sig .tc .vmem S24x24 .f32) (harg3 : arg3.IsWhole) (arg4 : Memref sig .tc .vmem S24x50 .f32) (harg4 : arg4.IsWhole) (arg5 : Memref sig .tc .vmem S24x50 .f32) (harg5 : arg5.IsWhole) (arg6 : Memref sig .tc .vmem S24x24 .f32) (harg6 : arg6.IsWhole) (arg7 : Memref sig .tc .vmem S24x10 .f32) (harg7 : arg7.IsWhole) (arg8 : Memref sig .tc .vmem S24x10 .f32) (harg8 : arg8.IsWhole) (arg9 : Memref sig .tc .vmem S10x10 .f32) (harg9 : arg9.IsWhole) (arg10 : Memref sig .tc .vmem S8192x50 .f32) (harg10 : arg10.IsWhole) (arg11 : Memref sig .tc .vmem S8192x10 .f32) (harg11 : arg11.IsWhole) (arg12 : Memref sig .tc .vmem S8192x10 .f32) (harg12 : arg12.IsWhole) (arg13 : Memref sig .tc .vmem S24x50 .f32) (harg13 : arg13.IsWhole) (arg14 : Memref sig .tc .vmem S24x50 .f32) (harg14 : arg14.IsWhole) (arg15 : Memref sig .tc .vmem S24x10 .f32) (harg15 : arg15.IsWhole) (arg16 : Memref sig .tc .vmem S24x10 .f32) (harg16 : arg16.IsWhole) (arg17 : Memref sig .tc .vmem S24x50 .f32) (harg17 : arg17.IsWhole) (arg18 : Memref sig .tc .vmem S24x50 .f32) (harg18 : arg18.IsWhole) (arg19 : Memref sig .tc .vmem S24x10 .f32) (harg19 : arg19.IsWhole) (arg20 : Memref sig .tc .vmem S24x10 .f32) (harg20 : arg20.IsWhole) (hc0 : ¬cond0_0 i) (hc1 : cond0_1 i) (x0 : Vec F S8192x24 .f32) (x1 : Vec F S8192x24 .f32) (x2 : Vec F S24x24 .f32) (x3 : Vec F S24x50 .f32) (x4 : Vec F S24x50 .f32) (x5 : Vec F S24x24 .f32) (x6 : Vec F S24x10 .f32) (x7 : Vec F S24x10 .f32) (x8 : Vec F S10x10 .f32) (xs0 : Vec F S24x50 .f32) (xs1 : Vec F S24x50 .f32) (xs2 : Vec F S24x10 .f32) (xs3 : Vec F S24x10 .f32) :
    sout0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xs0 xs1 xs2 xs3 = Body.accIP x0 x1 x2 x3 x4 x5 xs1 := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xs0 xs1 xs2 xs3)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg17.read_unread, harg18.read_unread, harg19.read_unread, harg20.read_unread, View.ld_unit_zero (S := S8192x24) hz, View.ld_unit_zero (S := S24x24) hz, View.ld_unit_zero (S := S24x50) hz, View.ld_unit_zero (S := S24x10) hz, View.ld_unit_zero (S := S10x10) hz]
  rfl

/-- The third running total, over `xs2`. -/
theorem accSM (c : Dev nD) (i : grid0.Coords) (arg1 : Memref sig .tc .vmem S8192x24 .f32) (harg1 : arg1.IsWhole) (arg2 : Memref sig .tc .vmem S8192x24 .f32) (harg2 : arg2.IsWhole) (arg3 : Memref sig .tc .vmem S24x24 .f32) (harg3 : arg3.IsWhole) (arg4 : Memref sig .tc .vmem S24x50 .f32) (harg4 : arg4.IsWhole) (arg5 : Memref sig .tc .vmem S24x50 .f32) (harg5 : arg5.IsWhole) (arg6 : Memref sig .tc .vmem S24x24 .f32) (harg6 : arg6.IsWhole) (arg7 : Memref sig .tc .vmem S24x10 .f32) (harg7 : arg7.IsWhole) (arg8 : Memref sig .tc .vmem S24x10 .f32) (harg8 : arg8.IsWhole) (arg9 : Memref sig .tc .vmem S10x10 .f32) (harg9 : arg9.IsWhole) (arg10 : Memref sig .tc .vmem S8192x50 .f32) (harg10 : arg10.IsWhole) (arg11 : Memref sig .tc .vmem S8192x10 .f32) (harg11 : arg11.IsWhole) (arg12 : Memref sig .tc .vmem S8192x10 .f32) (harg12 : arg12.IsWhole) (arg13 : Memref sig .tc .vmem S24x50 .f32) (harg13 : arg13.IsWhole) (arg14 : Memref sig .tc .vmem S24x50 .f32) (harg14 : arg14.IsWhole) (arg15 : Memref sig .tc .vmem S24x10 .f32) (harg15 : arg15.IsWhole) (arg16 : Memref sig .tc .vmem S24x10 .f32) (harg16 : arg16.IsWhole) (arg17 : Memref sig .tc .vmem S24x50 .f32) (harg17 : arg17.IsWhole) (arg18 : Memref sig .tc .vmem S24x50 .f32) (harg18 : arg18.IsWhole) (arg19 : Memref sig .tc .vmem S24x10 .f32) (harg19 : arg19.IsWhole) (arg20 : Memref sig .tc .vmem S24x10 .f32) (harg20 : arg20.IsWhole) (hc0 : ¬cond0_0 i) (hc1 : cond0_1 i) (x0 : Vec F S8192x24 .f32) (x1 : Vec F S8192x24 .f32) (x2 : Vec F S24x24 .f32) (x3 : Vec F S24x50 .f32) (x4 : Vec F S24x50 .f32) (x5 : Vec F S24x24 .f32) (x6 : Vec F S24x10 .f32) (x7 : Vec F S24x10 .f32) (x8 : Vec F S10x10 .f32) (xs0 : Vec F S24x50 .f32) (xs1 : Vec F S24x50 .f32) (xs2 : Vec F S24x10 .f32) (xs3 : Vec F S24x10 .f32) :
    sout0_C_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xs0 xs1 xs2 xs3 = Body.accSM x0 x1 x2 x5 x6 x7 xs2 := by
  unfold sout0_C_2
  rw [View.read_writes_eq_canon _ _ _ (scover0_C_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xs0 xs1 xs2 xs3)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg17.read_unread, harg18.read_unread, harg19.read_unread, harg20.read_unread, View.ld_unit_zero (S := S8192x24) hz, View.ld_unit_zero (S := S24x24) hz, View.ld_unit_zero (S := S24x50) hz, View.ld_unit_zero (S := S24x10) hz, View.ld_unit_zero (S := S10x10) hz]
  rfl

/-- The fourth running total, over `xs3`. -/
theorem accSP (c : Dev nD) (i : grid0.Coords) (arg1 : Memref sig .tc .vmem S8192x24 .f32) (harg1 : arg1.IsWhole) (arg2 : Memref sig .tc .vmem S8192x24 .f32) (harg2 : arg2.IsWhole) (arg3 : Memref sig .tc .vmem S24x24 .f32) (harg3 : arg3.IsWhole) (arg4 : Memref sig .tc .vmem S24x50 .f32) (harg4 : arg4.IsWhole) (arg5 : Memref sig .tc .vmem S24x50 .f32) (harg5 : arg5.IsWhole) (arg6 : Memref sig .tc .vmem S24x24 .f32) (harg6 : arg6.IsWhole) (arg7 : Memref sig .tc .vmem S24x10 .f32) (harg7 : arg7.IsWhole) (arg8 : Memref sig .tc .vmem S24x10 .f32) (harg8 : arg8.IsWhole) (arg9 : Memref sig .tc .vmem S10x10 .f32) (harg9 : arg9.IsWhole) (arg10 : Memref sig .tc .vmem S8192x50 .f32) (harg10 : arg10.IsWhole) (arg11 : Memref sig .tc .vmem S8192x10 .f32) (harg11 : arg11.IsWhole) (arg12 : Memref sig .tc .vmem S8192x10 .f32) (harg12 : arg12.IsWhole) (arg13 : Memref sig .tc .vmem S24x50 .f32) (harg13 : arg13.IsWhole) (arg14 : Memref sig .tc .vmem S24x50 .f32) (harg14 : arg14.IsWhole) (arg15 : Memref sig .tc .vmem S24x10 .f32) (harg15 : arg15.IsWhole) (arg16 : Memref sig .tc .vmem S24x10 .f32) (harg16 : arg16.IsWhole) (arg17 : Memref sig .tc .vmem S24x50 .f32) (harg17 : arg17.IsWhole) (arg18 : Memref sig .tc .vmem S24x50 .f32) (harg18 : arg18.IsWhole) (arg19 : Memref sig .tc .vmem S24x10 .f32) (harg19 : arg19.IsWhole) (arg20 : Memref sig .tc .vmem S24x10 .f32) (harg20 : arg20.IsWhole) (hc0 : ¬cond0_0 i) (hc1 : cond0_1 i) (x0 : Vec F S8192x24 .f32) (x1 : Vec F S8192x24 .f32) (x2 : Vec F S24x24 .f32) (x3 : Vec F S24x50 .f32) (x4 : Vec F S24x50 .f32) (x5 : Vec F S24x24 .f32) (x6 : Vec F S24x10 .f32) (x7 : Vec F S24x10 .f32) (x8 : Vec F S10x10 .f32) (xs0 : Vec F S24x50 .f32) (xs1 : Vec F S24x50 .f32) (xs2 : Vec F S24x10 .f32) (xs3 : Vec F S24x10 .f32) :
    sout0_C_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xs0 xs1 xs2 xs3 = Body.accSP x0 x1 x2 x5 x6 x7 xs3 := by
  unfold sout0_C_3
  rw [View.read_writes_eq_canon _ _ _ (scover0_C_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xs0 xs1 xs2 xs3)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg17.read_unread, harg18.read_unread, harg19.read_unread, harg20.read_unread, View.ld_unit_zero (S := S8192x24) hz, View.ld_unit_zero (S := S24x24) hz, View.ld_unit_zero (S := S24x50) hz, View.ld_unit_zero (S := S24x10) hz, View.ld_unit_zero (S := S10x10) hz]
  rfl

/-- The first result: the first running total, read back after its last update and stored. -/
theorem outIM (c : Dev nD) (i : grid0.Coords) (arg1 : Memref sig .tc .vmem S8192x24 .f32) (harg1 : arg1.IsWhole) (arg2 : Memref sig .tc .vmem S8192x24 .f32) (harg2 : arg2.IsWhole) (arg3 : Memref sig .tc .vmem S24x24 .f32) (harg3 : arg3.IsWhole) (arg4 : Memref sig .tc .vmem S24x50 .f32) (harg4 : arg4.IsWhole) (arg5 : Memref sig .tc .vmem S24x50 .f32) (harg5 : arg5.IsWhole) (arg6 : Memref sig .tc .vmem S24x24 .f32) (harg6 : arg6.IsWhole) (arg7 : Memref sig .tc .vmem S24x10 .f32) (harg7 : arg7.IsWhole) (arg8 : Memref sig .tc .vmem S24x10 .f32) (harg8 : arg8.IsWhole) (arg9 : Memref sig .tc .vmem S10x10 .f32) (harg9 : arg9.IsWhole) (arg10 : Memref sig .tc .vmem S8192x50 .f32) (harg10 : arg10.IsWhole) (arg11 : Memref sig .tc .vmem S8192x10 .f32) (harg11 : arg11.IsWhole) (arg12 : Memref sig .tc .vmem S8192x10 .f32) (harg12 : arg12.IsWhole) (arg13 : Memref sig .tc .vmem S24x50 .f32) (harg13 : arg13.IsWhole) (arg14 : Memref sig .tc .vmem S24x50 .f32) (harg14 : arg14.IsWhole) (arg15 : Memref sig .tc .vmem S24x10 .f32) (harg15 : arg15.IsWhole) (arg16 : Memref sig .tc .vmem S24x10 .f32) (harg16 : arg16.IsWhole) (arg17 : Memref sig .tc .vmem S24x50 .f32) (harg17 : arg17.IsWhole) (arg18 : Memref sig .tc .vmem S24x50 .f32) (harg18 : arg18.IsWhole) (arg19 : Memref sig .tc .vmem S24x10 .f32) (harg19 : arg19.IsWhole) (arg20 : Memref sig .tc .vmem S24x10 .f32) (harg20 : arg20.IsWhole) (hc0 : ¬cond0_0 i) (hc1 : cond0_1 i) (x0 : Vec F S8192x24 .f32) (x1 : Vec F S8192x24 .f32) (x2 : Vec F S24x24 .f32) (x3 : Vec F S24x50 .f32) (x4 : Vec F S24x50 .f32) (x5 : Vec F S24x24 .f32) (x6 : Vec F S24x10 .f32) (x7 : Vec F S24x10 .f32) (x8 : Vec F S10x10 .f32) (xs0 : Vec F S24x50 .f32) (xs1 : Vec F S24x50 .f32) (xs2 : Vec F S24x10 .f32) (xs3 : Vec F S24x10 .f32) :
    out0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xs0 xs1 xs2 xs3 = Body.accIM x0 x1 x2 x3 x4 x5 xs0 := by
  unfold out0_C_12
  rw [View.read_writes_eq_canon _ _ _ (cover0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xs0 xs1 xs2 xs3)]
  unfold kernelRun0_C
  dsimp only
  sl_unfold_words
  rw [View.canon_unit_zero hz, View.readCov_unit_zero (S := S24x50) _ hz]
  simp only [View.readAt_eq_ld, harg1.read_unread, harg2.read_unread, harg3.read_unread, harg4.read_unread, harg5.read_unread, harg6.read_unread, harg7.read_unread, harg8.read_unread, harg9.read_unread, harg17.read_unread, harg18.read_unread, harg19.read_unread, harg20.read_unread, View.ld_unit_zero (S := S8192x24) hz, View.ld_unit_zero (S := S24x24) hz, View.ld_unit_zero (S := S24x50) hz, View.ld_unit_zero (S := S24x10) hz, View.ld_unit_zero (S := S10x10) hz]
  rfl

/-- The second result: the second running total read back. -/
theorem outIP (c : Dev nD) (i : grid0.Coords) (arg1 : Memref sig .tc .vmem S8192x24 .f32) (harg1 : arg1.IsWhole) (arg2 : Memref sig .tc .vmem S8192x24 .f32) (harg2 : arg2.IsWhole) (arg3 : Memref sig .tc .vmem S24x24 .f32) (harg3 : arg3.IsWhole) (arg4 : Memref sig .tc .vmem S24x50 .f32) (harg4 : arg4.IsWhole) (arg5 : Memref sig .tc .vmem S24x50 .f32) (harg5 : arg5.IsWhole) (arg6 : Memref sig .tc .vmem S24x24 .f32) (harg6 : arg6.IsWhole) (arg7 : Memref sig .tc .vmem S24x10 .f32) (harg7 : arg7.IsWhole) (arg8 : Memref sig .tc .vmem S24x10 .f32) (harg8 : arg8.IsWhole) (arg9 : Memref sig .tc .vmem S10x10 .f32) (harg9 : arg9.IsWhole) (arg10 : Memref sig .tc .vmem S8192x50 .f32) (harg10 : arg10.IsWhole) (arg11 : Memref sig .tc .vmem S8192x10 .f32) (harg11 : arg11.IsWhole) (arg12 : Memref sig .tc .vmem S8192x10 .f32) (harg12 : arg12.IsWhole) (arg13 : Memref sig .tc .vmem S24x50 .f32) (harg13 : arg13.IsWhole) (arg14 : Memref sig .tc .vmem S24x50 .f32) (harg14 : arg14.IsWhole) (arg15 : Memref sig .tc .vmem S24x10 .f32) (harg15 : arg15.IsWhole) (arg16 : Memref sig .tc .vmem S24x10 .f32) (harg16 : arg16.IsWhole) (arg17 : Memref sig .tc .vmem S24x50 .f32) (harg17 : arg17.IsWhole) (arg18 : Memref sig .tc .vmem S24x50 .f32) (harg18 : arg18.IsWhole) (arg19 : Memref sig .tc .vmem S24x10 .f32) (harg19 : arg19.IsWhole) (arg20 : Memref sig .tc .vmem S24x10 .f32) (harg20 : arg20.IsWhole) (hc0 : ¬cond0_0 i) (hc1 : cond0_1 i) (x0 : Vec F S8192x24 .f32) (x1 : Vec F S8192x24 .f32) (x2 : Vec F S24x24 .f32) (x3 : Vec F S24x50 .f32) (x4 : Vec F S24x50 .f32) (x5 : Vec F S24x24 .f32) (x6 : Vec F S24x10 .f32) (x7 : Vec F S24x10 .f32) (x8 : Vec F S10x10 .f32) (xs0 : Vec F S24x50 .f32) (xs1 : Vec F S24x50 .f32) (xs2 : Vec F S24x10 .f32) (xs3 : Vec F S24x10 .f32) :
    out0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xs0 xs1 xs2 xs3 = Body.accIP x0 x1 x2 x3 x4 x5 xs1 := by
  unfold out0_C_13
  rw [View.read_writes_eq_canon _ _ _ (cover0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xs0 xs1 xs2 xs3)]
  unfold kernelRun0_C
  dsimp only
  sl_unfold_words
  rw [View.canon_unit_zero hz, View.readCov_unit_zero (S := S24x50) _ hz]
  simp only [View.readAt_eq_ld, harg1.read_unread, harg2.read_unread, harg3.read_unread, harg4.read_unread, harg5.read_unread, harg6.read_unread, harg7.read_unread, harg8.read_unread, harg9.read_unread, harg17.read_unread, harg18.read_unread, harg19.read_unread, harg20.read_unread, View.ld_unit_zero (S := S8192x24) hz, View.ld_unit_zero (S := S24x24) hz, View.ld_unit_zero (S := S24x50) hz, View.ld_unit_zero (S := S24x10) hz, View.ld_unit_zero (S := S10x10) hz]
  rfl

/-- The third result: the third running total read back. -/
theorem outSM (c : Dev nD) (i : grid0.Coords) (arg1 : Memref sig .tc .vmem S8192x24 .f32) (harg1 : arg1.IsWhole) (arg2 : Memref sig .tc .vmem S8192x24 .f32) (harg2 : arg2.IsWhole) (arg3 : Memref sig .tc .vmem S24x24 .f32) (harg3 : arg3.IsWhole) (arg4 : Memref sig .tc .vmem S24x50 .f32) (harg4 : arg4.IsWhole) (arg5 : Memref sig .tc .vmem S24x50 .f32) (harg5 : arg5.IsWhole) (arg6 : Memref sig .tc .vmem S24x24 .f32) (harg6 : arg6.IsWhole) (arg7 : Memref sig .tc .vmem S24x10 .f32) (harg7 : arg7.IsWhole) (arg8 : Memref sig .tc .vmem S24x10 .f32) (harg8 : arg8.IsWhole) (arg9 : Memref sig .tc .vmem S10x10 .f32) (harg9 : arg9.IsWhole) (arg10 : Memref sig .tc .vmem S8192x50 .f32) (harg10 : arg10.IsWhole) (arg11 : Memref sig .tc .vmem S8192x10 .f32) (harg11 : arg11.IsWhole) (arg12 : Memref sig .tc .vmem S8192x10 .f32) (harg12 : arg12.IsWhole) (arg13 : Memref sig .tc .vmem S24x50 .f32) (harg13 : arg13.IsWhole) (arg14 : Memref sig .tc .vmem S24x50 .f32) (harg14 : arg14.IsWhole) (arg15 : Memref sig .tc .vmem S24x10 .f32) (harg15 : arg15.IsWhole) (arg16 : Memref sig .tc .vmem S24x10 .f32) (harg16 : arg16.IsWhole) (arg17 : Memref sig .tc .vmem S24x50 .f32) (harg17 : arg17.IsWhole) (arg18 : Memref sig .tc .vmem S24x50 .f32) (harg18 : arg18.IsWhole) (arg19 : Memref sig .tc .vmem S24x10 .f32) (harg19 : arg19.IsWhole) (arg20 : Memref sig .tc .vmem S24x10 .f32) (harg20 : arg20.IsWhole) (hc0 : ¬cond0_0 i) (hc1 : cond0_1 i) (x0 : Vec F S8192x24 .f32) (x1 : Vec F S8192x24 .f32) (x2 : Vec F S24x24 .f32) (x3 : Vec F S24x50 .f32) (x4 : Vec F S24x50 .f32) (x5 : Vec F S24x24 .f32) (x6 : Vec F S24x10 .f32) (x7 : Vec F S24x10 .f32) (x8 : Vec F S10x10 .f32) (xs0 : Vec F S24x50 .f32) (xs1 : Vec F S24x50 .f32) (xs2 : Vec F S24x10 .f32) (xs3 : Vec F S24x10 .f32) :
    out0_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xs0 xs1 xs2 xs3 = Body.accSM x0 x1 x2 x5 x6 x7 xs2 := by
  unfold out0_C_14
  rw [View.read_writes_eq_canon _ _ _ (cover0_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xs0 xs1 xs2 xs3)]
  unfold kernelRun0_C
  dsimp only
  sl_unfold_words
  rw [View.canon_unit_zero hz, View.readCov_unit_zero (S := S24x10) _ hz]
  simp only [View.readAt_eq_ld, harg1.read_unread, harg2.read_unread, harg3.read_unread, harg4.read_unread, harg5.read_unread, harg6.read_unread, harg7.read_unread, harg8.read_unread, harg9.read_unread, harg17.read_unread, harg18.read_unread, harg19.read_unread, harg20.read_unread, View.ld_unit_zero (S := S8192x24) hz, View.ld_unit_zero (S := S24x24) hz, View.ld_unit_zero (S := S24x50) hz, View.ld_unit_zero (S := S24x10) hz, View.ld_unit_zero (S := S10x10) hz]
  rfl

/-- The fourth result: the fourth running total read back. -/
theorem outSP (c : Dev nD) (i : grid0.Coords) (arg1 : Memref sig .tc .vmem S8192x24 .f32) (harg1 : arg1.IsWhole) (arg2 : Memref sig .tc .vmem S8192x24 .f32) (harg2 : arg2.IsWhole) (arg3 : Memref sig .tc .vmem S24x24 .f32) (harg3 : arg3.IsWhole) (arg4 : Memref sig .tc .vmem S24x50 .f32) (harg4 : arg4.IsWhole) (arg5 : Memref sig .tc .vmem S24x50 .f32) (harg5 : arg5.IsWhole) (arg6 : Memref sig .tc .vmem S24x24 .f32) (harg6 : arg6.IsWhole) (arg7 : Memref sig .tc .vmem S24x10 .f32) (harg7 : arg7.IsWhole) (arg8 : Memref sig .tc .vmem S24x10 .f32) (harg8 : arg8.IsWhole) (arg9 : Memref sig .tc .vmem S10x10 .f32) (harg9 : arg9.IsWhole) (arg10 : Memref sig .tc .vmem S8192x50 .f32) (harg10 : arg10.IsWhole) (arg11 : Memref sig .tc .vmem S8192x10 .f32) (harg11 : arg11.IsWhole) (arg12 : Memref sig .tc .vmem S8192x10 .f32) (harg12 : arg12.IsWhole) (arg13 : Memref sig .tc .vmem S24x50 .f32) (harg13 : arg13.IsWhole) (arg14 : Memref sig .tc .vmem S24x50 .f32) (harg14 : arg14.IsWhole) (arg15 : Memref sig .tc .vmem S24x10 .f32) (harg15 : arg15.IsWhole) (arg16 : Memref sig .tc .vmem S24x10 .f32) (harg16 : arg16.IsWhole) (arg17 : Memref sig .tc .vmem S24x50 .f32) (harg17 : arg17.IsWhole) (arg18 : Memref sig .tc .vmem S24x50 .f32) (harg18 : arg18.IsWhole) (arg19 : Memref sig .tc .vmem S24x10 .f32) (harg19 : arg19.IsWhole) (arg20 : Memref sig .tc .vmem S24x10 .f32) (harg20 : arg20.IsWhole) (hc0 : ¬cond0_0 i) (hc1 : cond0_1 i) (x0 : Vec F S8192x24 .f32) (x1 : Vec F S8192x24 .f32) (x2 : Vec F S24x24 .f32) (x3 : Vec F S24x50 .f32) (x4 : Vec F S24x50 .f32) (x5 : Vec F S24x24 .f32) (x6 : Vec F S24x10 .f32) (x7 : Vec F S24x10 .f32) (x8 : Vec F S10x10 .f32) (xs0 : Vec F S24x50 .f32) (xs1 : Vec F S24x50 .f32) (xs2 : Vec F S24x10 .f32) (xs3 : Vec F S24x10 .f32) :
    out0_C_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xs0 xs1 xs2 xs3 = Body.accSP x0 x1 x2 x5 x6 x7 xs3 := by
  unfold out0_C_15
  rw [View.read_writes_eq_canon _ _ _ (cover0_C_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xs0 xs1 xs2 xs3)]
  unfold kernelRun0_C
  dsimp only
  sl_unfold_words
  rw [View.canon_unit_zero hz, View.readCov_unit_zero (S := S24x10) _ hz]
  simp only [View.readAt_eq_ld, harg1.read_unread, harg2.read_unread, harg3.read_unread, harg4.read_unread, harg5.read_unread, harg6.read_unread, harg7.read_unread, harg8.read_unread, harg9.read_unread, harg17.read_unread, harg18.read_unread, harg19.read_unread, harg20.read_unread, View.ld_unit_zero (S := S8192x24) hz, View.ld_unit_zero (S := S24x24) hz, View.ld_unit_zero (S := S24x50) hz, View.ld_unit_zero (S := S24x10) hz, View.ld_unit_zero (S := S10x10) hz]
  rfl

end Cert.KernelIdeal.PiecesC

end
-- ==== Proof.LibHostDot.lean ====
/-
  The host's matrix product `A B` read at a row and a column.

  For an `M × K` matrix `A` and a `K × N` matrix `B`, the host's `dot_general` contracting the left operand's
  columns with the right operand's rows is, on the extended reals, `Σₜ A[p, t] · B[t, q]` at row `p` and column
  `q`: the sum over the one-axis contraction index is re-indexed by that axis's coordinate `t`, which sits in the
  second place of the left operand's index and in the first place of the right operand's.
-/
import Idealize.ShloMosaic.PureOps.Ideal.Laws
import Idealize.ShloMosaic.Lib.ValueIdx

noncomputable section

open scoped BigOperators

namespace Idealize.ShloMosaic.HostDot

open Idealize.ShloMosaic Idealize.ShloMosaic.ValueIdx

/-- `A B` on the host, at row `p` and column `q`, is `Σₜ A[p, t] · B[t, q]`. -/
theorem dotGeneral_nn_apply {φ₁ φ₂ : FTy} {M K N : Nat}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂) (p : Fin M) (q : Fin N) :
    Host.dotGeneral (⟨[1], [0], [0], [1], [], [], w⟩ : DotDims ⟨2, ![M, K]⟩ ⟨2, ![K, N]⟩ ⟨2, ![M, N]⟩) prec A B (ix2 p q)
      = ∑ t : Fin K, A (ix2 p t) * B (ix2 t q) := by
  show FloatOps.dotGeneral _ prec _ A B (ix2 p q) = _
  rw [Ideal.dotGeneral_apply,
    ← Equiv.sum_comp (contrEquiv1 (⟨[1], [0], [0], [1], [], [], w⟩ : DotDims ⟨2, ![M, K]⟩ ⟨2, ![K, N]⟩ ⟨2, ![M, N]⟩) K rfl rfl).symm]
  refine Finset.sum_congr rfl fun t _ => ?_
  have c := contrEquiv1_symm_val (⟨[1], [0], [0], [1], [], [], w⟩ : DotDims ⟨2, ![M, K]⟩ ⟨2, ![K, N]⟩ ⟨2, ![M, N]⟩) K rfl rfl t
  have l : (⟨[1], [0], [0], [1], [], [], w⟩ : DotDims ⟨2, ![M, K]⟩ ⟨2, ![K, N]⟩ ⟨2, ![M, N]⟩).lhsIdx (ix2 p q)
      ((contrEquiv1 _ K rfl rfl).symm t) = ix2 p t := by
    funext ax; apply Fin.ext
    match ax with
    | ⟨0, _⟩ => simp [DotDims.lhsIdx]; rfl
    | ⟨1, _⟩ => simp [DotDims.lhsIdx]; exact c
  have r : (⟨[1], [0], [0], [1], [], [], w⟩ : DotDims ⟨2, ![M, K]⟩ ⟨2, ![K, N]⟩ ⟨2, ![M, N]⟩).rhsIdx (ix2 p q)
      ((contrEquiv1 _ K rfl rfl).symm t) = ix2 t q := by
    funext ax; apply Fin.ext
    match ax with
    | ⟨0, _⟩ => simp [DotDims.rhsIdx]; exact c
    | ⟨1, _⟩ => simp [DotDims.rhsIdx]; rfl
  rw [l, r]

end Idealize.ShloMosaic.HostDot

end
-- ==== Proof.LibStackDots.lean ====
/-
  Matrix products with a transposed operand, alone and over a stack, read at a row and a column.

  A matrix product accumulated into zeros, and the host's `dot_general` over a stack of matrices, are read
  on the extended reals at one output entry as the sum over the contracted coordinate `t` of the products of the
  two operands' entries. Which axis of each operand is contracted decides where `t` sits in each operand's index:
  with the left operand transposed (`Aᵀ B`) it is the left operand's ROW, `Σₜ A[t, p] · B[t, q]`; with neither
  transposed (`A B`) `Σₜ A[p, t] · B[t, q]`; with the right operand transposed (`A Bᵀ`) it is the right
  operand's COLUMN, `Σₜ A[p, t] · B[q, t]`. Over a stack the leading coordinate `g` is carried by both operands
  and the result. In each case the accumulator (if any) contributes `0`, and the sum over the one-axis contraction
  index is re-indexed by that axis's coordinate.
-/
import Idealize.ShloMosaic.PureOps.Ideal.Laws
import Idealize.ShloMosaic.Lib.ValueIdx

noncomputable section

open scoped BigOperators

namespace Idealize.ShloMosaic.StackDots

open Idealize.ShloMosaic Idealize.ShloMosaic.ValueIdx

/-! ## One matrix product into zeros -/

/-- `Aᵀ B` for a `K × M` matrix `A` and a `K × N` matrix `B` (both contracted on their rows), into zeros, at row `p`
    and column `q`, is `Σₜ A[t, p] · B[t, q]`. -/
theorem matmul_tn_zero_apply {φ₁ φ₂ : FTy} {M K N : Nat}
    (w : DotDims.WF ⟨2, ![K, M]⟩ ⟨2, ![K, N]⟩ ⟨2, ![M, N]⟩ [0] [0] [1] [1] [] [])
    (prec : Option ContractPrecision) (A : FVec Ideal ⟨2, ![K, M]⟩ φ₁) (B : FVec Ideal ⟨2, ![K, N]⟩ φ₂) (p : Fin M) (q : Fin N) :
    FloatOps.matmul (⟨[0], [0], [1], [1], [], [], w⟩ : DotDims ⟨2, ![K, M]⟩ ⟨2, ![K, N]⟩ ⟨2, ![M, N]⟩) prec A B (constant ⟨2, ![M, N]⟩ .f32 0x00000000#32) (ix2 p q)
      = ∑ t : Fin K, A (ix2 t p) * B (ix2 t q) := by
  rw [Ideal.matmul_constant_zero_apply,
    ← Equiv.sum_comp (contrEquiv1 (⟨[0], [0], [1], [1], [], [], w⟩ : DotDims ⟨2, ![K, M]⟩ ⟨2, ![K, N]⟩ ⟨2, ![M, N]⟩) K rfl rfl).symm]
  refine Finset.sum_congr rfl fun t _ => ?_
  have c := contrEquiv1_symm_val (⟨[0], [0], [1], [1], [], [], w⟩ : DotDims ⟨2, ![K, M]⟩ ⟨2, ![K, N]⟩ ⟨2, ![M, N]⟩) K rfl rfl t
  have l : (⟨[0], [0], [1], [1], [], [], w⟩ : DotDims ⟨2, ![K, M]⟩ ⟨2, ![K, N]⟩ ⟨2, ![M, N]⟩).lhsIdx (ix2 p q)
      ((contrEquiv1 _ K rfl rfl).symm t) = ix2 t p := by
    funext ax; apply Fin.ext
    match ax with
    | ⟨0, _⟩ => simp [DotDims.lhsIdx]; exact c
    | ⟨1, _⟩ => simp [DotDims.lhsIdx]; rfl
  have r : (⟨[0], [0], [1], [1], [], [], w⟩ : DotDims ⟨2, ![K, M]⟩ ⟨2, ![K, N]⟩ ⟨2, ![M, N]⟩).rhsIdx (ix2 p q)
      ((contrEquiv1 _ K rfl rfl).symm t) = ix2 t q := by
    funext ax; apply Fin.ext
    match ax with
    | ⟨0, _⟩ => simp [DotDims.rhsIdx]; exact c
    | ⟨1, _⟩ => simp [DotDims.rhsIdx]; rfl
  rw [l, r]

/-- `A B` for an `M × K` matrix `A` and a `K × N` matrix `B` (the left operand's columns contracted with the right
    operand's rows), into zeros, at row `p` and column `q`, is `Σₜ A[p, t] · B[t, q]`. -/
theorem matmul_nn_zero_apply {φ₁ φ₂ : FTy} {M K N : Nat}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂) (p : Fin M) (q : Fin N) :
    FloatOps.matmul (⟨[1], [0], [0], [1], [], [], w⟩ : DotDims ⟨2, ![M, K]⟩ ⟨2, ![K, N]⟩ ⟨2, ![M, N]⟩) prec A B (constant ⟨2, ![M, N]⟩ .f32 0x00000000#32) (ix2 p q)
      = ∑ t : Fin K, A (ix2 p t) * B (ix2 t q) := by
  rw [Ideal.matmul_constant_zero_apply,
    ← Equiv.sum_comp (contrEquiv1 (⟨[1], [0], [0], [1], [], [], w⟩ : DotDims ⟨2, ![M, K]⟩ ⟨2, ![K, N]⟩ ⟨2, ![M, N]⟩) K rfl rfl).symm]
  refine Finset.sum_congr rfl fun t _ => ?_
  have c := contrEquiv1_symm_val (⟨[1], [0], [0], [1], [], [], w⟩ : DotDims ⟨2, ![M, K]⟩ ⟨2, ![K, N]⟩ ⟨2, ![M, N]⟩) K rfl rfl t
  have l : (⟨[1], [0], [0], [1], [], [], w⟩ : DotDims ⟨2, ![M, K]⟩ ⟨2, ![K, N]⟩ ⟨2, ![M, N]⟩).lhsIdx (ix2 p q)
      ((contrEquiv1 _ K rfl rfl).symm t) = ix2 p t := by
    funext ax; apply Fin.ext
    match ax with
    | ⟨0, _⟩ => simp [DotDims.lhsIdx]; rfl
    | ⟨1, _⟩ => simp [DotDims.lhsIdx]; exact c
  have r : (⟨[1], [0], [0], [1], [], [], w⟩ : DotDims ⟨2, ![M, K]⟩ ⟨2, ![K, N]⟩ ⟨2, ![M, N]⟩).rhsIdx (ix2 p q)
      ((contrEquiv1 _ K rfl rfl).symm t) = ix2 t q := by
    funext ax; apply Fin.ext
    match ax with
    | ⟨0, _⟩ => simp [DotDims.rhsIdx]; exact c
    | ⟨1, _⟩ => simp [DotDims.rhsIdx]; rfl
  rw [l, r]

/-- `A Bᵀ` for an `M × K` matrix `A` and an `N × K` matrix `B` (both contracted on their columns), into zeros, at row
    `p` and column `q`, is `Σₜ A[p, t] · B[q, t]`. -/
theorem matmul_nt_zero_apply {φ₁ φ₂ : FTy} {M K N : Nat}
    (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂) (p : Fin M) (q : Fin N) :
    FloatOps.matmul (⟨[1], [1], [0], [0], [], [], w⟩ : DotDims ⟨2, ![M, K]⟩ ⟨2, ![N, K]⟩ ⟨2, ![M, N]⟩) prec A B (constant ⟨2, ![M, N]⟩ .f32 0x00000000#32) (ix2 p q)
      = ∑ t : Fin K, A (ix2 p t) * B (ix2 q t) := by
  rw [Ideal.matmul_constant_zero_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun t _ => ?_
  have c := contrEquiv1_symm_val (⟨[1], [1], [0], [0], [], [], w⟩ : DotDims ⟨2, ![M, K]⟩ ⟨2, ![N, K]⟩ ⟨2, ![M, N]⟩) K rfl rfl t
  have l : (⟨[1], [1], [0], [0], [], [], w⟩ : DotDims ⟨2, ![M, K]⟩ ⟨2, ![N, K]⟩ ⟨2, ![M, N]⟩).lhsIdx (ix2 p q)
      ((contrEquiv1 _ K rfl rfl).symm t) = ix2 p t := by
    funext ax; apply Fin.ext
    match ax with
    | ⟨0, _⟩ => simp [DotDims.lhsIdx]; rfl
    | ⟨1, _⟩ => simp [DotDims.lhsIdx]; exact c
  have r : (⟨[1], [1], [0], [0], [], [], w⟩ : DotDims ⟨2, ![M, K]⟩ ⟨2, ![N, K]⟩ ⟨2, ![M, N]⟩).rhsIdx (ix2 p q)
      ((contrEquiv1 _ K rfl rfl).symm t) = ix2 q t := by
    funext ax; apply Fin.ext
    match ax with
    | ⟨0, _⟩ => simp [DotDims.rhsIdx]; rfl
    | ⟨1, _⟩ => simp [DotDims.rhsIdx]; exact c
  rw [l, r]

/-! ## The product of two stacks, matrix by matrix -/

/-- `Aᵀ B` member by member, for a stack of `K × M` matrices and a stack of `K × N` matrices (batch axes 0 and 0, each
    member contracted on its rows): at member `g`, row `p` and column `q` it is `Σₜ A[g, t, p] · B[g, t, q]`. -/
theorem dotGeneral_stack_tn_apply {φ₁ φ₂ : FTy} {G M K N : Nat}
    (w : DotDims.WF ⟨3, ![G, K, M]⟩ ⟨3, ![G, K, N]⟩ ⟨3, ![G, M, N]⟩ [1] [1] [2] [2] [0] [0])
    (prec : Option ContractPrecision) (A : FVec Ideal ⟨3, ![G, K, M]⟩ φ₁) (B : FVec Ideal ⟨3, ![G, K, N]⟩ φ₂) (g : Fin G) (p : Fin M) (q : Fin N) :
    Host.dotGeneral (⟨[1], [1], [2], [2], [0], [0], w⟩ : DotDims ⟨3, ![G, K, M]⟩ ⟨3, ![G, K, N]⟩ ⟨3, ![G, M, N]⟩) prec A B (ix3 g p q)
      = ∑ t : Fin K, A (ix3 g t p) * B (ix3 g t q) := by
  show FloatOps.dotGeneral _ prec _ A B (ix3 g p q) = _
  rw [Ideal.dotGeneral_apply,
    ← Equiv.sum_comp (contrEquiv1 (⟨[1], [1], [2], [2], [0], [0], w⟩ : DotDims ⟨3, ![G, K, M]⟩ ⟨3, ![G, K, N]⟩ ⟨3, ![G, M, N]⟩) K rfl rfl).symm]
  refine Finset.sum_congr rfl fun t _ => ?_
  have c := contrEquiv1_symm_val (⟨[1], [1], [2], [2], [0], [0], w⟩ : DotDims ⟨3, ![G, K, M]⟩ ⟨3, ![G, K, N]⟩ ⟨3, ![G, M, N]⟩) K rfl rfl t
  have l : (⟨[1], [1], [2], [2], [0], [0], w⟩ : DotDims ⟨3, ![G, K, M]⟩ ⟨3, ![G, K, N]⟩ ⟨3, ![G, M, N]⟩).lhsIdx (ix3 g p q)
      ((contrEquiv1 _ K rfl rfl).symm t) = ix3 g t p := by
    funext ax; apply Fin.ext
    match ax with
    | ⟨0, _⟩ => simp [DotDims.lhsIdx]; rfl
    | ⟨1, _⟩ => simp [DotDims.lhsIdx]; exact c
    | ⟨2, _⟩ => simp [DotDims.lhsIdx]; rfl
  have r : (⟨[1], [1], [2], [2], [0], [0], w⟩ : DotDims ⟨3, ![G, K, M]⟩ ⟨3, ![G, K, N]⟩ ⟨3, ![G, M, N]⟩).rhsIdx (ix3 g p q)
      ((contrEquiv1 _ K rfl rfl).symm t) = ix3 g t q := by
    funext ax; apply Fin.ext
    match ax with
    | ⟨0, _⟩ => simp [DotDims.rhsIdx]; rfl
    | ⟨1, _⟩ => simp [DotDims.rhsIdx]; exact c
    | ⟨2, _⟩ => simp [DotDims.rhsIdx]; rfl
  rw [l, r]

/-- `A Bᵀ` member by member, for a stack of `M × K` matrices and a stack of `N × K` matrices (batch axes 0 and 0, each
    member contracted on its columns): at member `g`, row `p` and column `q` it is `Σₜ A[g, p, t] · B[g, q, t]`. -/
theorem dotGeneral_stack_nt_apply {φ₁ φ₂ : FTy} {G M K N : Nat}
    (w : DotDims.WF ⟨3, ![G, M, K]⟩ ⟨3, ![G, N, K]⟩ ⟨3, ![G, M, N]⟩ [2] [2] [1] [1] [0] [0])
    (prec : Option ContractPrecision) (A : FVec Ideal ⟨3, ![G, M, K]⟩ φ₁) (B : FVec Ideal ⟨3, ![G, N, K]⟩ φ₂) (g : Fin G) (p : Fin M) (q : Fin N) :
    Host.dotGeneral (⟨[2], [2], [1], [1], [0], [0], w⟩ : DotDims ⟨3, ![G, M, K]⟩ ⟨3, ![G, N, K]⟩ ⟨3, ![G, M, N]⟩) prec A B (ix3 g p q)
      = ∑ t : Fin K, A (ix3 g p t) * B (ix3 g q t) := by
  show FloatOps.dotGeneral _ prec _ A B (ix3 g p q) = _
  rw [Ideal.dotGeneral_apply,
    ← Equiv.sum_comp (contrEquiv1 (⟨[2], [2], [1], [1], [0], [0], w⟩ : DotDims ⟨3, ![G, M, K]⟩ ⟨3, ![G, N, K]⟩ ⟨3, ![G, M, N]⟩) K rfl rfl).symm]
  refine Finset.sum_congr rfl fun t _ => ?_
  have c := contrEquiv1_symm_val (⟨[2], [2], [1], [1], [0], [0], w⟩ : DotDims ⟨3, ![G, M, K]⟩ ⟨3, ![G, N, K]⟩ ⟨3, ![G, M, N]⟩) K rfl rfl t
  have l : (⟨[2], [2], [1], [1], [0], [0], w⟩ : DotDims ⟨3, ![G, M, K]⟩ ⟨3, ![G, N, K]⟩ ⟨3, ![G, M, N]⟩).lhsIdx (ix3 g p q)
      ((contrEquiv1 _ K rfl rfl).symm t) = ix3 g p t := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c
  have r : (⟨[2], [2], [1], [1], [0], [0], w⟩ : DotDims ⟨3, ![G, M, K]⟩ ⟨3, ![G, N, K]⟩ ⟨3, ![G, M, N]⟩).rhsIdx (ix3 g p q)
      ((contrEquiv1 _ K rfl rfl).symm t) = ix3 g q t := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c
  rw [l, r]

end Idealize.ShloMosaic.StackDots

end
-- ==== Proof.Rows.lean ====
/-
  A layered network of threshold neurons, applied to every row of a batch, and the batch sums of its layers' products.

  A neuron FIRES — its output is 1 — when its input current exceeds one half, and is silent — 0 — otherwise. A layer
  with weight matrix W turns the activities of one row, a[0..K), into the currents Σₖ a[k]·W[k, j], one per neuron j;
  a layer fed by two populations adds the two currents before the threshold. Applied to a matrix of R rows, a layer
  works on each row by itself: row p of the result depends on row p of the input and on the weights, and on nothing
  else ("rows agree" lemmas below). The products a plasticity rule accumulates are the batch sums
  Σₚ A[p, i]·B[p, o] of two layers' activities over all rows p; summed block by block — n consecutive blocks of L
  rows — they are the same sum, because addition of extended reals is commutative and associative (nothing here
  needs the terms to be finite).

  Two spellings of one layer meet here. One multiplies matrices with the host's product, compares with a matrix filled
  with one half, and converts the resulting bit to a number. The other rounds the operands to a narrower format (which
  changes nothing on the extended reals), multiplies with an accumulating product started from zeros, compares with
  the same one half, widens the bit to a word and converts the word read as a signed number. Both are the layer above.
-/
import Idealize.ShloMosaic.PureOps.Ideal.Laws
import Idealize.ShloMosaic.Lib.ValueIdx
import Idealize.ShloMosaic.Lib.KernelVsHost
import proofs.«150760_j46213848105974_1_alg».proof.Proof.LibHostDot
import proofs.«150760_j46213848105974_1_alg».proof.Proof.LibStackDots

noncomputable section

open scoped BigOperators

namespace Cert.Spikes

open Idealize.ShloMosaic Idealize.ShloMosaic.ValueIdx

/-- A matrix of `R` rows and `C` columns of extended reals. -/
abbrev Mat (R C : Nat) : Type := (⟨2, ![R, C]⟩ : Shape).Idx → EReal

/-- The threshold one half, as the extended real its binary pattern denotes. -/
abbrev half : EReal := Ideal.ofBits .f32 0x3F000000#32

/-- A neuron fires (1) when its current exceeds one half and is silent (0) otherwise. -/
def fire (a : EReal) : EReal :=
  FloatOps.uitofp (F := Ideal) .f32 (FloatOps.cmpf (F := Ideal) (φ := .f32) .ogt a half)

/-- The current into neuron `j` of a layer with weights `W`, driven by row `p` of `X`. -/
def current {R K C : Nat} (X : Mat R K) (W : Mat K C) (p : Fin R) (j : Fin C) : EReal :=
  ∑ k : Fin K, X (ix2 p k) * W (ix2 k j)

/-- One layer applied to every row. -/
def apply1 {R K C : Nat} (X : Mat R K) (W : Mat K C) : Mat R C :=
  fun i => fire (current X W (i 0) (i 1))

/-- One layer fed by two populations, applied to every row. -/
def apply2 {R K C : Nat} (A B : Mat R K) (Wa Wb : Mat K C) : Mat R C :=
  fun i => fire (current A Wa (i 0) (i 1) + current B Wb (i 0) (i 1))

/-- The batch sum of the products of two layers' activities: entry (i, o) is Σₚ A[p, i]·B[p, o]. -/
def outer {R K C : Nat} (A : Mat R K) (B : Mat R C) : Mat K C :=
  fun i => ∑ p : Fin R, A (ix2 p (i 0)) * B (ix2 p (i 1))

theorem apply1_ix {R K C : Nat} (X : Mat R K) (W : Mat K C) (p : Fin R) (q : Fin C) :
    apply1 X W (ix2 p q) = fire (current X W p q) := rfl

theorem apply2_ix {R K C : Nat} (A B : Mat R K) (Wa Wb : Mat K C) (p : Fin R) (q : Fin C) :
    apply2 A B Wa Wb (ix2 p q) = fire (current A Wa p q + current B Wb p q) := rfl

theorem outer_ix {R K C : Nat} (A : Mat R K) (B : Mat R C) (i : Fin K) (o : Fin C) :
    outer A B (ix2 i o) = ∑ p : Fin R, A (ix2 p i) * B (ix2 p o) := rfl

/-! ## Rows agree -/

/-- The current into a neuron depends on its own row of the input only. -/
theorem current_rows {R R' K C : Nat} (X : Mat R K) (X' : Mat R' K) (W : Mat K C) (p : Fin R) (p' : Fin R')
    (h : ∀ k : Fin K, X (ix2 p k) = X' (ix2 p' k)) (j : Fin C) : current X W p j = current X' W p' j :=
  Finset.sum_congr rfl fun k _ => by rw [h k]

/-- A layer's row `p` is its row `p'` on another input whose row `p'` is this input's row `p`. -/
theorem apply1_rows {R R' K C : Nat} (X : Mat R K) (X' : Mat R' K) (W : Mat K C) (p : Fin R) (p' : Fin R')
    (h : ∀ k : Fin K, X (ix2 p k) = X' (ix2 p' k)) (q : Fin C) : apply1 X W (ix2 p q) = apply1 X' W (ix2 p' q) := by
  rw [apply1_ix, apply1_ix, current_rows X X' W p p' h q]

/-- The same for a layer fed by two populations. -/
theorem apply2_rows {R R' K C : Nat} (A B : Mat R K) (A' B' : Mat R' K) (Wa Wb : Mat K C) (p : Fin R) (p' : Fin R')
    (ha : ∀ k : Fin K, A (ix2 p k) = A' (ix2 p' k)) (hb : ∀ k : Fin K, B (ix2 p k) = B' (ix2 p' k)) (q : Fin C) :
    apply2 A B Wa Wb (ix2 p q) = apply2 A' B' Wa Wb (ix2 p' q) := by
  rw [apply2_ix, apply2_ix, current_rows A A' Wa p p' ha q, current_rows B B' Wb p p' hb q]

/-! ## The batch sum, block by block -/

/-- Row `L·s + r` of a matrix of `n·L` rows, for a block `s < n` and a row `r < L` inside it. -/
def blockRow {n L : Nat} (s : Fin n) (r : Fin L) : Fin (n * L) :=
  ⟨L * s.val + r.val, by
    have hs := s.isLt; have hr := r.isLt
    calc L * s.val + r.val < L * s.val + L := by omega
      _ = L * (s.val + 1) := by ring
      _ ≤ L * n := Nat.mul_le_mul_left L hs
      _ = n * L := Nat.mul_comm L n⟩

/-- A sum over the `n·L` rows is the sum over the `n` blocks of the sums over each block's `L` rows. -/
theorem sum_blocks {n L : Nat} (g : Fin (n * L) → EReal) :
    ∑ p : Fin (n * L), g p = ∑ s : Fin n, ∑ r : Fin L, g (blockRow s r) := by
  rw [← Finset.sum_product', ← finProdFinEquiv.sum_comp]
  refine Finset.sum_congr rfl fun x _ => congrArg g (Fin.ext ?_)
  show x.2.val + L * x.1.val = L * x.1.val + x.2.val
  omega

/-- The batch sum over `n·L` rows is the sum of the `n` blocks' batch sums, when each block `s` of the two factors is
    given by `A' s` and `B' s`. -/
theorem outer_blocks {n L K C : Nat} (A : Mat (n * L) K) (B : Mat (n * L) C) (A' : Fin n → Mat L K) (B' : Fin n → Mat L C)
    (ha : ∀ (s : Fin n) (r : Fin L) (k : Fin K), A' s (ix2 r k) = A (ix2 (blockRow s r) k))
    (hb : ∀ (s : Fin n) (r : Fin L) (k : Fin C), B' s (ix2 r k) = B (ix2 (blockRow s r) k)) (i : Fin K) (o : Fin C) :
    outer A B (ix2 i o) = ∑ s : Fin n, outer (A' s) (B' s) (ix2 i o) := by
  rw [outer_ix, sum_blocks]
  refine Finset.sum_congr rfl fun s _ => ?_
  rw [outer_ix]
  exact Finset.sum_congr rfl fun r _ => by rw [ha, hb]

/-! ## The host's spelling -/

/-- The host's product, compared with one half, the bit converted: one layer on every row. -/
theorem host_apply1 {R K C : Nat} (w : DotDims.WF ⟨2, ![R, K]⟩ ⟨2, ![K, C]⟩ ⟨2, ![R, C]⟩ [1] [0] [0] [1] [] [])
    (X : Mat R K) (W : Mat K C) (h : Mat R C) (hh : ∀ i, h i = half) :
    uitofp (F := Ideal) .f32 (cmpf (F := Ideal) (φ := .f32) .ogt
      (Host.dotGeneral (F := Ideal) (φ₁ := .f32) (φ₂ := .f32)
        (⟨[1], [0], [0], [1], [], [], w⟩ : DotDims ⟨2, ![R, K]⟩ ⟨2, ![K, C]⟩ ⟨2, ![R, C]⟩) none X W) h) = apply1 X W := by
  funext i
  obtain ⟨p, q, rfl⟩ : ∃ (p : Fin R) (q : Fin C), i = ix2 p q := ⟨i 0, i 1, eq_ix2 i⟩
  show FloatOps.uitofp (F := Ideal) .f32 (FloatOps.cmpf (F := Ideal) (φ := .f32) .ogt
    (Host.dotGeneral (F := Ideal) (φ₁ := .f32) (φ₂ := .f32) _ none X W (ix2 p q)) (h (ix2 p q))) = fire (current X W p q)
  rw [hh, HostDot.dotGeneral_nn_apply]
  rfl

/-- The same with two products added before the threshold. -/
theorem host_apply2 {R K C : Nat} (w : DotDims.WF ⟨2, ![R, K]⟩ ⟨2, ![K, C]⟩ ⟨2, ![R, C]⟩ [1] [0] [0] [1] [] [])
    (A B : Mat R K) (Wa Wb : Mat K C) (h : Mat R C) (hh : ∀ i, h i = half) :
    uitofp (F := Ideal) .f32 (cmpf (F := Ideal) (φ := .f32) .ogt
      (addf (F := Ideal) (φ := .f32)
        (Host.dotGeneral (F := Ideal) (φ₁ := .f32) (φ₂ := .f32)
          (⟨[1], [0], [0], [1], [], [], w⟩ : DotDims ⟨2, ![R, K]⟩ ⟨2, ![K, C]⟩ ⟨2, ![R, C]⟩) none A Wa)
        (Host.dotGeneral (F := Ideal) (φ₁ := .f32) (φ₂ := .f32)
          (⟨[1], [0], [0], [1], [], [], w⟩ : DotDims ⟨2, ![R, K]⟩ ⟨2, ![K, C]⟩ ⟨2, ![R, C]⟩) none B Wb)) h)
      = apply2 A B Wa Wb := by
  funext i
  obtain ⟨p, q, rfl⟩ : ∃ (p : Fin R) (q : Fin C), i = ix2 p q := ⟨i 0, i 1, eq_ix2 i⟩
  show FloatOps.uitofp (F := Ideal) .f32 (FloatOps.cmpf (F := Ideal) (φ := .f32) .ogt
    (Host.dotGeneral (F := Ideal) (φ₁ := .f32) (φ₂ := .f32) _ none A Wa (ix2 p q)
      + Host.dotGeneral (F := Ideal) (φ₁ := .f32) (φ₂ := .f32) _ none B Wb (ix2 p q)) (h (ix2 p q)))
    = fire (current A Wa p q + current B Wb p q)
  rw [hh, HostDot.dotGeneral_nn_apply, HostDot.dotGeneral_nn_apply]
  rfl

/-- The host's product of two matrices contracted on their rows is the batch sum of products. -/
theorem host_outer {R K C : Nat} (w : DotDims.WF ⟨2, ![R, K]⟩ ⟨2, ![R, C]⟩ ⟨2, ![K, C]⟩ [0] [0] [1] [1] [] [])
    (A : Mat R K) (B : Mat R C) :
    Host.dotGeneral (F := Ideal) (φ₁ := .f32) (φ₂ := .f32)
      (⟨[0], [0], [1], [1], [], [], w⟩ : DotDims ⟨2, ![R, K]⟩ ⟨2, ![R, C]⟩ ⟨2, ![K, C]⟩) none A B = outer A B := by
  rw [← matmul_zero_eq_dotGeneral]
  funext i
  obtain ⟨p, q, rfl⟩ : ∃ (p : Fin K) (q : Fin C), i = ix2 p q := ⟨i 0, i 1, eq_ix2 i⟩
  exact StackDots.matmul_tn_zero_apply w none A B p q

/-! ## The kernel's spelling -/

/-- A product into zeros, compared with one half, the bit widened to a word and the word converted as a signed number:
    one layer on every row. The operands may be of any float format (a change of format is the identity here). -/
theorem kernel_apply1 {R K C : Nat} (w : DotDims.WF ⟨2, ![R, K]⟩ ⟨2, ![K, C]⟩ ⟨2, ![R, C]⟩ [1] [0] [0] [1] [] [])
    (X : Mat R K) (W : Mat K C) (h : Mat R C) (hh : ∀ i, h i = half) (h132 : 1 < 32) :
    sitofp (F := Ideal) .f32 (extui 32 (cmpf (F := Ideal) (φ := .f32) .ogt
      (matmul (F := Ideal) (φ₁ := .bf16) (φ₂ := .bf16)
        (⟨[1], [0], [0], [1], [], [], w⟩ : DotDims ⟨2, ![R, K]⟩ ⟨2, ![K, C]⟩ ⟨2, ![R, C]⟩) none X W
        (constant ⟨2, ![R, C]⟩ .f32 0x00000000#32)) h) h132) = apply1 X W := by
  rw [sitofp_extui_eq_uitofp]
  funext i
  obtain ⟨p, q, rfl⟩ : ∃ (p : Fin R) (q : Fin C), i = ix2 p q := ⟨i 0, i 1, eq_ix2 i⟩
  show FloatOps.uitofp (F := Ideal) .f32 (FloatOps.cmpf (F := Ideal) (φ := .f32) .ogt
    (FloatOps.matmul (F := Ideal) (φ₁ := .bf16) (φ₂ := .bf16) _ none X W (constant ⟨2, ![R, C]⟩ .f32 0x00000000#32) (ix2 p q))
    (h (ix2 p q))) = fire (current X W p q)
  rw [hh, StackDots.matmul_nn_zero_apply]
  rfl

/-- The same with two products added before the threshold. -/
theorem kernel_apply2 {R K C : Nat} (w : DotDims.WF ⟨2, ![R, K]⟩ ⟨2, ![K, C]⟩ ⟨2, ![R, C]⟩ [1] [0] [0] [1] [] [])
    (A B : Mat R K) (Wa Wb : Mat K C) (h : Mat R C) (hh : ∀ i, h i = half) (h132 : 1 < 32) :
    sitofp (F := Ideal) .f32 (extui 32 (cmpf (F := Ideal) (φ := .f32) .ogt
      (addf (F := Ideal) (φ := .f32)
        (matmul (F := Ideal) (φ₁ := .bf16) (φ₂ := .bf16)
          (⟨[1], [0], [0], [1], [], [], w⟩ : DotDims ⟨2, ![R, K]⟩ ⟨2, ![K, C]⟩ ⟨2, ![R, C]⟩) none A Wa
          (constant ⟨2, ![R, C]⟩ .f32 0x00000000#32))
        (matmul (F := Ideal) (φ₁ := .bf16) (φ₂ := .bf16)
          (⟨[1], [0], [0], [1], [], [], w⟩ : DotDims ⟨2, ![R, K]⟩ ⟨2, ![K, C]⟩ ⟨2, ![R, C]⟩) none B Wb
          (constant ⟨2, ![R, C]⟩ .f32 0x00000000#32))) h) h132) = apply2 A B Wa Wb := by
  rw [sitofp_extui_eq_uitofp]
  funext i
  obtain ⟨p, q, rfl⟩ : ∃ (p : Fin R) (q : Fin C), i = ix2 p q := ⟨i 0, i 1, eq_ix2 i⟩
  show FloatOps.uitofp (F := Ideal) .f32 (FloatOps.cmpf (F := Ideal) (φ := .f32) .ogt
    (FloatOps.matmul (F := Ideal) (φ₁ := .bf16) (φ₂ := .bf16) _ none A Wa (constant ⟨2, ![R, C]⟩ .f32 0x00000000#32) (ix2 p q)
      + FloatOps.matmul (F := Ideal) (φ₁ := .bf16) (φ₂ := .bf16) _ none B Wb (constant ⟨2, ![R, C]⟩ .f32 0x00000000#32) (ix2 p q))
    (h (ix2 p q))) = fire (current A Wa p q + current B Wb p q)
  rw [hh, StackDots.matmul_nn_zero_apply, StackDots.matmul_nn_zero_apply]
  rfl

/-- A product of two matrices contracted on their rows, into zeros: the batch sum of products. -/
theorem kernel_outer {R K C : Nat} (w : DotDims.WF ⟨2, ![R, K]⟩ ⟨2, ![R, C]⟩ ⟨2, ![K, C]⟩ [0] [0] [1] [1] [] [])
    (A : Mat R K) (B : Mat R C) :
    matmul (F := Ideal) (φ₁ := .bf16) (φ₂ := .bf16)
      (⟨[0], [0], [1], [1], [], [], w⟩ : DotDims ⟨2, ![R, K]⟩ ⟨2, ![R, C]⟩ ⟨2, ![K, C]⟩) none A B
      (constant ⟨2, ![K, C]⟩ .f32 0x00000000#32) = outer A B := by
  funext i
  obtain ⟨p, q, rfl⟩ : ∃ (p : Fin K) (q : Fin C), i = ix2 p q := ⟨i 0, i 1, eq_ix2 i⟩
  exact StackDots.matmul_tn_zero_apply w none A B p q

end Cert.Spikes

end
-- ==== Proof.BodyMath.lean ====
/-
  One grid point's block-level terms, on the extended reals.

  Read at the exact instance, where a change of float format is the identity, the kernel's block-level compositions
  are the layered threshold network of Rows.lean applied to the block's rows: the mirror layers are one layer each, the
  merged layers one two-population layer each over the mirror layers' spikes, the motor layer one layer over the second
  merged layer's spikes; and each running total grows by the block's batch sum of products of the two layers it
  pairs. The reset the first point stores is the zero matrix.
-/
import proofs.«150760_j46213848105974_1_alg».proof.Proof.Body
import proofs.«150760_j46213848105974_1_alg».proof.Proof.Rows
import Idealize.ShloMosaic.Lib.Pipeline.Value

noncomputable section

namespace Cert.KernelIdeal.BodyMath

open Cert.KernelIdeal Cert.KernelIdeal.Gen Cert.Spikes Idealize.ShloMosaic Idealize.ShloMosaic.ValueIdx

/-- The first mirror layer's spikes of a block: one layer through W0. -/
theorem mirror1 (x0 : Vec Ideal S8192x24 .f32) (x2 : Vec Ideal S24x24 .f32) :
    k0_pay13 (F := Ideal) x0 x2 = apply1 x0 x2 := by
  unfold k0_pay13
  exact kernel_apply1 dot_S8192x24_S24x24_S8192x24_1_0_0_1_n_n_wf x0 x2 _ (fun _ => rfl) _

/-- The second mirror layer's spikes of a block: one layer through W3. -/
theorem mirror2 (x1 : Vec Ideal S8192x24 .f32) (x5 : Vec Ideal S24x24 .f32) :
    k0_pay14 (F := Ideal) x1 x5 = apply1 x1 x5 := by
  unfold k0_pay14
  exact kernel_apply1 dot_S8192x24_S24x24_S8192x24_1_0_0_1_n_n_wf x1 x5 _ (fun _ => rfl) _

/-- The first merged layer's spikes of a block. -/
theorem ifg (x0 x1 : Vec Ideal S8192x24 .f32) (x2 : Vec Ideal S24x24 .f32) (x3 x4 : Vec Ideal S24x50 .f32)
    (x5 : Vec Ideal S24x24 .f32) :
    Body.ifg (F := Ideal) x0 x1 x2 x3 x4 x5 = apply2 (apply1 x0 x2) (apply1 x1 x5) x3 x4 := by
  unfold Body.ifg k0_pay15
  refine (kernel_apply2 dot_S8192x24_S24x50_S8192x50_1_0_0_1_n_n_wf (k0_pay13 (F := Ideal) x0 x2) (k0_pay14 (F := Ideal) x1 x5)
    x3 x4 _ (fun _ => rfl) _).trans ?_
  rw [mirror1, mirror2]

/-- The second merged layer's spikes of a block. -/
theorem sma (x0 x1 : Vec Ideal S8192x24 .f32) (x2 x5 : Vec Ideal S24x24 .f32) (x6 x7 : Vec Ideal S24x10 .f32) :
    Body.sma (F := Ideal) x0 x1 x2 x5 x6 x7 = apply2 (apply1 x0 x2) (apply1 x1 x5) x6 x7 := by
  unfold Body.sma k0_pay19
  refine (kernel_apply2 dot_S8192x24_S24x10_S8192x10_1_0_0_1_n_n_wf (k0_pay13 (F := Ideal) x0 x2) (k0_pay14 (F := Ideal) x1 x5)
    x6 x7 _ (fun _ => rfl) _).trans ?_
  rw [mirror1, mirror2]

/-- The narrowed copy of the second merged layer's spikes that later products read is the same matrix. -/
theorem sma_narrow (x0 x1 : Vec Ideal S8192x24 .f32) (x2 x5 : Vec Ideal S24x24 .f32) (x6 x7 : Vec Ideal S24x10 .f32) :
    k0_pay20 (F := Ideal) (k0_pay10 x6) (k0_pay11 x7) (k0_pay13 x0 x2) (k0_pay14 x1 x5)
      = apply2 (apply1 x0 x2) (apply1 x1 x5) x6 x7 :=
  sma x0 x1 x2 x5 x6 x7

/-- The narrowed copy of the first merged layer's spikes is the same matrix. -/
theorem ifg_narrow (x0 x1 : Vec Ideal S8192x24 .f32) (x2 : Vec Ideal S24x24 .f32) (x3 x4 : Vec Ideal S24x50 .f32)
    (x5 : Vec Ideal S24x24 .f32) :
    k0_pay16 (F := Ideal) (k0_pay8 x3) (k0_pay9 x4) (k0_pay13 x0 x2) (k0_pay14 x1 x5) (constant S8192x50 .f32 0x00000000#32)
      = apply2 (apply1 x0 x2) (apply1 x1 x5) x3 x4 :=
  ifg x0 x1 x2 x3 x4 x5

/-- The motor layer's spikes of a block. -/
theorem m1 (x0 x1 : Vec Ideal S8192x24 .f32) (x2 x5 : Vec Ideal S24x24 .f32) (x6 x7 : Vec Ideal S24x10 .f32)
    (x8 : Vec Ideal S10x10 .f32) :
    Body.m1 (F := Ideal) x0 x1 x2 x5 x6 x7 x8 = apply1 (apply2 (apply1 x0 x2) (apply1 x1 x5) x6 x7) x8 := by
  unfold Body.m1 k0_pay3
  refine (kernel_apply1 dot_S8192x10_S10x10_S8192x10_1_0_0_1_n_n_wf
    (k0_pay20 (F := Ideal) (k0_pay10 x6) (k0_pay11 x7) (k0_pay13 x0 x2) (k0_pay14 x1 x5)) x8 _ (fun _ => rfl) _).trans ?_
  rw [sma_narrow]

/-- The first running total after a block: the total before it plus the block's batch sum of
    (first mirror layer)·(first merged layer). -/
theorem accIM (x0 x1 : Vec Ideal S8192x24 .f32) (x2 : Vec Ideal S24x24 .f32) (x3 x4 : Vec Ideal S24x50 .f32)
    (x5 : Vec Ideal S24x24 .f32) (a : Vec Ideal S24x50 .f32) (i : S24x50.Idx) :
    Body.accIM (F := Ideal) x0 x1 x2 x3 x4 x5 a i
      = a i + outer (apply1 x0 x2) (apply2 (apply1 x0 x2) (apply1 x1 x5) x3 x4) i := by
  unfold Body.accIM k0_pay17
  rw [shapeCast_self]
  show a i + matmul (F := Ideal) (φ₁ := .bf16) (φ₂ := .bf16) dot_S8192x24_S8192x50_S24x50_0_0_1_1_n_n none _ _ _ i = _
  rw [ifg_narrow, mirror1]
  exact congrArg (a i + ·) (congrFun (kernel_outer dot_S8192x24_S8192x50_S24x50_0_0_1_1_n_n_wf _ _) i)

/-- The second running total: (second mirror layer)·(first merged layer). -/
theorem accIP (x0 x1 : Vec Ideal S8192x24 .f32) (x2 : Vec Ideal S24x24 .f32) (x3 x4 : Vec Ideal S24x50 .f32)
    (x5 : Vec Ideal S24x24 .f32) (a : Vec Ideal S24x50 .f32) (i : S24x50.Idx) :
    Body.accIP (F := Ideal) x0 x1 x2 x3 x4 x5 a i
      = a i + outer (apply1 x1 x5) (apply2 (apply1 x0 x2) (apply1 x1 x5) x3 x4) i := by
  unfold Body.accIP k0_pay18
  rw [shapeCast_self]
  show a i + matmul (F := Ideal) (φ₁ := .bf16) (φ₂ := .bf16) dot_S8192x24_S8192x50_S24x50_0_0_1_1_n_n none _ _ _ i = _
  rw [ifg_narrow, mirror2]
  exact congrArg (a i + ·) (congrFun (kernel_outer dot_S8192x24_S8192x50_S24x50_0_0_1_1_n_n_wf _ _) i)

/-- The third running total: (first mirror layer)·(second merged layer). -/
theorem accSM (x0 x1 : Vec Ideal S8192x24 .f32) (x2 x5 : Vec Ideal S24x24 .f32) (x6 x7 : Vec Ideal S24x10 .f32)
    (a : Vec Ideal S24x10 .f32) (i : S24x10.Idx) :
    Body.accSM (F := Ideal) x0 x1 x2 x5 x6 x7 a i
      = a i + outer (apply1 x0 x2) (apply2 (apply1 x0 x2) (apply1 x1 x5) x6 x7) i := by
  unfold Body.accSM k0_pay1 k0_pay21
  rw [shapeCast_self]
  show a i + matmul (F := Ideal) (φ₁ := .bf16) (φ₂ := .bf16) dot_S8192x24_S8192x10_S24x10_0_0_1_1_n_n none _ _ _ i = _
  rw [sma_narrow, mirror1]
  exact congrArg (a i + ·) (congrFun (kernel_outer dot_S8192x24_S8192x10_S24x10_0_0_1_1_n_n_wf _ _) i)

/-- The fourth running total: (second mirror layer)·(second merged layer). -/
theorem accSP (x0 x1 : Vec Ideal S8192x24 .f32) (x2 x5 : Vec Ideal S24x24 .f32) (x6 x7 : Vec Ideal S24x10 .f32)
    (a : Vec Ideal S24x10 .f32) (i : S24x10.Idx) :
    Body.accSP (F := Ideal) x0 x1 x2 x5 x6 x7 a i
      = a i + outer (apply1 x1 x5) (apply2 (apply1 x0 x2) (apply1 x1 x5) x6 x7) i := by
  unfold Body.accSP k0_pay2
  rw [shapeCast_self]
  show a i + matmul (F := Ideal) (φ₁ := .bf16) (φ₂ := .bf16) dot_S8192x24_S8192x10_S24x10_0_0_1_1_n_n none _ _ _ i = _
  rw [sma_narrow, mirror2]
  exact congrArg (a i + ·) (congrFun (kernel_outer dot_S8192x24_S8192x10_S24x10_0_0_1_1_n_n_wf _ _) i)

/-- The reset the first point stores in a 24×50 total is zero everywhere. -/
theorem reset50a (i : S24x50.Idx) : (k0_pay4 (F := Ideal)) i = 0 := by
  unfold k0_pay4
  rw [shapeCast_self]
  exact Ideal.ofBits_zero_f32

theorem reset50b (i : S24x50.Idx) : (k0_pay5 (F := Ideal)) i = 0 := by
  unfold k0_pay5
  rw [shapeCast_self]
  exact Ideal.ofBits_zero_f32

/-- The reset the first point stores in a 24×10 total is zero everywhere. -/
theorem reset10a (i : S24x10.Idx) : (k0_pay6 (F := Ideal)) i = 0 := by
  unfold k0_pay6
  rw [shapeCast_self]
  exact Ideal.ofBits_zero_f32

theorem reset10b (i : S24x10.Idx) : (k0_pay7 (F := Ideal)) i = 0 := by
  unfold k0_pay7
  rw [shapeCast_self]
  exact Ideal.ofBits_zero_f32

end Cert.KernelIdeal.BodyMath

end
-- ==== Proof.Net.lean ====
/-
  The network's seven outputs, for any number of rows, and how they decompose over blocks of rows.

  From two inputs of R rows of 24 activities and seven weight matrices the network forms: the two mirror layers'
  spikes M = layer(x1; W0) and P = layer(x2; W3); the two merged layers' spikes I = layer(M, P; W1, W2) and
  S = layer(M, P; W4, W5); the motor layer's spikes layer(S; W6); and the four batch sums of products Mᵀ·I, Pᵀ·I,
  Mᵀ·S, Pᵀ·S. Every layer works row by row, so a row of I, S or the motor layer is determined by the same row of x1
  and of x2; and a batch sum over n·L rows is the sum, over the n blocks of L consecutive rows, of the same batch
  sum formed from that block alone.
-/
import proofs.«150760_j46213848105974_1_alg».proof.Proof.Rows

noncomputable section

open scoped BigOperators

namespace Cert.Spikes

open Idealize.ShloMosaic Idealize.ShloMosaic.ValueIdx

/-- The first merged layer's spikes. -/
def ifgOf {R : Nat} (x1 x2 : Mat R 24) (W0 W3 : Mat 24 24) (W1 W2 : Mat 24 50) : Mat R 50 :=
  apply2 (apply1 x1 W0) (apply1 x2 W3) W1 W2

/-- The second merged layer's spikes. -/
def smaOf {R : Nat} (x1 x2 : Mat R 24) (W0 W3 : Mat 24 24) (W4 W5 : Mat 24 10) : Mat R 10 :=
  apply2 (apply1 x1 W0) (apply1 x2 W3) W4 W5

/-- The motor layer's spikes. -/
def m1Of {R : Nat} (x1 x2 : Mat R 24) (W0 W3 : Mat 24 24) (W4 W5 : Mat 24 10) (W6 : Mat 10 10) : Mat R 10 :=
  apply1 (smaOf x1 x2 W0 W3 W4 W5) W6

/-! ## Rows agree -/

section Rows
variable {R R' : Nat} (x1 x2 : Mat R 24) (y1 y2 : Mat R' 24) (p : Fin R) (p' : Fin R')
  (h1 : ∀ k : Fin 24, x1 (ix2 p k) = y1 (ix2 p' k)) (h2 : ∀ k : Fin 24, x2 (ix2 p k) = y2 (ix2 p' k))
include h1 h2

theorem ifgOf_rows (W0 W3 : Mat 24 24) (W1 W2 : Mat 24 50) (q : Fin 50) :
    ifgOf x1 x2 W0 W3 W1 W2 (ix2 p q) = ifgOf y1 y2 W0 W3 W1 W2 (ix2 p' q) :=
  apply2_rows _ _ _ _ W1 W2 p p' (fun k => apply1_rows x1 y1 W0 p p' h1 k) (fun k => apply1_rows x2 y2 W3 p p' h2 k) q

theorem smaOf_rows (W0 W3 : Mat 24 24) (W4 W5 : Mat 24 10) (q : Fin 10) :
    smaOf x1 x2 W0 W3 W4 W5 (ix2 p q) = smaOf y1 y2 W0 W3 W4 W5 (ix2 p' q) :=
  apply2_rows _ _ _ _ W4 W5 p p' (fun k => apply1_rows x1 y1 W0 p p' h1 k) (fun k => apply1_rows x2 y2 W3 p p' h2 k) q

theorem m1Of_rows (W0 W3 : Mat 24 24) (W4 W5 : Mat 24 10) (W6 : Mat 10 10) (q : Fin 10) :
    m1Of x1 x2 W0 W3 W4 W5 W6 (ix2 p q) = m1Of y1 y2 W0 W3 W4 W5 W6 (ix2 p' q) :=
  apply1_rows _ _ W6 p p' (fun k => smaOf_rows x1 x2 y1 y2 p p' h1 h2 W0 W3 W4 W5 k) q

end Rows

/-! ## The batch sums, block by block -/

section Blocks
variable {n L : Nat} (x1 x2 : Mat (n * L) 24) (b1 b2 : Fin n → Mat L 24)
  (h1 : ∀ (s : Fin n) (r : Fin L) (k : Fin 24), b1 s (ix2 r k) = x1 (ix2 (blockRow s r) k))
  (h2 : ∀ (s : Fin n) (r : Fin L) (k : Fin 24), b2 s (ix2 r k) = x2 (ix2 (blockRow s r) k))
include h1 h2

/-- Mᵀ·I over all rows is the sum of the blocks' Mᵀ·I. -/
theorem outer_M_ifg_blocks (W0 W3 : Mat 24 24) (W1 W2 : Mat 24 50) (i : Fin 24) (o : Fin 50) :
    outer (apply1 x1 W0) (ifgOf x1 x2 W0 W3 W1 W2) (ix2 i o)
      = ∑ s : Fin n, outer (apply1 (b1 s) W0) (ifgOf (b1 s) (b2 s) W0 W3 W1 W2) (ix2 i o) :=
  outer_blocks _ _ _ _ (fun s r k => apply1_rows (b1 s) x1 W0 r (blockRow s r) (h1 s r) k)
    (fun s r k => ifgOf_rows (b1 s) (b2 s) x1 x2 r (blockRow s r) (h1 s r) (h2 s r) W0 W3 W1 W2 k) i o

/-- Pᵀ·I over all rows is the sum of the blocks' Pᵀ·I. -/
theorem outer_P_ifg_blocks (W0 W3 : Mat 24 24) (W1 W2 : Mat 24 50) (i : Fin 24) (o : Fin 50) :
    outer (apply1 x2 W3) (ifgOf x1 x2 W0 W3 W1 W2) (ix2 i o)
      = ∑ s : Fin n, outer (apply1 (b2 s) W3) (ifgOf (b1 s) (b2 s) W0 W3 W1 W2) (ix2 i o) :=
  outer_blocks _ _ _ _ (fun s r k => apply1_rows (b2 s) x2 W3 r (blockRow s r) (h2 s r) k)
    (fun s r k => ifgOf_rows (b1 s) (b2 s) x1 x2 r (blockRow s r) (h1 s r) (h2 s r) W0 W3 W1 W2 k) i o

/-- Mᵀ·S over all rows is the sum of the blocks' Mᵀ·S. -/
theorem outer_M_sma_blocks (W0 W3 : Mat 24 24) (W4 W5 : Mat 24 10) (i : Fin 24) (o : Fin 10) :
    outer (apply1 x1 W0) (smaOf x1 x2 W0 W3 W4 W5) (ix2 i o)
      = ∑ s : Fin n, outer (apply1 (b1 s) W0) (smaOf (b1 s) (b2 s) W0 W3 W4 W5) (ix2 i o) :=
  outer_blocks _ _ _ _ (fun s r k => apply1_rows (b1 s) x1 W0 r (blockRow s r) (h1 s r) k)
    (fun s r k => smaOf_rows (b1 s) (b2 s) x1 x2 r (blockRow s r) (h1 s r) (h2 s r) W0 W3 W4 W5 k) i o

/-- Pᵀ·S over all rows is the sum of the blocks' Pᵀ·S. -/
theorem outer_P_sma_blocks (W0 W3 : Mat 24 24) (W4 W5 : Mat 24 10) (i : Fin 24) (o : Fin 10) :
    outer (apply1 x2 W3) (smaOf x1 x2 W0 W3 W4 W5) (ix2 i o)
      = ∑ s : Fin n, outer (apply1 (b2 s) W3) (smaOf (b1 s) (b2 s) W0 W3 W4 W5) (ix2 i o) :=
  outer_blocks _ _ _ _ (fun s r k => apply1_rows (b2 s) x2 W3 r (blockRow s r) (h2 s r) k)
    (fun s r k => smaOf_rows (b1 s) (b2 s) x1 x2 r (blockRow s r) (h1 s r) (h2 s r) W0 W3 W4 W5 k) i o

end Blocks

end Cert.Spikes

end
-- ==== Proof.Blocks.lean ====
/-
  The blocks a grid point sees, as pieces of the arrays.

  The batch of 262144 rows is cut into 32 blocks of 8192 consecutive rows; grid point t is handed block t of each
  input, the whole of each weight matrix, and writes block t of each of the three row outputs and (at the last point)
  the whole of each of the four small results. So local row r of an input block at point t is row 8192·t + r of the
  input array, a weight block is the weight array, local entry (r, q) of a row output's block is entry
  (8192·t + r, q) of that output, and a small result's block is the result.
-/
import proofs.«150760_j46213848105974_1_alg».proof.Proof.Gen.KernelIdeal.Frame.Runs
import proofs.«150760_j46213848105974_1_alg».proof.Proof.Net
import Idealize.ShloMosaic.Lib.Pipeline.Value

noncomputable section

namespace Cert.KernelIdeal.Blocks

open Cert.KernelIdeal Cert.KernelIdeal.Gen Cert.Spikes Idealize.ShloMosaic Idealize.ShloMosaic.ValueIdx
open Idealize.ShloMosaic.TcCoe Idealize.SL.Sem

variable (m : (ℓ : Loc nD τ sig) → Buf (Elt Ideal) ℓ)

/-! ## The arrays and the blocks, at their literal sizes -/

abbrev X1 (c : Dev nD) : Mat 262144 24 := V m c main_arg0
abbrev X2 (c : Dev nD) : Mat 262144 24 := V m c main_arg1
abbrev W0 (c : Dev nD) : Mat 24 24 := V m c main_arg2
abbrev W1 (c : Dev nD) : Mat 24 50 := V m c main_arg3
abbrev W2 (c : Dev nD) : Mat 24 50 := V m c main_arg4
abbrev W3 (c : Dev nD) : Mat 24 24 := V m c main_arg5
abbrev W4 (c : Dev nD) : Mat 24 10 := V m c main_arg6
abbrev W5 (c : Dev nD) : Mat 24 10 := V m c main_arg7
abbrev W6 (c : Dev nD) : Mat 10 10 := V m c main_arg8

abbrev B0 (c : Dev nD) (t : Fin cfg0.N) : Mat 8192 24 := iblk m c 0 t
abbrev B1 (c : Dev nD) (t : Fin cfg0.N) : Mat 8192 24 := iblk m c 1 t
abbrev B2 (c : Dev nD) (t : Fin cfg0.N) : Mat 24 24 := iblk m c 2 t
abbrev B3 (c : Dev nD) (t : Fin cfg0.N) : Mat 24 50 := iblk m c 3 t
abbrev B4 (c : Dev nD) (t : Fin cfg0.N) : Mat 24 50 := iblk m c 4 t
abbrev B5 (c : Dev nD) (t : Fin cfg0.N) : Mat 24 24 := iblk m c 5 t
abbrev B6 (c : Dev nD) (t : Fin cfg0.N) : Mat 24 10 := iblk m c 6 t
abbrev B7 (c : Dev nD) (t : Fin cfg0.N) : Mat 24 10 := iblk m c 7 t
abbrev B8 (c : Dev nD) (t : Fin cfg0.N) : Mat 10 10 := iblk m c 8 t

/-! ## The network's outputs over the whole batch, of the arrays as the region finds them -/

/-- The first merged layer's spikes. -/
abbrev Gifg (c : Dev nD) : Mat 262144 50 := ifgOf (X1 m c) (X2 m c) (W0 m c) (W3 m c) (W1 m c) (W2 m c)
/-- The second merged layer's spikes. -/
abbrev Gsma (c : Dev nD) : Mat 262144 10 := smaOf (X1 m c) (X2 m c) (W0 m c) (W3 m c) (W4 m c) (W5 m c)
/-- The motor layer's spikes. -/
abbrev Gm1 (c : Dev nD) : Mat 262144 10 := m1Of (X1 m c) (X2 m c) (W0 m c) (W3 m c) (W4 m c) (W5 m c) (W6 m c)
/-- (first mirror layer)ᵀ·(first merged layer), summed over the batch. -/
abbrev Gim (c : Dev nD) : Mat 24 50 := outer (apply1 (X1 m c) (W0 m c)) (Gifg m c)
/-- (second mirror layer)ᵀ·(first merged layer). -/
abbrev Gip (c : Dev nD) : Mat 24 50 := outer (apply1 (X2 m c) (W3 m c)) (Gifg m c)
/-- (first mirror layer)ᵀ·(second merged layer). -/
abbrev Gsm (c : Dev nD) : Mat 24 10 := outer (apply1 (X1 m c) (W0 m c)) (Gsma m c)
/-- (second mirror layer)ᵀ·(second merged layer). -/
abbrev Gsp (c : Dev nD) : Mat 24 10 := outer (apply1 (X2 m c) (W3 m c)) (Gsma m c)

/-- The grid has 32 points. -/
theorem N32 : cfg0.N = 32 := N_0

/-- A grid point as a block number below 32. -/
def bs (t : Fin cfg0.N) : Fin 32 := ⟨t.val, lt_of_lt_of_eq t.isLt N32⟩

/-- A block number below 32 as a grid point. -/
def pt (s : Fin 32) : Fin cfg0.N := ⟨s.val, lt_of_lt_of_eq s.isLt N32.symm⟩

theorem bs_pt (s : Fin 32) : bs (pt s) = s := rfl

/-- Row `r` of block `t`, as a row of the array. -/
abbrev arow (t : Fin cfg0.N) (r : Fin 8192) : Fin 262144 := blockRow (n := 32) (L := 8192) (bs t) r

theorem arow_val (t : Fin cfg0.N) (r : Fin 8192) : (arow t r).val = 8192 * t.val + r.val := rfl

/-! ## Where the printed index maps send a point -/

theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0) :=
  (by decide +kernel : ∀ t : Fin grid0.N, _)

theorem idx_whole : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0)
    ∧ (win0_15.index t (0 : Fin 2) = 0 ∧ win0_15.index t (1 : Fin 2) = 0) :=
  (by decide +kernel : ∀ t : Fin grid0.N, _)

/-! ## Input blocks -/

/-- Local row `r` of the first input's block at point `t` is row 8192·t + r of the first input. -/
theorem B0_apply (c : Dev nD) (t : Fin cfg0.N) (r : Fin 8192) (k : Fin 24) :
    B0 m c t (ix2 r k) = X1 m c (ix2 (arow t r) k) := by
  have hi := (idx_rows t).1
  show iblk m c 0 t (ix2 r k) = V m c main_arg0 (ix2 (arow t r) k)
  unfold iblk
  rw [View.read_apply]
  show V m c main_arg0 _ = V m c main_arg0 _
  congr 1
  funext a
  apply Fin.ext
  match a with
  | ⟨0, _⟩ => show win0_0.index t (0 : Fin 2) * 8192 + 1 * r.val = 8192 * t.val + r.val; rw [hi.1]; omega
  | ⟨1, _⟩ => show win0_0.index t (1 : Fin 2) * 24 + 1 * k.val = k.val; rw [hi.2]; omega

/-- The same for the second input. -/
theorem B1_apply (c : Dev nD) (t : Fin cfg0.N) (r : Fin 8192) (k : Fin 24) :
    B1 m c t (ix2 r k) = X2 m c (ix2 (arow t r) k) := by
  have hi := (idx_rows t).2.1
  show iblk m c 1 t (ix2 r k) = V m c main_arg1 (ix2 (arow t r) k)
  unfold iblk
  rw [View.read_apply]
  show V m c main_arg1 _ = V m c main_arg1 _
  congr 1
  funext a
  apply Fin.ext
  match a with
  | ⟨0, _⟩ => show win0_1.index t (0 : Fin 2) * 8192 + 1 * r.val = 8192 * t.val + r.val; rw [hi.1]; omega
  | ⟨1, _⟩ => show win0_1.index t (1 : Fin 2) * 24 + 1 * k.val = k.val; rw [hi.2]; omega

/-! ## Weight blocks: the whole weight array at every point -/

theorem B2_eq (c : Dev nD) (t : Fin cfg0.N) : B2 m c t = W0 m c := by
  have hi := (idx_whole t).1
  funext j
  show iblk m c 2 t j = V m c main_arg2 j
  unfold iblk
  rw [View.read_apply]
  show V m c main_arg2 _ = V m c main_arg2 _
  congr 1
  funext a
  apply Fin.ext
  match a with
  | ⟨0, _⟩ => show win0_2.index t (0 : Fin 2) * 24 + 1 * (j 0).val = (j 0).val; rw [hi.1]; omega
  | ⟨1, _⟩ => show win0_2.index t (1 : Fin 2) * 24 + 1 * (j 1).val = (j 1).val; rw [hi.2]; omega

theorem B3_eq (c : Dev nD) (t : Fin cfg0.N) : B3 m c t = W1 m c := by
  have hi := (idx_whole t).2.1
  funext j
  show iblk m c 3 t j = V m c main_arg3 j
  unfold iblk
  rw [View.read_apply]
  show V m c main_arg3 _ = V m c main_arg3 _
  congr 1
  funext a
  apply Fin.ext
  match a with
  | ⟨0, _⟩ => show win0_3.index t (0 : Fin 2) * 24 + 1 * (j 0).val = (j 0).val; rw [hi.1]; omega
  | ⟨1, _⟩ => show win0_3.index t (1 : Fin 2) * 50 + 1 * (j 1).val = (j 1).val; rw [hi.2]; omega

theorem B4_eq (c : Dev nD) (t : Fin cfg0.N) : B4 m c t = W2 m c := by
  have hi := (idx_whole t).2.2.1
  funext j
  show iblk m c 4 t j = V m c main_arg4 j
  unfold iblk
  rw [View.read_apply]
  show V m c main_arg4 _ = V m c main_arg4 _
  congr 1
  funext a
  apply Fin.ext
  match a with
  | ⟨0, _⟩ => show win0_4.index t (0 : Fin 2) * 24 + 1 * (j 0).val = (j 0).val; rw [hi.1]; omega
  | ⟨1, _⟩ => show win0_4.index t (1 : Fin 2) * 50 + 1 * (j 1).val = (j 1).val; rw [hi.2]; omega

theorem B5_eq (c : Dev nD) (t : Fin cfg0.N) : B5 m c t = W3 m c := by
  have hi := (idx_whole t).2.2.2.1
  funext j
  show iblk m c 5 t j = V m c main_arg5 j
  unfold iblk
  rw [View.read_apply]
  show V m c main_arg5 _ = V m c main_arg5 _
  congr 1
  funext a
  apply Fin.ext
  match a with
  | ⟨0, _⟩ => show win0_5.index t (0 : Fin 2) * 24 + 1 * (j 0).val = (j 0).val; rw [hi.1]; omega
  | ⟨1, _⟩ => show win0_5.index t (1 : Fin 2) * 24 + 1 * (j 1).val = (j 1).val; rw [hi.2]; omega

theorem B6_eq (c : Dev nD) (t : Fin cfg0.N) : B6 m c t = W4 m c := by
  have hi := (idx_whole t).2.2.2.2.1
  funext j
  show iblk m c 6 t j = V m c main_arg6 j
  unfold iblk
  rw [View.read_apply]
  show V m c main_arg6 _ = V m c main_arg6 _
  congr 1
  funext a
  apply Fin.ext
  match a with
  | ⟨0, _⟩ => show win0_6.index t (0 : Fin 2) * 24 + 1 * (j 0).val = (j 0).val; rw [hi.1]; omega
  | ⟨1, _⟩ => show win0_6.index t (1 : Fin 2) * 10 + 1 * (j 1).val = (j 1).val; rw [hi.2]; omega

theorem B7_eq (c : Dev nD) (t : Fin cfg0.N) : B7 m c t = W5 m c := by
  have hi := (idx_whole t).2.2.2.2.2.1
  funext j
  show iblk m c 7 t j = V m c main_arg7 j
  unfold iblk
  rw [View.read_apply]
  show V m c main_arg7 _ = V m c main_arg7 _
  congr 1
  funext a
  apply Fin.ext
  match a with
  | ⟨0, _⟩ => show win0_7.index t (0 : Fin 2) * 24 + 1 * (j 0).val = (j 0).val; rw [hi.1]; omega
  | ⟨1, _⟩ => show win0_7.index t (1 : Fin 2) * 10 + 1 * (j 1).val = (j 1).val; rw [hi.2]; omega

theorem B8_eq (c : Dev nD) (t : Fin cfg0.N) : B8 m c t = W6 m c := by
  have hi := (idx_whole t).2.2.2.2.2.2.1
  funext j
  show iblk m c 8 t j = V m c main_arg8 j
  unfold iblk
  rw [View.read_apply]
  show V m c main_arg8 _ = V m c main_arg8 _
  congr 1
  funext a
  apply Fin.ext
  match a with
  | ⟨0, _⟩ => show win0_8.index t (0 : Fin 2) * 10 + 1 * (j 0).val = (j 0).val; rw [hi.1]; omega
  | ⟨1, _⟩ => show win0_8.index t (1 : Fin 2) * 10 + 1 * (j 1).val = (j 1).val; rw [hi.2]; omega

/-! ## Output blocks: where a local entry lands -/

/-- Entry (r, q) of the first row output's block at point `t` is entry (8192·t + r, q) of that output. -/
theorem emb9 (t : Fin cfg0.N) (r : Fin 8192) (q : Fin 50) :
    ((cfg0.win 9).blk t).view.emb (ix2 r q) = ix2 (arow t r) q := by
  have hi := (idx_rows t).2.2.1
  funext a
  apply Fin.ext
  match a with
  | ⟨0, _⟩ => show win0_9.index t (0 : Fin 2) * 8192 + 1 * r.val = 8192 * t.val + r.val; rw [hi.1]; omega
  | ⟨1, _⟩ => show win0_9.index t (1 : Fin 2) * 50 + 1 * q.val = q.val; rw [hi.2]; omega

theorem emb10 (t : Fin cfg0.N) (r : Fin 8192) (q : Fin 10) :
    ((cfg0.win 10).blk t).view.emb (ix2 r q) = ix2 (arow t r) q := by
  have hi := (idx_rows t).2.2.2.1
  funext a
  apply Fin.ext
  match a with
  | ⟨0, _⟩ => show win0_10.index t (0 : Fin 2) * 8192 + 1 * r.val = 8192 * t.val + r.val; rw [hi.1]; omega
  | ⟨1, _⟩ => show win0_10.index t (1 : Fin 2) * 10 + 1 * q.val = q.val; rw [hi.2]; omega

theorem emb11 (t : Fin cfg0.N) (r : Fin 8192) (q : Fin 10) :
    ((cfg0.win 11).blk t).view.emb (ix2 r q) = ix2 (arow t r) q := by
  have hi := (idx_rows t).2.2.2.2
  funext a
  apply Fin.ext
  match a with
  | ⟨0, _⟩ => show win0_11.index t (0 : Fin 2) * 8192 + 1 * r.val = 8192 * t.val + r.val; rw [hi.1]; omega
  | ⟨1, _⟩ => show win0_11.index t (1 : Fin 2) * 10 + 1 * q.val = q.val; rw [hi.2]; omega

/-- A small result's block is the whole result: a local entry is the same entry of the array. -/
theorem emb12 (t : Fin cfg0.N) (j : S24x50.Idx) : ((cfg0.win 12).blk t).view.emb j = j := by
  have hi := (idx_whole t).2.2.2.2.2.2.2.1
  funext a
  apply Fin.ext
  match a with
  | ⟨0, _⟩ => show win0_12.index t (0 : Fin 2) * 24 + 1 * (j 0).val = (j 0).val; rw [hi.1]; omega
  | ⟨1, _⟩ => show win0_12.index t (1 : Fin 2) * 50 + 1 * (j 1).val = (j 1).val; rw [hi.2]; omega

theorem emb13 (t : Fin cfg0.N) (j : S24x50.Idx) : ((cfg0.win 13).blk t).view.emb j = j := by
  have hi := (idx_whole t).2.2.2.2.2.2.2.2.1
  funext a
  apply Fin.ext
  match a with
  | ⟨0, _⟩ => show win0_13.index t (0 : Fin 2) * 24 + 1 * (j 0).val = (j 0).val; rw [hi.1]; omega
  | ⟨1, _⟩ => show win0_13.index t (1 : Fin 2) * 50 + 1 * (j 1).val = (j 1).val; rw [hi.2]; omega

theorem emb14 (t : Fin cfg0.N) (j : S24x10.Idx) : ((cfg0.win 14).blk t).view.emb j = j := by
  have hi := (idx_whole t).2.2.2.2.2.2.2.2.2.1
  funext a
  apply Fin.ext
  match a with
  | ⟨0, _⟩ => show win0_14.index t (0 : Fin 2) * 24 + 1 * (j 0).val = (j 0).val; rw [hi.1]; omega
  | ⟨1, _⟩ => show win0_14.index t (1 : Fin 2) * 10 + 1 * (j 1).val = (j 1).val; rw [hi.2]; omega

theorem emb15 (t : Fin cfg0.N) (j : S24x10.Idx) : ((cfg0.win 15).blk t).view.emb j = j := by
  have hi := (idx_whole t).2.2.2.2.2.2.2.2.2.2
  funext a
  apply Fin.ext
  match a with
  | ⟨0, _⟩ => show win0_15.index t (0 : Fin 2) * 24 + 1 * (j 0).val = (j 0).val; rw [hi.1]; omega
  | ⟨1, _⟩ => show win0_15.index t (1 : Fin 2) * 10 + 1 * (j 1).val = (j 1).val; rw [hi.2]; omega

end Cert.KernelIdeal.Blocks

end
-- ==== Proof.KRows.lean ====
/-
  The three row outputs of the kernel are the network's layers over all 262144 rows.

  Grid point t writes, whatever else it does, block t of each row output; what it writes is the layer's spikes of the
  block's rows; and since every layer works row by row, those are rows 8192·t … 8192·t + 8191 of the layer's spikes
  over the whole batch. The 32 blocks tile each output, so each ends holding its layer's spikes over the whole batch.
-/
import proofs.«150760_j46213848105974_1_alg».proof.Proof.ValueKernelIdeal
import proofs.«150760_j46213848105974_1_alg».proof.Proof.PiecesA
import proofs.«150760_j46213848105974_1_alg».proof.Proof.PiecesB
import proofs.«150760_j46213848105974_1_alg».proof.Proof.PiecesC
import proofs.«150760_j46213848105974_1_alg».proof.Proof.BodyMath
import proofs.«150760_j46213848105974_1_alg».proof.Proof.Blocks
import proofs.«150760_j46213848105974_1_alg».proof.Proof.Net

set_option maxRecDepth 16384

noncomputable section

namespace Cert.KernelIdeal.KRows

open Cert.KernelIdeal Cert.KernelIdeal.Gen Cert.KernelIdeal.GenP Cert.KernelIdeal.ValueP Cert.KernelIdeal.Blocks Cert.Spikes
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ)

/-! ## Window 9: ifg -/

/-- At local row `r` the block's term is the output's row 8192·t + r: the layers work row by row. -/
theorem blk_ifg (c : Dev nD) (t : Fin cfg0.N) (r : Fin 8192) (q : Fin 50) :
    Body.ifg (F := Ideal) (B0 m c t) (B1 m c t) (B2 m c t) (B3 m c t) (B4 m c t) (B5 m c t) (ix2 r q) = Gifg m c (ix2 (arow t r) q) := by
  rw [BodyMath.ifg]
  show ifgOf (B0 m c t) (B1 m c t) (B2 m c t) (B5 m c t) (B3 m c t) (B4 m c t) (ix2 r q) = _
  rw [B2_eq, B5_eq, B3_eq, B4_eq]
  exact ifgOf_rows _ _ _ _ r (arow t r) (B0_apply m c t r) (B1_apply m c t r) _ _ _ _ q

/-- What a point writes back to this window is its block of the output, whichever case the point is in. -/
theorem flushed9_eq (c : Dev nD) (t : Fin cfg0.N) :
    (dats m 0 c).flushed 9 t = ((cfg0.win 9).blk t).view.read (Elt Ideal) (Gifg m c) := by
  have hN : t.val < 32 := lt_of_lt_of_eq t.isLt N32
  have key : ∀ v : Vec Ideal S8192x50 .f32, v = Body.ifg (F := Ideal) (B0 m c t) (B1 m c t) (B2 m c t) (B3 m c t) (B4 m c t) (B5 m c t) →
      (cfg0.win 9).cut (grid0.coords t) v = ((cfg0.win 9).blk t).view.read (Elt Ideal) (Gifg m c) := by
    rintro v rfl
    funext j
    obtain ⟨r, q, rfl⟩ : ∃ (r : Fin 8192) (q : Fin 50), j = ix2 r q := ⟨j 0, j 1, eq_ix2 j⟩
    show Body.ifg (F := Ideal) (B0 m c t) (B1 m c t) (B2 m c t) (B3 m c t) (B4 m c t) (B5 m c t) (ix2 r q) = Gifg m c (((cfg0.win 9).blk t).view.emb (ix2 r q))
    rw [emb9]
    exact blk_ifg m c t r q
  by_cases h0 : t.val % 32 = 0
  · have h1 : ¬t.val % 32 = 31 := by omega
    rw [flushed9_A m c t h0 h1]
    exact key _ (PiecesA.ifg c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t))
  · by_cases h1 : t.val % 32 = 31
    · rw [flushed9_C m c t h0 h1]
      exact key _ (PiecesC.ifg c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2)
    · rw [flushed9_B m c t h0 h1]
      exact key _ (PiecesB.ifg c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2)

/-- Every entry of the output lies in the block of the point its row falls in. -/
theorem cover9 (c : Dev nD) (i : S262144x50.Idx) :
    ∃ t : Fin cfg0.N, (cfg0.win 9).flush t = true ∧ i ∈ ((cfg0.win 9).blk t).view.set := by
  have hi0 : (i 0).val < 262144 := (i 0).isLt
  have hi1 : (i 1).val < 50 := (i 1).isLt
  have hq : (i 0).val / 8192 < 32 := by omega
  refine ⟨pt ⟨(i 0).val / 8192, hq⟩, flush0_9 _, ?_⟩
  have hi := (idx_rows (pt ⟨(i 0).val / 8192, hq⟩))
  show i ∈ ((View.whole main_v0_0).slice (win0_9.rect (pt ⟨(i 0).val / 8192, hq⟩))).set
  rw [View.set_slice_whole, Rect.mem_set_unit]
  intro a
  match a with
  | ⟨0, _⟩ =>
    show win0_9.index (pt ⟨(i 0).val / 8192, hq⟩) (0 : Fin 2) * 8192 ≤ (i 0).val
      ∧ (i 0).val < win0_9.index (pt ⟨(i 0).val / 8192, hq⟩) (0 : Fin 2) * 8192 + 8192
    rw [(hi.2.2.1).1]
    show (i 0).val / 8192 * 8192 ≤ (i 0).val ∧ (i 0).val < (i 0).val / 8192 * 8192 + 8192
    omega
  | ⟨1, _⟩ =>
    show win0_9.index (pt ⟨(i 0).val / 8192, hq⟩) (1 : Fin 2) * 50 ≤ (i 1).val
      ∧ (i 1).val < win0_9.index (pt ⟨(i 0).val / 8192, hq⟩) (1 : Fin 2) * 50 + 50
    rw [(hi.2.2.1).2]
    omega

/-- So the array ends holding the output. -/
theorem final9 (c : Dev nD) : (dats m 0 c).arrAt 9 cfg0.N = Gifg m c :=
  (dats m 0 c).arrAt_eq_of_cover 9 (Gifg m c) (fun t _ => flushed9_eq m c t) (cover9 c)

/-! ## Window 10: sma -/

/-- At local row `r` the block's term is the output's row 8192·t + r: the layers work row by row. -/
theorem blk_sma (c : Dev nD) (t : Fin cfg0.N) (r : Fin 8192) (q : Fin 10) :
    Body.sma (F := Ideal) (B0 m c t) (B1 m c t) (B2 m c t) (B5 m c t) (B6 m c t) (B7 m c t) (ix2 r q) = Gsma m c (ix2 (arow t r) q) := by
  rw [BodyMath.sma]
  show smaOf (B0 m c t) (B1 m c t) (B2 m c t) (B5 m c t) (B6 m c t) (B7 m c t) (ix2 r q) = _
  rw [B2_eq, B5_eq, B6_eq, B7_eq]
  exact smaOf_rows _ _ _ _ r (arow t r) (B0_apply m c t r) (B1_apply m c t r) _ _ _ _ q

/-- What a point writes back to this window is its block of the output, whichever case the point is in. -/
theorem flushed10_eq (c : Dev nD) (t : Fin cfg0.N) :
    (dats m 0 c).flushed 10 t = ((cfg0.win 10).blk t).view.read (Elt Ideal) (Gsma m c) := by
  have hN : t.val < 32 := lt_of_lt_of_eq t.isLt N32
  have key : ∀ v : Vec Ideal S8192x10 .f32, v = Body.sma (F := Ideal) (B0 m c t) (B1 m c t) (B2 m c t) (B5 m c t) (B6 m c t) (B7 m c t) →
      (cfg0.win 10).cut (grid0.coords t) v = ((cfg0.win 10).blk t).view.read (Elt Ideal) (Gsma m c) := by
    rintro v rfl
    funext j
    obtain ⟨r, q, rfl⟩ : ∃ (r : Fin 8192) (q : Fin 10), j = ix2 r q := ⟨j 0, j 1, eq_ix2 j⟩
    show Body.sma (F := Ideal) (B0 m c t) (B1 m c t) (B2 m c t) (B5 m c t) (B6 m c t) (B7 m c t) (ix2 r q) = Gsma m c (((cfg0.win 10).blk t).view.emb (ix2 r q))
    rw [emb10]
    exact blk_sma m c t r q
  by_cases h0 : t.val % 32 = 0
  · have h1 : ¬t.val % 32 = 31 := by omega
    rw [flushed10_A m c t h0 h1]
    exact key _ (PiecesA.sma c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t))
  · by_cases h1 : t.val % 32 = 31
    · rw [flushed10_C m c t h0 h1]
      exact key _ (PiecesC.sma c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2)
    · rw [flushed10_B m c t h0 h1]
      exact key _ (PiecesB.sma c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2)

/-- Every entry of the output lies in the block of the point its row falls in. -/
theorem cover10 (c : Dev nD) (i : S262144x10.Idx) :
    ∃ t : Fin cfg0.N, (cfg0.win 10).flush t = true ∧ i ∈ ((cfg0.win 10).blk t).view.set := by
  have hi0 : (i 0).val < 262144 := (i 0).isLt
  have hi1 : (i 1).val < 10 := (i 1).isLt
  have hq : (i 0).val / 8192 < 32 := by omega
  refine ⟨pt ⟨(i 0).val / 8192, hq⟩, flush0_10 _, ?_⟩
  have hi := (idx_rows (pt ⟨(i 0).val / 8192, hq⟩))
  show i ∈ ((View.whole main_v0_1).slice (win0_10.rect (pt ⟨(i 0).val / 8192, hq⟩))).set
  rw [View.set_slice_whole, Rect.mem_set_unit]
  intro a
  match a with
  | ⟨0, _⟩ =>
    show win0_10.index (pt ⟨(i 0).val / 8192, hq⟩) (0 : Fin 2) * 8192 ≤ (i 0).val
      ∧ (i 0).val < win0_10.index (pt ⟨(i 0).val / 8192, hq⟩) (0 : Fin 2) * 8192 + 8192
    rw [(hi.2.2.2.1).1]
    show (i 0).val / 8192 * 8192 ≤ (i 0).val ∧ (i 0).val < (i 0).val / 8192 * 8192 + 8192
    omega
  | ⟨1, _⟩ =>
    show win0_10.index (pt ⟨(i 0).val / 8192, hq⟩) (1 : Fin 2) * 10 ≤ (i 1).val
      ∧ (i 1).val < win0_10.index (pt ⟨(i 0).val / 8192, hq⟩) (1 : Fin 2) * 10 + 10
    rw [(hi.2.2.2.1).2]
    omega

/-- So the array ends holding the output. -/
theorem final10 (c : Dev nD) : (dats m 0 c).arrAt 10 cfg0.N = Gsma m c :=
  (dats m 0 c).arrAt_eq_of_cover 10 (Gsma m c) (fun t _ => flushed10_eq m c t) (cover10 c)

/-! ## Window 11: m1 -/

/-- At local row `r` the block's term is the output's row 8192·t + r: the layers work row by row. -/
theorem blk_m1 (c : Dev nD) (t : Fin cfg0.N) (r : Fin 8192) (q : Fin 10) :
    Body.m1 (F := Ideal) (B0 m c t) (B1 m c t) (B2 m c t) (B5 m c t) (B6 m c t) (B7 m c t) (B8 m c t) (ix2 r q) = Gm1 m c (ix2 (arow t r) q) := by
  rw [BodyMath.m1]
  show m1Of (B0 m c t) (B1 m c t) (B2 m c t) (B5 m c t) (B6 m c t) (B7 m c t) (B8 m c t) (ix2 r q) = _
  rw [B2_eq, B5_eq, B6_eq, B7_eq, B8_eq]
  exact m1Of_rows _ _ _ _ r (arow t r) (B0_apply m c t r) (B1_apply m c t r) _ _ _ _ _ q

/-- What a point writes back to this window is its block of the output, whichever case the point is in. -/
theorem flushed11_eq (c : Dev nD) (t : Fin cfg0.N) :
    (dats m 0 c).flushed 11 t = ((cfg0.win 11).blk t).view.read (Elt Ideal) (Gm1 m c) := by
  have hN : t.val < 32 := lt_of_lt_of_eq t.isLt N32
  have key : ∀ v : Vec Ideal S8192x10 .f32, v = Body.m1 (F := Ideal) (B0 m c t) (B1 m c t) (B2 m c t) (B5 m c t) (B6 m c t) (B7 m c t) (B8 m c t) →
      (cfg0.win 11).cut (grid0.coords t) v = ((cfg0.win 11).blk t).view.read (Elt Ideal) (Gm1 m c) := by
    rintro v rfl
    funext j
    obtain ⟨r, q, rfl⟩ : ∃ (r : Fin 8192) (q : Fin 10), j = ix2 r q := ⟨j 0, j 1, eq_ix2 j⟩
    show Body.m1 (F := Ideal) (B0 m c t) (B1 m c t) (B2 m c t) (B5 m c t) (B6 m c t) (B7 m c t) (B8 m c t) (ix2 r q) = Gm1 m c (((cfg0.win 11).blk t).view.emb (ix2 r q))
    rw [emb11]
    exact blk_m1 m c t r q
  by_cases h0 : t.val % 32 = 0
  · have h1 : ¬t.val % 32 = 31 := by omega
    rw [flushed11_A m c t h0 h1]
    exact key _ (PiecesA.m1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t))
  · by_cases h1 : t.val % 32 = 31
    · rw [flushed11_C m c t h0 h1]
      exact key _ (PiecesC.m1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2)
    · rw [flushed11_B m c t h0 h1]
      exact key _ (PiecesB.m1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2)

/-- Every entry of the output lies in the block of the point its row falls in. -/
theorem cover11 (c : Dev nD) (i : S262144x10.Idx) :
    ∃ t : Fin cfg0.N, (cfg0.win 11).flush t = true ∧ i ∈ ((cfg0.win 11).blk t).view.set := by
  have hi0 : (i 0).val < 262144 := (i 0).isLt
  have hi1 : (i 1).val < 10 := (i 1).isLt
  have hq : (i 0).val / 8192 < 32 := by omega
  refine ⟨pt ⟨(i 0).val / 8192, hq⟩, flush0_11 _, ?_⟩
  have hi := (idx_rows (pt ⟨(i 0).val / 8192, hq⟩))
  show i ∈ ((View.whole main_v0_2).slice (win0_11.rect (pt ⟨(i 0).val / 8192, hq⟩))).set
  rw [View.set_slice_whole, Rect.mem_set_unit]
  intro a
  match a with
  | ⟨0, _⟩ =>
    show win0_11.index (pt ⟨(i 0).val / 8192, hq⟩) (0 : Fin 2) * 8192 ≤ (i 0).val
      ∧ (i 0).val < win0_11.index (pt ⟨(i 0).val / 8192, hq⟩) (0 : Fin 2) * 8192 + 8192
    rw [(hi.2.2.2.2).1]
    show (i 0).val / 8192 * 8192 ≤ (i 0).val ∧ (i 0).val < (i 0).val / 8192 * 8192 + 8192
    omega
  | ⟨1, _⟩ =>
    show win0_11.index (pt ⟨(i 0).val / 8192, hq⟩) (1 : Fin 2) * 10 ≤ (i 1).val
      ∧ (i 1).val < win0_11.index (pt ⟨(i 0).val / 8192, hq⟩) (1 : Fin 2) * 10 + 10
    rw [(hi.2.2.2.2).2]
    omega

/-- So the array ends holding the output. -/
theorem final11 (c : Dev nD) : (dats m 0 c).arrAt 11 cfg0.N = Gm1 m c :=
  (dats m 0 c).arrAt_eq_of_cover 11 (Gm1 m c) (fun t _ => flushed11_eq m c t) (cover11 c)

end Cert.KernelIdeal.KRows

end
-- ==== Proof.KTotals.lean ====
/-
  The four small results of the kernel are the batch sums of products over all 262144 rows.

  Each result is kept as a running total in a scratch buffer: reset to zero at the first grid point, increased at
  every point by the block's batch sum of products, and copied to the result at the last point. After point n the
  total is therefore the sum of the blocks' batch sums for blocks 0 … n (the generated fold of the scratch buffer,
  unrolled), and after the last point the sum over all 32 blocks, which is the batch sum over all 262144 rows: the
  blocks partition the rows, and addition of extended reals is commutative and associative.
-/
import proofs.«150760_j46213848105974_1_alg».proof.Proof.ValueKernelIdeal
import proofs.«150760_j46213848105974_1_alg».proof.Proof.PiecesA
import proofs.«150760_j46213848105974_1_alg».proof.Proof.PiecesB
import proofs.«150760_j46213848105974_1_alg».proof.Proof.PiecesC
import proofs.«150760_j46213848105974_1_alg».proof.Proof.BodyMath
import proofs.«150760_j46213848105974_1_alg».proof.Proof.Blocks

set_option maxRecDepth 16384

noncomputable section

open scoped BigOperators

namespace Cert.KernelIdeal.KTotals

open Cert.KernelIdeal Cert.KernelIdeal.Gen Cert.KernelIdeal.GenP Cert.KernelIdeal.ValueP Cert.KernelIdeal.Blocks Cert.Spikes
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ)

/-! ## The first total: (first mirror layer)ᵀ·(first merged layer) -/

/-- What block `n` adds to this total (zero past the grid). -/
def addIM (c : Dev nD) (n : ℕ) : S24x50.Idx → EReal := fun i =>
  if h : n < 32 then
    outer (apply1 (B0 m c (pt ⟨n, h⟩)) (W0 m c))
      (ifgOf (B0 m c (pt ⟨n, h⟩)) (B1 m c (pt ⟨n, h⟩)) (W0 m c) (W3 m c) (W1 m c) (W2 m c)) i
  else 0

/-- The block's batch sum at a point, in the weights' own names. -/
theorem addIM_at (c : Dev nD) (t : Fin cfg0.N) (i : S24x50.Idx) :
    outer (apply1 (B0 m c t) (B2 m c t)) (apply2 (apply1 (B0 m c t) (B2 m c t)) (apply1 (B1 m c t) (B5 m c t)) (B3 m c t) (B4 m c t)) i
      = addIM m c t.val i := by
  have hN : t.val < 32 := lt_of_lt_of_eq t.isLt N32
  unfold addIM
  rw [dif_pos hN, B2_eq, B5_eq, B3_eq, B4_eq]
  rfl

/-- After point `n` this total is the sum of what blocks 0 … n added. -/
theorem totIM (c : Dev nD) (n : ℕ) (hn : n < cfg0.N) (i : S24x50.Idx) :
    (outsAt0 m c n hn).2.2.2.2.2.2.2.1 i = ∑ s ∈ Finset.range (n + 1), addIM m c s i := by
  have hN : n < 32 := lt_of_lt_of_eq hn N32
  rw [soutsAt0_0_sweep m c n hn]
  refine (Pipeline.accAt_add_apply (fun n h => scAt0_0 m c n h (VS0_0.read (Elt Ideal) VS0_0.junk)) (scAt0_0 m c)
    (fun _ => (0 : EReal)) (addIM m c) 0 31 ?_ ?_ n (by omega) _ i).trans ?_
  · intro h i
    unfold scAt0_0
    rw [dif_pos (Nat.zero_mod 32), dif_neg (by decide)]
    rw [PiecesA.accIM, BodyMath.accIM, BodyMath.reset50a]
    exact congrArg ((0 : EReal) + ·) (addIM_at m c ⟨0, h⟩ i)
  · intro n h acc i hn0 hn31
    unfold scAt0_0
    rw [dif_neg (by omega : ¬n % 32 = 0)]
    by_cases h1 : n % 32 = 31
    · rw [dif_pos h1, PiecesC.accIM, BodyMath.accIM]
      exact congrArg (acc i + ·) (addIM_at m c ⟨n, h⟩ i)
    · rw [dif_neg h1, PiecesB.accIM, BodyMath.accIM]
      exact congrArg (acc i + ·) (addIM_at m c ⟨n, h⟩ i)
  · simp only [zero_add]

/-- The sum over all 32 blocks is the batch sum over all rows. -/
theorem sumIM (c : Dev nD) (i : Fin 24) (o : Fin 50) :
    ∑ s ∈ Finset.range 32, addIM m c s (ix2 i o) = Gim m c (ix2 i o) := by
  rw [Finset.sum_range]
  refine Eq.trans (Finset.sum_congr rfl fun s _ => ?_)
    (outer_M_ifg_blocks (n := 32) (L := 8192) (X1 m c) (X2 m c) (fun s => B0 m c (pt s)) (fun s => B1 m c (pt s))
      (fun s r k => B0_apply m c (pt s) r k) (fun s r k => B1_apply m c (pt s) r k) (W0 m c) (W3 m c) (W1 m c) (W2 m c) i o).symm
  unfold addIM
  rw [dif_pos s.isLt]

/-- The one write-back, at the last point, writes the batch sum over all rows. -/
theorem flushed12_eq (c : Dev nD) (t : Fin cfg0.N) (hf : (cfg0.win 12).flush t = true) :
    (dats m 0 c).flushed 12 t = ((cfg0.win 12).blk t).view.read (Elt Ideal) (Gim m c) := by
  have hN : t.val < 32 := lt_of_lt_of_eq t.isLt N32
  have h1 : t.val % 32 = 31 := (flush0_12 t).mp hf
  have h0 : ¬t.val % 32 = 0 := by omega
  have ht : t.val = 31 := by omega
  rw [flushed12_C m c t h0 h1]
  have key : ∀ (G : Mat 24 50) (a v : Vec Ideal S24x50 .f32),
      (∀ (i : Fin 24) (o : Fin 50), ∑ s ∈ Finset.range 32, addIM m c s (ix2 i o) = G (ix2 i o)) →
      (∀ i, a i = ∑ s ∈ Finset.range (t.val - 1 + 1), addIM m c s i) →
      v = Body.accIM (F := Ideal) (B0 m c t) (B1 m c t) (B2 m c t) (B3 m c t) (B4 m c t) (B5 m c t) a →
      (cfg0.win 12).cut (grid0.coords t) v = ((cfg0.win 12).blk t).view.read (Elt Ideal) G := by
    rintro G a v hG ha rfl
    funext j
    obtain ⟨i, o, rfl⟩ : ∃ (i : Fin 24) (o : Fin 50), j = ix2 i o := ⟨j 0, j 1, eq_ix2 j⟩
    show Body.accIM (F := Ideal) (B0 m c t) (B1 m c t) (B2 m c t) (B3 m c t) (B4 m c t) (B5 m c t) a (ix2 i o)
      = G (((cfg0.win 12).blk t).view.emb (ix2 i o))
    rw [emb12, BodyMath.accIM, ha, addIM_at m c t (ix2 i o)]
    rw [← hG i o, show (32 : ℕ) = (t.val - 1 + 1) + 1 by omega, Finset.sum_range_succ _ (t.val - 1 + 1)]
    congr 2
    omega
  exact key (Gim m c) _ _ (sumIM m c) (fun i => totIM m c (t.val - 1) _ i) (PiecesC.outIM c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2)

/-- So this result ends holding the batch sum over all rows. -/
theorem final12 (c : Dev nD) : (dats m 0 c).arrAt 12 cfg0.N = Gim m c :=
  (dats m 0 c).arrAt_eq_of_cover 12 (Gim m c) (fun t hf => flushed12_eq m c t hf) fun i => by
    have h31 : (31 : ℕ) < 32 := by decide
    refine ⟨pt ⟨31, h31⟩, (flush0_12 _).mpr rfl, ?_⟩
    have hi := (idx_whole (pt ⟨31, h31⟩)).2.2.2.2.2.2.2.1
    have hi0 : (i 0).val < 24 := (i 0).isLt
    have hi1 : (i 1).val < 50 := (i 1).isLt
    show i ∈ ((View.whole main_v0_3).slice (win0_12.rect (pt ⟨31, h31⟩))).set
    rw [View.set_slice_whole, Rect.mem_set_unit]
    intro a
    match a with
    | ⟨0, _⟩ =>
      show win0_12.index (pt ⟨31, h31⟩) (0 : Fin 2) * 24 ≤ (i 0).val
        ∧ (i 0).val < win0_12.index (pt ⟨31, h31⟩) (0 : Fin 2) * 24 + 24
      rw [hi.1]; omega
    | ⟨1, _⟩ =>
      show win0_12.index (pt ⟨31, h31⟩) (1 : Fin 2) * 50 ≤ (i 1).val
        ∧ (i 1).val < win0_12.index (pt ⟨31, h31⟩) (1 : Fin 2) * 50 + 50
      rw [hi.2]; omega

/-! ## The second total: (second mirror layer)ᵀ·(first merged layer) -/

/-- What block `n` adds to this total (zero past the grid). -/
def addIP (c : Dev nD) (n : ℕ) : S24x50.Idx → EReal := fun i =>
  if h : n < 32 then
    outer (apply1 (B1 m c (pt ⟨n, h⟩)) (W3 m c))
      (ifgOf (B0 m c (pt ⟨n, h⟩)) (B1 m c (pt ⟨n, h⟩)) (W0 m c) (W3 m c) (W1 m c) (W2 m c)) i
  else 0

/-- The block's batch sum at a point, in the weights' own names. -/
theorem addIP_at (c : Dev nD) (t : Fin cfg0.N) (i : S24x50.Idx) :
    outer (apply1 (B1 m c t) (B5 m c t)) (apply2 (apply1 (B0 m c t) (B2 m c t)) (apply1 (B1 m c t) (B5 m c t)) (B3 m c t) (B4 m c t)) i
      = addIP m c t.val i := by
  have hN : t.val < 32 := lt_of_lt_of_eq t.isLt N32
  unfold addIP
  rw [dif_pos hN, B2_eq, B5_eq, B3_eq, B4_eq]
  rfl

/-- After point `n` this total is the sum of what blocks 0 … n added. -/
theorem totIP (c : Dev nD) (n : ℕ) (hn : n < cfg0.N) (i : S24x50.Idx) :
    (outsAt0 m c n hn).2.2.2.2.2.2.2.2.1 i = ∑ s ∈ Finset.range (n + 1), addIP m c s i := by
  have hN : n < 32 := lt_of_lt_of_eq hn N32
  rw [soutsAt0_1_sweep m c n hn]
  refine (Pipeline.accAt_add_apply (fun n h => scAt0_1 m c n h (VS0_1.read (Elt Ideal) VS0_1.junk)) (scAt0_1 m c)
    (fun _ => (0 : EReal)) (addIP m c) 0 31 ?_ ?_ n (by omega) _ i).trans ?_
  · intro h i
    unfold scAt0_1
    rw [dif_pos (Nat.zero_mod 32), dif_neg (by decide)]
    rw [PiecesA.accIP, BodyMath.accIP, BodyMath.reset50b]
    exact congrArg ((0 : EReal) + ·) (addIP_at m c ⟨0, h⟩ i)
  · intro n h acc i hn0 hn31
    unfold scAt0_1
    rw [dif_neg (by omega : ¬n % 32 = 0)]
    by_cases h1 : n % 32 = 31
    · rw [dif_pos h1, PiecesC.accIP, BodyMath.accIP]
      exact congrArg (acc i + ·) (addIP_at m c ⟨n, h⟩ i)
    · rw [dif_neg h1, PiecesB.accIP, BodyMath.accIP]
      exact congrArg (acc i + ·) (addIP_at m c ⟨n, h⟩ i)
  · simp only [zero_add]

/-- The sum over all 32 blocks is the batch sum over all rows. -/
theorem sumIP (c : Dev nD) (i : Fin 24) (o : Fin 50) :
    ∑ s ∈ Finset.range 32, addIP m c s (ix2 i o) = Gip m c (ix2 i o) := by
  rw [Finset.sum_range]
  refine Eq.trans (Finset.sum_congr rfl fun s _ => ?_)
    (outer_P_ifg_blocks (n := 32) (L := 8192) (X1 m c) (X2 m c) (fun s => B0 m c (pt s)) (fun s => B1 m c (pt s))
      (fun s r k => B0_apply m c (pt s) r k) (fun s r k => B1_apply m c (pt s) r k) (W0 m c) (W3 m c) (W1 m c) (W2 m c) i o).symm
  unfold addIP
  rw [dif_pos s.isLt]

/-- The one write-back, at the last point, writes the batch sum over all rows. -/
theorem flushed13_eq (c : Dev nD) (t : Fin cfg0.N) (hf : (cfg0.win 13).flush t = true) :
    (dats m 0 c).flushed 13 t = ((cfg0.win 13).blk t).view.read (Elt Ideal) (Gip m c) := by
  have hN : t.val < 32 := lt_of_lt_of_eq t.isLt N32
  have h1 : t.val % 32 = 31 := (flush0_13 t).mp hf
  have h0 : ¬t.val % 32 = 0 := by omega
  have ht : t.val = 31 := by omega
  rw [flushed13_C m c t h0 h1]
  have key : ∀ (G : Mat 24 50) (a v : Vec Ideal S24x50 .f32),
      (∀ (i : Fin 24) (o : Fin 50), ∑ s ∈ Finset.range 32, addIP m c s (ix2 i o) = G (ix2 i o)) →
      (∀ i, a i = ∑ s ∈ Finset.range (t.val - 1 + 1), addIP m c s i) →
      v = Body.accIP (F := Ideal) (B0 m c t) (B1 m c t) (B2 m c t) (B3 m c t) (B4 m c t) (B5 m c t) a →
      (cfg0.win 13).cut (grid0.coords t) v = ((cfg0.win 13).blk t).view.read (Elt Ideal) G := by
    rintro G a v hG ha rfl
    funext j
    obtain ⟨i, o, rfl⟩ : ∃ (i : Fin 24) (o : Fin 50), j = ix2 i o := ⟨j 0, j 1, eq_ix2 j⟩
    show Body.accIP (F := Ideal) (B0 m c t) (B1 m c t) (B2 m c t) (B3 m c t) (B4 m c t) (B5 m c t) a (ix2 i o)
      = G (((cfg0.win 13).blk t).view.emb (ix2 i o))
    rw [emb13, BodyMath.accIP, ha, addIP_at m c t (ix2 i o)]
    rw [← hG i o, show (32 : ℕ) = (t.val - 1 + 1) + 1 by omega, Finset.sum_range_succ _ (t.val - 1 + 1)]
    congr 2
    omega
  exact key (Gip m c) _ _ (sumIP m c) (fun i => totIP m c (t.val - 1) _ i) (PiecesC.outIP c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2)

/-- So this result ends holding the batch sum over all rows. -/
theorem final13 (c : Dev nD) : (dats m 0 c).arrAt 13 cfg0.N = Gip m c :=
  (dats m 0 c).arrAt_eq_of_cover 13 (Gip m c) (fun t hf => flushed13_eq m c t hf) fun i => by
    have h31 : (31 : ℕ) < 32 := by decide
    refine ⟨pt ⟨31, h31⟩, (flush0_13 _).mpr rfl, ?_⟩
    have hi := (idx_whole (pt ⟨31, h31⟩)).2.2.2.2.2.2.2.2.1
    have hi0 : (i 0).val < 24 := (i 0).isLt
    have hi1 : (i 1).val < 50 := (i 1).isLt
    show i ∈ ((View.whole main_v0_4).slice (win0_13.rect (pt ⟨31, h31⟩))).set
    rw [View.set_slice_whole, Rect.mem_set_unit]
    intro a
    match a with
    | ⟨0, _⟩ =>
      show win0_13.index (pt ⟨31, h31⟩) (0 : Fin 2) * 24 ≤ (i 0).val
        ∧ (i 0).val < win0_13.index (pt ⟨31, h31⟩) (0 : Fin 2) * 24 + 24
      rw [hi.1]; omega
    | ⟨1, _⟩ =>
      show win0_13.index (pt ⟨31, h31⟩) (1 : Fin 2) * 50 ≤ (i 1).val
        ∧ (i 1).val < win0_13.index (pt ⟨31, h31⟩) (1 : Fin 2) * 50 + 50
      rw [hi.2]; omega

/-! ## The third total: (first mirror layer)ᵀ·(second merged layer) -/

/-- What block `n` adds to this total (zero past the grid). -/
def addSM (c : Dev nD) (n : ℕ) : S24x10.Idx → EReal := fun i =>
  if h : n < 32 then
    outer (apply1 (B0 m c (pt ⟨n, h⟩)) (W0 m c))
      (smaOf (B0 m c (pt ⟨n, h⟩)) (B1 m c (pt ⟨n, h⟩)) (W0 m c) (W3 m c) (W4 m c) (W5 m c)) i
  else 0

/-- The block's batch sum at a point, in the weights' own names. -/
theorem addSM_at (c : Dev nD) (t : Fin cfg0.N) (i : S24x10.Idx) :
    outer (apply1 (B0 m c t) (B2 m c t)) (apply2 (apply1 (B0 m c t) (B2 m c t)) (apply1 (B1 m c t) (B5 m c t)) (B6 m c t) (B7 m c t)) i
      = addSM m c t.val i := by
  have hN : t.val < 32 := lt_of_lt_of_eq t.isLt N32
  unfold addSM
  rw [dif_pos hN, B2_eq, B5_eq, B6_eq, B7_eq]
  rfl

/-- After point `n` this total is the sum of what blocks 0 … n added. -/
theorem totSM (c : Dev nD) (n : ℕ) (hn : n < cfg0.N) (i : S24x10.Idx) :
    (outsAt0 m c n hn).2.2.2.2.2.2.2.2.2.1 i = ∑ s ∈ Finset.range (n + 1), addSM m c s i := by
  have hN : n < 32 := lt_of_lt_of_eq hn N32
  rw [soutsAt0_2_sweep m c n hn]
  refine (Pipeline.accAt_add_apply (fun n h => scAt0_2 m c n h (VS0_2.read (Elt Ideal) VS0_2.junk)) (scAt0_2 m c)
    (fun _ => (0 : EReal)) (addSM m c) 0 31 ?_ ?_ n (by omega) _ i).trans ?_
  · intro h i
    unfold scAt0_2
    rw [dif_pos (Nat.zero_mod 32), dif_neg (by decide)]
    rw [PiecesA.accSM, BodyMath.accSM, BodyMath.reset10a]
    exact congrArg ((0 : EReal) + ·) (addSM_at m c ⟨0, h⟩ i)
  · intro n h acc i hn0 hn31
    unfold scAt0_2
    rw [dif_neg (by omega : ¬n % 32 = 0)]
    by_cases h1 : n % 32 = 31
    · rw [dif_pos h1, PiecesC.accSM, BodyMath.accSM]
      exact congrArg (acc i + ·) (addSM_at m c ⟨n, h⟩ i)
    · rw [dif_neg h1, PiecesB.accSM, BodyMath.accSM]
      exact congrArg (acc i + ·) (addSM_at m c ⟨n, h⟩ i)
  · simp only [zero_add]

/-- The sum over all 32 blocks is the batch sum over all rows. -/
theorem sumSM (c : Dev nD) (i : Fin 24) (o : Fin 10) :
    ∑ s ∈ Finset.range 32, addSM m c s (ix2 i o) = Gsm m c (ix2 i o) := by
  rw [Finset.sum_range]
  refine Eq.trans (Finset.sum_congr rfl fun s _ => ?_)
    (outer_M_sma_blocks (n := 32) (L := 8192) (X1 m c) (X2 m c) (fun s => B0 m c (pt s)) (fun s => B1 m c (pt s))
      (fun s r k => B0_apply m c (pt s) r k) (fun s r k => B1_apply m c (pt s) r k) (W0 m c) (W3 m c) (W4 m c) (W5 m c) i o).symm
  unfold addSM
  rw [dif_pos s.isLt]

/-- The one write-back, at the last point, writes the batch sum over all rows. -/
theorem flushed14_eq (c : Dev nD) (t : Fin cfg0.N) (hf : (cfg0.win 14).flush t = true) :
    (dats m 0 c).flushed 14 t = ((cfg0.win 14).blk t).view.read (Elt Ideal) (Gsm m c) := by
  have hN : t.val < 32 := lt_of_lt_of_eq t.isLt N32
  have h1 : t.val % 32 = 31 := (flush0_14 t).mp hf
  have h0 : ¬t.val % 32 = 0 := by omega
  have ht : t.val = 31 := by omega
  rw [flushed14_C m c t h0 h1]
  have key : ∀ (G : Mat 24 10) (a v : Vec Ideal S24x10 .f32),
      (∀ (i : Fin 24) (o : Fin 10), ∑ s ∈ Finset.range 32, addSM m c s (ix2 i o) = G (ix2 i o)) →
      (∀ i, a i = ∑ s ∈ Finset.range (t.val - 1 + 1), addSM m c s i) →
      v = Body.accSM (F := Ideal) (B0 m c t) (B1 m c t) (B2 m c t) (B5 m c t) (B6 m c t) (B7 m c t) a →
      (cfg0.win 14).cut (grid0.coords t) v = ((cfg0.win 14).blk t).view.read (Elt Ideal) G := by
    rintro G a v hG ha rfl
    funext j
    obtain ⟨i, o, rfl⟩ : ∃ (i : Fin 24) (o : Fin 10), j = ix2 i o := ⟨j 0, j 1, eq_ix2 j⟩
    show Body.accSM (F := Ideal) (B0 m c t) (B1 m c t) (B2 m c t) (B5 m c t) (B6 m c t) (B7 m c t) a (ix2 i o)
      = G (((cfg0.win 14).blk t).view.emb (ix2 i o))
    rw [emb14, BodyMath.accSM, ha, addSM_at m c t (ix2 i o)]
    rw [← hG i o, show (32 : ℕ) = (t.val - 1 + 1) + 1 by omega, Finset.sum_range_succ _ (t.val - 1 + 1)]
    congr 2
    omega
  exact key (Gsm m c) _ _ (sumSM m c) (fun i => totSM m c (t.val - 1) _ i) (PiecesC.outSM c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2)

/-- So this result ends holding the batch sum over all rows. -/
theorem final14 (c : Dev nD) : (dats m 0 c).arrAt 14 cfg0.N = Gsm m c :=
  (dats m 0 c).arrAt_eq_of_cover 14 (Gsm m c) (fun t hf => flushed14_eq m c t hf) fun i => by
    have h31 : (31 : ℕ) < 32 := by decide
    refine ⟨pt ⟨31, h31⟩, (flush0_14 _).mpr rfl, ?_⟩
    have hi := (idx_whole (pt ⟨31, h31⟩)).2.2.2.2.2.2.2.2.2.1
    have hi0 : (i 0).val < 24 := (i 0).isLt
    have hi1 : (i 1).val < 10 := (i 1).isLt
    show i ∈ ((View.whole main_v0_5).slice (win0_14.rect (pt ⟨31, h31⟩))).set
    rw [View.set_slice_whole, Rect.mem_set_unit]
    intro a
    match a with
    | ⟨0, _⟩ =>
      show win0_14.index (pt ⟨31, h31⟩) (0 : Fin 2) * 24 ≤ (i 0).val
        ∧ (i 0).val < win0_14.index (pt ⟨31, h31⟩) (0 : Fin 2) * 24 + 24
      rw [hi.1]; omega
    | ⟨1, _⟩ =>
      show win0_14.index (pt ⟨31, h31⟩) (1 : Fin 2) * 10 ≤ (i 1).val
        ∧ (i 1).val < win0_14.index (pt ⟨31, h31⟩) (1 : Fin 2) * 10 + 10
      rw [hi.2]; omega

/-! ## The fourth total: (second mirror layer)ᵀ·(second merged layer) -/

/-- What block `n` adds to this total (zero past the grid). -/
def addSP (c : Dev nD) (n : ℕ) : S24x10.Idx → EReal := fun i =>
  if h : n < 32 then
    outer (apply1 (B1 m c (pt ⟨n, h⟩)) (W3 m c))
      (smaOf (B0 m c (pt ⟨n, h⟩)) (B1 m c (pt ⟨n, h⟩)) (W0 m c) (W3 m c) (W4 m c) (W5 m c)) i
  else 0

/-- The block's batch sum at a point, in the weights' own names. -/
theorem addSP_at (c : Dev nD) (t : Fin cfg0.N) (i : S24x10.Idx) :
    outer (apply1 (B1 m c t) (B5 m c t)) (apply2 (apply1 (B0 m c t) (B2 m c t)) (apply1 (B1 m c t) (B5 m c t)) (B6 m c t) (B7 m c t)) i
      = addSP m c t.val i := by
  have hN : t.val < 32 := lt_of_lt_of_eq t.isLt N32
  unfold addSP
  rw [dif_pos hN, B2_eq, B5_eq, B6_eq, B7_eq]
  rfl

/-- After point `n` this total is the sum of what blocks 0 … n added. -/
theorem totSP (c : Dev nD) (n : ℕ) (hn : n < cfg0.N) (i : S24x10.Idx) :
    (outsAt0 m c n hn).2.2.2.2.2.2.2.2.2.2 i = ∑ s ∈ Finset.range (n + 1), addSP m c s i := by
  have hN : n < 32 := lt_of_lt_of_eq hn N32
  rw [soutsAt0_3_sweep m c n hn]
  refine (Pipeline.accAt_add_apply (fun n h => scAt0_3 m c n h (VS0_3.read (Elt Ideal) VS0_3.junk)) (scAt0_3 m c)
    (fun _ => (0 : EReal)) (addSP m c) 0 31 ?_ ?_ n (by omega) _ i).trans ?_
  · intro h i
    unfold scAt0_3
    rw [dif_pos (Nat.zero_mod 32), dif_neg (by decide)]
    rw [PiecesA.accSP, BodyMath.accSP, BodyMath.reset10b]
    exact congrArg ((0 : EReal) + ·) (addSP_at m c ⟨0, h⟩ i)
  · intro n h acc i hn0 hn31
    unfold scAt0_3
    rw [dif_neg (by omega : ¬n % 32 = 0)]
    by_cases h1 : n % 32 = 31
    · rw [dif_pos h1, PiecesC.accSP, BodyMath.accSP]
      exact congrArg (acc i + ·) (addSP_at m c ⟨n, h⟩ i)
    · rw [dif_neg h1, PiecesB.accSP, BodyMath.accSP]
      exact congrArg (acc i + ·) (addSP_at m c ⟨n, h⟩ i)
  · simp only [zero_add]

/-- The sum over all 32 blocks is the batch sum over all rows. -/
theorem sumSP (c : Dev nD) (i : Fin 24) (o : Fin 10) :
    ∑ s ∈ Finset.range 32, addSP m c s (ix2 i o) = Gsp m c (ix2 i o) := by
  rw [Finset.sum_range]
  refine Eq.trans (Finset.sum_congr rfl fun s _ => ?_)
    (outer_P_sma_blocks (n := 32) (L := 8192) (X1 m c) (X2 m c) (fun s => B0 m c (pt s)) (fun s => B1 m c (pt s))
      (fun s r k => B0_apply m c (pt s) r k) (fun s r k => B1_apply m c (pt s) r k) (W0 m c) (W3 m c) (W4 m c) (W5 m c) i o).symm
  unfold addSP
  rw [dif_pos s.isLt]

/-- The one write-back, at the last point, writes the batch sum over all rows. -/
theorem flushed15_eq (c : Dev nD) (t : Fin cfg0.N) (hf : (cfg0.win 15).flush t = true) :
    (dats m 0 c).flushed 15 t = ((cfg0.win 15).blk t).view.read (Elt Ideal) (Gsp m c) := by
  have hN : t.val < 32 := lt_of_lt_of_eq t.isLt N32
  have h1 : t.val % 32 = 31 := (flush0_15 t).mp hf
  have h0 : ¬t.val % 32 = 0 := by omega
  have ht : t.val = 31 := by omega
  rw [flushed15_C m c t h0 h1]
  have key : ∀ (G : Mat 24 10) (a v : Vec Ideal S24x10 .f32),
      (∀ (i : Fin 24) (o : Fin 10), ∑ s ∈ Finset.range 32, addSP m c s (ix2 i o) = G (ix2 i o)) →
      (∀ i, a i = ∑ s ∈ Finset.range (t.val - 1 + 1), addSP m c s i) →
      v = Body.accSP (F := Ideal) (B0 m c t) (B1 m c t) (B2 m c t) (B5 m c t) (B6 m c t) (B7 m c t) a →
      (cfg0.win 15).cut (grid0.coords t) v = ((cfg0.win 15).blk t).view.read (Elt Ideal) G := by
    rintro G a v hG ha rfl
    funext j
    obtain ⟨i, o, rfl⟩ : ∃ (i : Fin 24) (o : Fin 10), j = ix2 i o := ⟨j 0, j 1, eq_ix2 j⟩
    show Body.accSP (F := Ideal) (B0 m c t) (B1 m c t) (B2 m c t) (B5 m c t) (B6 m c t) (B7 m c t) a (ix2 i o)
      = G (((cfg0.win 15).blk t).view.emb (ix2 i o))
    rw [emb15, BodyMath.accSP, ha, addSP_at m c t (ix2 i o)]
    rw [← hG i o, show (32 : ℕ) = (t.val - 1 + 1) + 1 by omega, Finset.sum_range_succ _ (t.val - 1 + 1)]
    congr 2
    omega
  exact key (Gsp m c) _ _ (sumSP m c) (fun i => totSP m c (t.val - 1) _ i) (PiecesC.outSP c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2)

/-- So this result ends holding the batch sum over all rows. -/
theorem final15 (c : Dev nD) : (dats m 0 c).arrAt 15 cfg0.N = Gsp m c :=
  (dats m 0 c).arrAt_eq_of_cover 15 (Gsp m c) (fun t hf => flushed15_eq m c t hf) fun i => by
    have h31 : (31 : ℕ) < 32 := by decide
    refine ⟨pt ⟨31, h31⟩, (flush0_15 _).mpr rfl, ?_⟩
    have hi := (idx_whole (pt ⟨31, h31⟩)).2.2.2.2.2.2.2.2.2.2
    have hi0 : (i 0).val < 24 := (i 0).isLt
    have hi1 : (i 1).val < 10 := (i 1).isLt
    show i ∈ ((View.whole main_v0_6).slice (win0_15.rect (pt ⟨31, h31⟩))).set
    rw [View.set_slice_whole, Rect.mem_set_unit]
    intro a
    match a with
    | ⟨0, _⟩ =>
      show win0_15.index (pt ⟨31, h31⟩) (0 : Fin 2) * 24 ≤ (i 0).val
        ∧ (i 0).val < win0_15.index (pt ⟨31, h31⟩) (0 : Fin 2) * 24 + 24
      rw [hi.1]; omega
    | ⟨1, _⟩ =>
      show win0_15.index (pt ⟨31, h31⟩) (1 : Fin 2) * 10 ≤ (i 1).val
        ∧ (i 1).val < win0_15.index (pt ⟨31, h31⟩) (1 : Fin 2) * 10 + 10
      rw [hi.2]; omega

end Cert.KernelIdeal.KTotals

end
-- ==== Proof.KRun.lean ====
/-
  The kernel's run, with every result named.

  Put together: every weakly fair execution of the kernel's program terminates with the three row outputs holding
  the network's layers over all 262144 rows, the four small results holding the batch sums of products over all rows,
  and the nine arguments unchanged. The run itself is the generated frame run with its result arrays named; what each
  array holds is KRows.lean's and KTotals.lean's.
-/
import proofs.«150760_j46213848105974_1_alg».proof.Proof.KRows
import proofs.«150760_j46213848105974_1_alg».proof.Proof.KTotals

noncomputable section

namespace Cert.KernelIdeal.KRun

open Cert.KernelIdeal Cert.KernelIdeal.Gen Cert.KernelIdeal.GenP Cert.KernelIdeal.ValueP Cert.KernelIdeal.Blocks Cert.Spikes
open Idealize.ShloMosaic Idealize.ShloMosaic.TcCoe Idealize.SL.Sem

/-- The kernel's results, in the order the program returns them, and its arguments after the run. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0_3) = Gim m c
      ∧ r.2.mem ((c : Thread nD τ).loc main_v0_4) = Gip m c
      ∧ r.2.mem ((c : Thread nD τ).loc main_v0_5) = Gsm m c
      ∧ r.2.mem ((c : Thread nD τ).loc main_v0_6) = Gsp m c
      ∧ r.2.mem ((c : Thread nD τ).loc main_v0_0) = Gifg m c
      ∧ r.2.mem ((c : Thread nD τ).loc main_v0_1) = Gsma m c
      ∧ r.2.mem ((c : Thread nD τ).loc main_v0_2) = Gm1 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c =>
    ⟨(h c).2.2.2.1.trans (KTotals.final12 m c),
      (h c).2.2.2.2.1.trans (KTotals.final13 m c),
      (h c).2.2.2.2.2.1.trans (KTotals.final14 m c),
      (h c).2.2.2.2.2.2.1.trans (KTotals.final15 m c),
      (h c).1.trans (KRows.final9 m c),
      (h c).2.1.trans (KRows.final10 m c),
      (h c).2.2.1.trans (KRows.final11 m c),
      (h c).2.2.2.2.2.2.2⟩)
    (run_blocks m ρ)

end Cert.KernelIdeal.KRun

end
-- ==== Proof.RefValue.lean ====
/-
  The reference's seven results are the network's seven outputs.

  The reference program is a straight line of host operations: products of matrices, a comparison with a matrix
  filled with one half, the conversion of the resulting bit to a number, an addition of two products, and four
  products contracted on the rows. Its run gives each result as one composed term of the nine arguments. Read on
  the extended reals each product-compare-convert group is one layer of threshold neurons applied to every row, and
  each product contracted on the rows is a batch sum of products; so the seven composed terms are the seven outputs
  of Net.lean at 262144 rows. Nothing here uses that the arguments are finite.
-/
import proofs.«150760_j46213848105974_1_alg».proof.Proof.Gen.ReferenceIdeal.Run
import proofs.«150760_j46213848105974_1_alg».proof.Proof.Net

noncomputable section

namespace Cert.ReferenceIdeal.RefValue

open Cert.ReferenceIdeal Cert.ReferenceIdeal.Gen Cert.Spikes Idealize.ShloMosaic Idealize.ShloMosaic.ValueIdx

/-! ## One operation group at a time, over the printed dimension records -/

/-- A mirror layer: product with a 24×24 weight matrix, threshold, conversion. -/
theorem layer24 (x : FVec Ideal S262144x24 .f32) (W : FVec Ideal S24x24 .f32) :
    (uitofp .f32 (cmpf .ogt (Host.dotGeneral dot_S262144x24_S24x24_S262144x24_1_0_0_1_n_n none x W)
      (broadcastInDim S262144x24 ![] bcast_S_S262144x24 (constant (F := Ideal) S_ .f32 0x3F000000#32))) : FVec Ideal S262144x24 .f32) = apply1 x W :=
  host_apply1 dot_S262144x24_S24x24_S262144x24_1_0_0_1_n_n_wf x W _ (fun _ => rfl)

/-- The motor layer: product with the 10×10 weight matrix, threshold, conversion. -/
theorem layer10 (x : FVec Ideal S262144x10 .f32) (W : FVec Ideal S10x10 .f32) :
    (uitofp .f32 (cmpf .ogt (Host.dotGeneral dot_S262144x10_S10x10_S262144x10_1_0_0_1_n_n none x W)
      (broadcastInDim S262144x10 ![] bcast_S_S262144x10 (constant (F := Ideal) S_ .f32 0x3F000000#32))) : FVec Ideal S262144x10 .f32) = apply1 x W :=
  host_apply1 dot_S262144x10_S10x10_S262144x10_1_0_0_1_n_n_wf x W _ (fun _ => rfl)

/-- A merged layer of 50 neurons: two products added, threshold, conversion. -/
theorem merged50 (a b : FVec Ideal S262144x24 .f32) (Wa Wb : FVec Ideal S24x50 .f32) :
    (uitofp .f32 (cmpf .ogt (addf (Host.dotGeneral dot_S262144x24_S24x50_S262144x50_1_0_0_1_n_n none a Wa)
        (Host.dotGeneral dot_S262144x24_S24x50_S262144x50_1_0_0_1_n_n none b Wb))
      (broadcastInDim S262144x50 ![] bcast_S_S262144x50 (constant (F := Ideal) S_ .f32 0x3F000000#32))) : FVec Ideal S262144x50 .f32) = apply2 a b Wa Wb :=
  host_apply2 dot_S262144x24_S24x50_S262144x50_1_0_0_1_n_n_wf a b Wa Wb _ (fun _ => rfl)

/-- A merged layer of 10 neurons. -/
theorem merged10 (a b : FVec Ideal S262144x24 .f32) (Wa Wb : FVec Ideal S24x10 .f32) :
    (uitofp .f32 (cmpf .ogt (addf (Host.dotGeneral dot_S262144x24_S24x10_S262144x10_1_0_0_1_n_n none a Wa)
        (Host.dotGeneral dot_S262144x24_S24x10_S262144x10_1_0_0_1_n_n none b Wb))
      (broadcastInDim S262144x10 ![] bcast_S_S262144x10 (constant (F := Ideal) S_ .f32 0x3F000000#32))) : FVec Ideal S262144x10 .f32) = apply2 a b Wa Wb :=
  host_apply2 dot_S262144x24_S24x10_S262144x10_1_0_0_1_n_n_wf a b Wa Wb _ (fun _ => rfl)

/-- A product contracted on the 262144 rows, onto 24×50: a batch sum of products. -/
theorem outer50 (a : FVec Ideal S262144x24 .f32) (b : FVec Ideal S262144x50 .f32) :
    (Host.dotGeneral dot_S262144x24_S262144x50_S24x50_0_0_1_1_n_n none a b : FVec Ideal S24x50 .f32) = outer a b :=
  host_outer dot_S262144x24_S262144x50_S24x50_0_0_1_1_n_n_wf a b

/-- A product contracted on the 262144 rows, onto 24×10. -/
theorem outer10 (a : FVec Ideal S262144x24 .f32) (b : FVec Ideal S262144x10 .f32) :
    (Host.dotGeneral dot_S262144x24_S262144x10_S24x10_0_0_1_1_n_n none a b : FVec Ideal S24x10 .f32) = outer a b :=
  host_outer dot_S262144x24_S262144x10_S24x10_0_0_1_1_n_n_wf a b

/-! ## The seven results -/

section Results
variable (x0 x1 : FVec Ideal S262144x24 .f32) (x2 : FVec Ideal S24x24 .f32) (x3 x4 : FVec Ideal S24x50 .f32)
  (x5 : FVec Ideal S24x24 .f32) (x6 x7 : FVec Ideal S24x10 .f32) (x8 : FVec Ideal S10x10 .f32)

/-- The first merged layer's spikes. -/
theorem res_ifg : (uitofp .f32 (cmpf .ogt (addf (Host.dotGeneral dot_S262144x24_S24x50_S262144x50_1_0_0_1_n_n none (uitofp .f32 (cmpf .ogt (Host.dotGeneral dot_S262144x24_S24x24_S262144x24_1_0_0_1_n_n none x0 x2) (broadcastInDim S262144x24 ![] bcast_S_S262144x24 (constant (F := Ideal) S_ .f32 0x3F000000#32)))) x3) (Host.dotGeneral dot_S262144x24_S24x50_S262144x50_1_0_0_1_n_n none (uitofp .f32 (cmpf .ogt (Host.dotGeneral dot_S262144x24_S24x24_S262144x24_1_0_0_1_n_n none x1 x5) (broadcastInDim S262144x24 ![] bcast_S_S262144x24 (constant (F := Ideal) S_ .f32 0x3F000000#32)))) x4)) (broadcastInDim S262144x50 ![] bcast_S_S262144x50 (constant (F := Ideal) S_ .f32 0x3F000000#32))) : FVec Ideal S262144x50 .f32)
    = ifgOf x0 x1 x2 x5 x3 x4 := by
  rw [layer24, layer24, merged50]; rfl

/-- The second merged layer's spikes. -/
theorem res_sma : (uitofp .f32 (cmpf .ogt (addf (Host.dotGeneral dot_S262144x24_S24x10_S262144x10_1_0_0_1_n_n none (uitofp .f32 (cmpf .ogt (Host.dotGeneral dot_S262144x24_S24x24_S262144x24_1_0_0_1_n_n none x0 x2) (broadcastInDim S262144x24 ![] bcast_S_S262144x24 (constant (F := Ideal) S_ .f32 0x3F000000#32)))) x6) (Host.dotGeneral dot_S262144x24_S24x10_S262144x10_1_0_0_1_n_n none (uitofp .f32 (cmpf .ogt (Host.dotGeneral dot_S262144x24_S24x24_S262144x24_1_0_0_1_n_n none x1 x5) (broadcastInDim S262144x24 ![] bcast_S_S262144x24 (constant (F := Ideal) S_ .f32 0x3F000000#32)))) x7)) (broadcastInDim S262144x10 ![] bcast_S_S262144x10 (constant (F := Ideal) S_ .f32 0x3F000000#32))) : FVec Ideal S262144x10 .f32)
    = smaOf x0 x1 x2 x5 x6 x7 := by
  rw [layer24, layer24, merged10]; rfl

/-- The motor layer's spikes. -/
theorem res_m1 : (uitofp .f32 (cmpf .ogt (Host.dotGeneral dot_S262144x10_S10x10_S262144x10_1_0_0_1_n_n none (uitofp .f32 (cmpf .ogt (addf (Host.dotGeneral dot_S262144x24_S24x10_S262144x10_1_0_0_1_n_n none (uitofp .f32 (cmpf .ogt (Host.dotGeneral dot_S262144x24_S24x24_S262144x24_1_0_0_1_n_n none x0 x2) (broadcastInDim S262144x24 ![] bcast_S_S262144x24 (constant (F := Ideal) S_ .f32 0x3F000000#32)))) x6) (Host.dotGeneral dot_S262144x24_S24x10_S262144x10_1_0_0_1_n_n none (uitofp .f32 (cmpf .ogt (Host.dotGeneral dot_S262144x24_S24x24_S262144x24_1_0_0_1_n_n none x1 x5) (broadcastInDim S262144x24 ![] bcast_S_S262144x24 (constant (F := Ideal) S_ .f32 0x3F000000#32)))) x7)) (broadcastInDim S262144x10 ![] bcast_S_S262144x10 (constant (F := Ideal) S_ .f32 0x3F000000#32)))) x8) (broadcastInDim S262144x10 ![] bcast_S_S262144x10 (constant (F := Ideal) S_ .f32 0x3F000000#32))) : FVec Ideal S262144x10 .f32)
    = m1Of x0 x1 x2 x5 x6 x7 x8 := by
  rw [layer24, layer24, merged10, layer10]; rfl

/-- (first mirror layer)ᵀ·(first merged layer), summed over all rows. -/
theorem res_im : (Host.dotGeneral dot_S262144x24_S262144x50_S24x50_0_0_1_1_n_n none (uitofp .f32 (cmpf .ogt (Host.dotGeneral dot_S262144x24_S24x24_S262144x24_1_0_0_1_n_n none x0 x2) (broadcastInDim S262144x24 ![] bcast_S_S262144x24 (constant (F := Ideal) S_ .f32 0x3F000000#32)))) (uitofp .f32 (cmpf .ogt (addf (Host.dotGeneral dot_S262144x24_S24x50_S262144x50_1_0_0_1_n_n none (uitofp .f32 (cmpf .ogt (Host.dotGeneral dot_S262144x24_S24x24_S262144x24_1_0_0_1_n_n none x0 x2) (broadcastInDim S262144x24 ![] bcast_S_S262144x24 (constant (F := Ideal) S_ .f32 0x3F000000#32)))) x3) (Host.dotGeneral dot_S262144x24_S24x50_S262144x50_1_0_0_1_n_n none (uitofp .f32 (cmpf .ogt (Host.dotGeneral dot_S262144x24_S24x24_S262144x24_1_0_0_1_n_n none x1 x5) (broadcastInDim S262144x24 ![] bcast_S_S262144x24 (constant (F := Ideal) S_ .f32 0x3F000000#32)))) x4)) (broadcastInDim S262144x50 ![] bcast_S_S262144x50 (constant (F := Ideal) S_ .f32 0x3F000000#32)))) : FVec Ideal S24x50 .f32)
    = outer (apply1 x0 x2) (ifgOf x0 x1 x2 x5 x3 x4) := by
  rw [layer24, layer24, merged50, outer50]; rfl

/-- (second mirror layer)ᵀ·(first merged layer). -/
theorem res_ip : (Host.dotGeneral dot_S262144x24_S262144x50_S24x50_0_0_1_1_n_n none (uitofp .f32 (cmpf .ogt (Host.dotGeneral dot_S262144x24_S24x24_S262144x24_1_0_0_1_n_n none x1 x5) (broadcastInDim S262144x24 ![] bcast_S_S262144x24 (constant (F := Ideal) S_ .f32 0x3F000000#32)))) (uitofp .f32 (cmpf .ogt (addf (Host.dotGeneral dot_S262144x24_S24x50_S262144x50_1_0_0_1_n_n none (uitofp .f32 (cmpf .ogt (Host.dotGeneral dot_S262144x24_S24x24_S262144x24_1_0_0_1_n_n none x0 x2) (broadcastInDim S262144x24 ![] bcast_S_S262144x24 (constant (F := Ideal) S_ .f32 0x3F000000#32)))) x3) (Host.dotGeneral dot_S262144x24_S24x50_S262144x50_1_0_0_1_n_n none (uitofp .f32 (cmpf .ogt (Host.dotGeneral dot_S262144x24_S24x24_S262144x24_1_0_0_1_n_n none x1 x5) (broadcastInDim S262144x24 ![] bcast_S_S262144x24 (constant (F := Ideal) S_ .f32 0x3F000000#32)))) x4)) (broadcastInDim S262144x50 ![] bcast_S_S262144x50 (constant (F := Ideal) S_ .f32 0x3F000000#32)))) : FVec Ideal S24x50 .f32)
    = outer (apply1 x1 x5) (ifgOf x0 x1 x2 x5 x3 x4) := by
  rw [layer24, layer24, merged50, outer50]; rfl

/-- (first mirror layer)ᵀ·(second merged layer). -/
theorem res_sm : (Host.dotGeneral dot_S262144x24_S262144x10_S24x10_0_0_1_1_n_n none (uitofp .f32 (cmpf .ogt (Host.dotGeneral dot_S262144x24_S24x24_S262144x24_1_0_0_1_n_n none x0 x2) (broadcastInDim S262144x24 ![] bcast_S_S262144x24 (constant (F := Ideal) S_ .f32 0x3F000000#32)))) (uitofp .f32 (cmpf .ogt (addf (Host.dotGeneral dot_S262144x24_S24x10_S262144x10_1_0_0_1_n_n none (uitofp .f32 (cmpf .ogt (Host.dotGeneral dot_S262144x24_S24x24_S262144x24_1_0_0_1_n_n none x0 x2) (broadcastInDim S262144x24 ![] bcast_S_S262144x24 (constant (F := Ideal) S_ .f32 0x3F000000#32)))) x6) (Host.dotGeneral dot_S262144x24_S24x10_S262144x10_1_0_0_1_n_n none (uitofp .f32 (cmpf .ogt (Host.dotGeneral dot_S262144x24_S24x24_S262144x24_1_0_0_1_n_n none x1 x5) (broadcastInDim S262144x24 ![] bcast_S_S262144x24 (constant (F := Ideal) S_ .f32 0x3F000000#32)))) x7)) (broadcastInDim S262144x10 ![] bcast_S_S262144x10 (constant (F := Ideal) S_ .f32 0x3F000000#32)))) : FVec Ideal S24x10 .f32)
    = outer (apply1 x0 x2) (smaOf x0 x1 x2 x5 x6 x7) := by
  rw [layer24, layer24, merged10, outer10]; rfl

/-- (second mirror layer)ᵀ·(second merged layer). -/
theorem res_sp : (Host.dotGeneral dot_S262144x24_S262144x10_S24x10_0_0_1_1_n_n none (uitofp .f32 (cmpf .ogt (Host.dotGeneral dot_S262144x24_S24x24_S262144x24_1_0_0_1_n_n none x1 x5) (broadcastInDim S262144x24 ![] bcast_S_S262144x24 (constant (F := Ideal) S_ .f32 0x3F000000#32)))) (uitofp .f32 (cmpf .ogt (addf (Host.dotGeneral dot_S262144x24_S24x10_S262144x10_1_0_0_1_n_n none (uitofp .f32 (cmpf .ogt (Host.dotGeneral dot_S262144x24_S24x24_S262144x24_1_0_0_1_n_n none x0 x2) (broadcastInDim S262144x24 ![] bcast_S_S262144x24 (constant (F := Ideal) S_ .f32 0x3F000000#32)))) x6) (Host.dotGeneral dot_S262144x24_S24x10_S262144x10_1_0_0_1_n_n none (uitofp .f32 (cmpf .ogt (Host.dotGeneral dot_S262144x24_S24x24_S262144x24_1_0_0_1_n_n none x1 x5) (broadcastInDim S262144x24 ![] bcast_S_S262144x24 (constant (F := Ideal) S_ .f32 0x3F000000#32)))) x7)) (broadcastInDim S262144x10 ![] bcast_S_S262144x10 (constant (F := Ideal) S_ .f32 0x3F000000#32)))) : FVec Ideal S24x10 .f32)
    = outer (apply1 x1 x5) (smaOf x0 x1 x2 x5 x6 x7) := by
  rw [layer24, layer24, merged10, outer10]; rfl

end Results

end Cert.ReferenceIdeal.RefValue

end
-- ==== Proof.lean ====
/-
  The certificate's claim: the kernel and its reference compute the same seven arrays on the extended reals.

  Both programs apply one layered network of threshold neurons to a batch of 262144 input rows and return the
  spikes of three of its layers and four batch sums of products of layers' spikes. The reference does it with
  whole-batch matrix products (Proof/RefValue.lean). The kernel walks the batch in 32 blocks of 8192 rows: each block's
  rows of the three layers are written straight out, which is right because every layer works row by row
  (Proof/KRows.lean), and the four batch sums are accumulated block by block in scratch buffers and written out at the
  last block, which is right because a sum over all rows is the sum of the blocks' sums (Proof/KTotals.lean). The
  equality needs no finiteness of the inputs: only commutativity and associativity of addition are used.
  The frames of the two kernel programs are their generated frame certificates; the reference's frame is its
  generated run with the results dropped; the idealization rewrote nothing, so there is nothing to preserve.
-/
import proofs.«150760_j46213848105974_1_alg».proof.Defs
import proofs.«150760_j46213848105974_1_alg».proof.Proof.Gen.Kernel
import proofs.«150760_j46213848105974_1_alg».proof.Proof.Gen.KernelIdeal
import proofs.«150760_j46213848105974_1_alg».proof.Proof.Gen.ReferenceIdeal
import proofs.«150760_j46213848105974_1_alg».proof.Proof.Gen.Pre_finite_inputs
import proofs.«150760_j46213848105974_1_alg».proof.Proof.FrameKernel
import proofs.«150760_j46213848105974_1_alg».proof.Proof.KRun
import proofs.«150760_j46213848105974_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.GenP.frame m ρ

theorem frame_ki : Cert.frame_KernelIdeal := fun m ρ _ => Cert.KernelIdeal.GenP.frame m ρ

/-- The reference's run, its seven results dropped. -/
theorem frame_ri : Cert.frame_ReferenceIdeal := fun m ρ _ =>
  (θ_run Cert.ReferenceIdeal.defs _ _).mono (fun _ h c => (h c).2.2.2.2.2.2.2)
    (Cert.ReferenceIdeal.Value.run (F := Ideal) m ρ)

theorem preserves : Cert.preserves_Kernel_KernelIdeal := trivial

/-- Both runs end at the network's seven outputs of arguments that agree. -/
theorem algebraic : Cert.algebraic_KernelIdeal_ReferenceIdeal := by
  intro m ρ m' ρ' _ hagree
  refine ⟨fun c => Cert.KernelIdeal.Blocks.Gim m c, fun c => Cert.KernelIdeal.Blocks.Gip m c,
    fun c => Cert.KernelIdeal.Blocks.Gsm m c, fun c => Cert.KernelIdeal.Blocks.Gsp m c,
    fun c => Cert.KernelIdeal.Blocks.Gifg m c, fun c => Cert.KernelIdeal.Blocks.Gsma m c,
    fun c => Cert.KernelIdeal.Blocks.Gm1 m c, Cert.KernelIdeal.KRun.run m ρ, ?_⟩
  refine (θ_run Cert.ReferenceIdeal.defs _ _).mono (fun _ h c => ?_) (Cert.ReferenceIdeal.Value.run (F := Ideal) m' ρ')
  obtain ⟨a0, a1, a2, a3, a4, a5, a6, a7, a8⟩ := hagree c
  refine ⟨(h c).1.trans ?_, (h c).2.1.trans ?_, (h c).2.2.1.trans ?_, (h c).2.2.2.1.trans ?_, (h c).2.2.2.2.1.trans ?_,
    (h c).2.2.2.2.2.1.trans ?_, (h c).2.2.2.2.2.2.1.trans ?_, (h c).2.2.2.2.2.2.2⟩
  · rw [Cert.ReferenceIdeal.RefValue.res_im, a0, a1, a2, a3, a4, a5]
  · rw [Cert.ReferenceIdeal.RefValue.res_ip, a0, a1, a2, a3, a4, a5]
  · rw [Cert.ReferenceIdeal.RefValue.res_sm, a0, a1, a2, a5, a6, a7]
  · rw [Cert.ReferenceIdeal.RefValue.res_sp, a0, a1, a2, a5, a6, a7]
  · rw [Cert.ReferenceIdeal.RefValue.res_ifg, a0, a1, a2, a3, a4, a5]
  · rw [Cert.ReferenceIdeal.RefValue.res_sma, a0, a1, a2, a5, a6, a7]
  · rw [Cert.ReferenceIdeal.RefValue.res_m1, a0, a1, a2, a5, a6, a7, a8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
